-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2 : Shape := ⟨2, ![4096, 2]⟩
abbrev S8x2816x1024 : Shape := ⟨3, ![8, 2816, 1024]⟩
abbrev S8x1024x2816 : Shape := ⟨3, ![8, 1024, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x2816x1024 : S_.BroadcastsInDim S8x2816x1024 (![] : Fin 0 → Fin S8x2816x1024.rank)
  reducesTo_S8x2816x1024_S_d0_1_2 : S8x2816x1024.ReducesTo [0, 1, 2] S_
  bcast_S_S8x1024x2816 : S_.BroadcastsInDim S8x1024x2816 (![] : Fin 0 → Fin S8x1024x2816.rank)
  reducesTo_S8x1024x2816_S_d0_1_2 : S8x1024x2816.ReducesTo [0, 1, 2] S_
  bcast_S_S4096x2 : S_.BroadcastsInDim S4096x2 (![] : Fin 0 → Fin S4096x2.rank)
  reducesTo_S4096x2_S_d0_1 : S4096x2.ReducesTo [0, 1] S_

variable [Facts]

def fn_part1 {F : FTy → Type} [FloatOps F] (main_arg1 : IVec S4096x2 32) (main_v13 : IVec S_ 1) (main_v16 : IVec S8x1024x2816 1) : IVec S_ 1 :=
  let main_c_5 : IVec S_ 1 := constantI S_ 1 1#1
  let main_v17 : IVec S_ 1 := (fun x v => Host.reduce IntOp.andi x v reducesTo_S8x1024x2816_S_d0_1_2 h_S_) main_v16 main_c_5
  let main_v18 : IVec S_ 1 := andi main_v13 main_v17
  let main_c_6 : IVec S_ 32 := constantI S_ 32 0#32
  let main_v19 : IVec S4096x2 32 := broadcastInDim S4096x2 ![] bcast_S_S4096x2 main_c_6
  let main_v20 : IVec S4096x2 1 := cmpi .sge main_arg1 main_v19
  let main_c_7 : IVec S_ 1 := constantI S_ 1 1#1
  let main_v21 : IVec S_ 1 := (fun x v => Host.reduce IntOp.andi x v reducesTo_S4096x2_S_d0_1 h_S_) main_v20 main_c_7
  let main_v22 : IVec S_ 1 := andi main_v18 main_v21
  let main_c_8 : IVec S_ 32 := constantI S_ 32 8#32
  let main_v23 : IVec S4096x2 32 := broadcastInDim S4096x2 ![] bcast_S_S4096x2 main_c_8
  let main_v24 : IVec S4096x2 1 := cmpi .slt main_arg1 main_v23
  let main_c_9 : IVec S_ 1 := constantI S_ 1 1#1
  let main_v25 : IVec S_ 1 := (fun x v => Host.reduce IntOp.andi x v reducesTo_S4096x2_S_d0_1 h_S_) main_v24 main_c_9
  let main_v26 : IVec S_ 1 := andi main_v22 main_v25
  main_v26

def fn {F : FTy → Type} [FloatOps F] (main_arg0 : FVec F S4096x1024 .f32) (main_arg1 : IVec S4096x2 32) (main_arg2 : FVec F S8x2816x1024 .f32) (main_arg3 : FVec F S8x2816x1024 .f32) (main_arg4 : FVec F S8x1024x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8x2816x1024 .f32 := Host.absf main_arg2
  let main_cst_0 : FVec F S_ .f32 := constant S_ .f32 0x7F800000#32
  let main_v5 : FVec F S8x2816x1024 .f32 := broadcastInDim S8x2816x1024 ![] bcast_S_S8x2816x1024 main_cst_0
  let main_v6 : IVec S8x2816x1024 1 := cmpf .olt main_v4 main_v5
  let main_c_1 : IVec S_ 1 := constantI S_ 1 1#1
  let main_v7 : IVec S_ 1 := (fun x v => Host.reduce IntOp.andi x v reducesTo_S8x2816x1024_S_d0_1_2 h_S_) main_v6 main_c_1
  let main_v8 : IVec S_ 1 := andi main_v3 main_v7
  let main_v9 : FVec F S8x2816x1024 .f32 := Host.absf main_arg3
  let main_cst_2 : FVec F S_ .f32 := constant S_ .f32 0x7F800000#32
  let main_v10 : FVec F S8x2816x1024 .f32 := broadcastInDim S8x2816x1024 ![] bcast_S_S8x2816x1024 main_cst_2
  let main_v11 : IVec S8x2816x1024 1 := cmpf .olt main_v9 main_v10
  let main_c_3 : IVec S_ 1 := constantI S_ 1 1#1
  let main_v12 : IVec S_ 1 := (fun x v => Host.reduce IntOp.andi x v reducesTo_S8x2816x1024_S_d0_1_2 h_S_) main_v11 main_c_3
  let main_v13 : IVec S_ 1 := andi main_v8 main_v12
  let main_v14 : FVec F S8x1024x2816 .f32 := Host.absf main_arg4
  let main_cst_4 : FVec F S_ .f32 := constant S_ .f32 0x7F800000#32
  let main_v15 : FVec F S8x1024x2816 .f32 := broadcastInDim S8x1024x2816 ![] bcast_S_S8x1024x2816 main_cst_4
  let main_v16 : IVec S8x1024x2816 1 := cmpf .olt main_v14 main_v15
  fn_part1 (F := F) main_arg1 main_v13 main_v16
-- ==== Kernel.lean ====
abbrev S4096x1024 : Shape := ⟨2, ![4096, 1024]⟩
abbrev S4096x2 : Shape := ⟨2, ![4096, 2]⟩
abbrev S8x2816x1024 : Shape := ⟨3, ![8, 2816, 1024]⟩
abbrev S8x1024x2816 : Shape := ⟨3, ![8, 1024, 2816]⟩
abbrev S4096x2x1024 : Shape := ⟨3, ![4096, 2, 1024]⟩
abbrev S8192x1024 : Shape := ⟨2, ![8192, 1024]⟩
abbrev S8192 : Shape := ⟨1, ![8192]⟩
abbrev S512x1024 : Shape := ⟨2, ![512, 1024]⟩
abbrev S1x256x1024 : Shape := ⟨3, ![1, 256, 1024]⟩
abbrev S1x1024x256 : Shape := ⟨3, ![1, 1024, 256]⟩
abbrev S512 : Shape := ⟨1, ![512]⟩
abbrev S256x1024 : Shape := ⟨2, ![256, 1024]⟩
abbrev S1024x256 : Shape := ⟨2, ![1024, 256]⟩
abbrev S512x256 : Shape := ⟨2, ![512, 256]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2, .i32⟩
  | .hbm, ⟨2, _⟩ => ⟨S8x2816x1024, .f32⟩
  | .hbm, ⟨3, _⟩ => ⟨S8x2816x1024, .f32⟩
  | .hbm, ⟨4, _⟩ => ⟨S8x1024x2816, .f32⟩
  | .hbm, ⟨5, _⟩ => ⟨S4096x2x1024, .f32⟩
  | .hbm, ⟨6, _⟩ => ⟨S8192x1024, .f32⟩
  | .hbm, ⟨7, _⟩ => ⟨S8192, .i32⟩
  | .hbm, ⟨8, _⟩ => ⟨S8192x1024, .f32⟩
  | .hbm, ⟨9, _⟩ => ⟨S4096x2x1024, .f32⟩
  | .local _ .vmem, ⟨0, _⟩ => ⟨S512x1024, .f32⟩
  | .local _ .vmem, ⟨1, _⟩ => ⟨S512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024x256, .f32⟩
  | .local _ .vmem, ⟨7, _⟩ => ⟨S1x1024x256, .f32⟩
  | .local _ .vmem, ⟨8, _⟩ => ⟨S512, .i32⟩
  | .local _ .vmem, ⟨9, _⟩ => ⟨S512, .i32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 11], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg2 : BitVec 32 := BitVec.ofNat 32 (i 2).val
  let c10_i32 : BitVec 32 := 10#32
  let v35 : BitVec 1 := Scalar.cmpi .eq arg2 c10_i32
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S4096x1024_S4096x2x1024_0_2 : S4096x1024.BroadcastsInDim S4096x2x1024 (![0, 2] : Fin 2 → Fin S4096x2x1024.rank)
  shapeCasts_S4096x2x1024_S8192x1024 : S4096x2x1024.ShapeCasts S8192x1024
  shapeCasts_S4096x2_S8192 : S4096x2.ShapeCasts S8192
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  transposes_S256x1024_p1_0_S1024x256 : S256x1024.Transposes [1, 0] S1024x256
  transposes_S1024x256_p1_0_S256x1024 : S1024x256.Transposes [1, 0] S256x1024
  inb_S512_S512_0 : ∀ a, (![0] : Fin 1 → Nat) a + S512.size a ≤ S512.size a
  h_S512 : 0 < S512.numel
  shapeCasts_S512_S512 : S512.ShapeCasts S512
  natLt_1_32 : 1 < 32
  shapeCasts_S512_S512x1 : S512.ShapeCasts S512x1
  broadcasts_S512x1_S512x1024 : S512x1.Broadcasts S512x1024
  shapeCasts_S8192x1024_S4096x2x1024 : S8192x1024.ShapeCasts S4096x2x1024
  dot_S512x1024_S1024x256_S512x256_1_0_0_1_n_n_wf : DotDims.WF S512x1024 S1024x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x2816x1024.size a
  hwx0_1 : ∀ i : grid0.Coords, EltTy.bits .f32 = 32 ∨ (Rect.block (s := S8x2816x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x2816x1024.size a
  hwx0_2 : ∀ i : grid0.Coords, EltTy.bits .f32 = 32 ∨ (Rect.block (s := S8x2816x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x1024x2816.size a
  hwx0_3 : ∀ i : grid0.Coords, EltTy.bits .f32 = 32 ∨ (Rect.block (s := S8x1024x2816) S1x1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S8192.size a
  hwx0_4 : ∀ i : grid0.Coords, EltTy.bits .i32 = 32 ∨ (Rect.block (s := S8192) S512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond3 i == 1#1) | ⟨_ + 6, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x2 : Shape := ⟨2, ![4096, 2]⟩
abbrev S8x2816x1024 : Shape := ⟨3, ![8, 2816, 1024]⟩
abbrev S8x1024x2816 : Shape := ⟨3, ![8, 1024, 2816]⟩
abbrev S4096x8x2816 : Shape := ⟨3, ![4096, 8, 2816]⟩
abbrev S4096x2x1 : Shape := ⟨3, ![4096, 2, 1]⟩
abbrev S_ : Shape := ⟨0, ![]⟩
abbrev S1 : Shape := ⟨1, ![1]⟩
abbrev S1x1x1 : Shape := ⟨3, ![1, 1, 1]⟩
abbrev S4096x2x2816 : Shape := ⟨3, ![4096, 2, 2816]⟩
abbrev S4096x2x8x1024 : Shape := ⟨4, ![4096, 2, 8, 1024]⟩
abbrev S4096x2x1x1 : Shape := ⟨4, ![4096, 2, 1, 1]⟩
abbrev S1x1x1x1 : Shape := ⟨4, ![1, 1, 1, 1]⟩
abbrev S4096x2x1x1024 : Shape := ⟨4, ![4096, 2, 1, 1024]⟩
abbrev S4096x2x1024 : Shape := ⟨3, ![4096, 2, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2, .i32⟩
  | .hbm, ⟨2, _⟩ => ⟨S8x2816x1024, .f32⟩
  | .hbm, ⟨3, _⟩ => ⟨S8x2816x1024, .f32⟩
  | .hbm, ⟨4, _⟩ => ⟨S8x1024x2816, .f32⟩
  | .hbm, ⟨5, _⟩ => ⟨S4096x8x2816, .f32⟩
  | .hbm, ⟨6, _⟩ => ⟨S4096x8x2816, .f32⟩
  | .hbm, ⟨7, _⟩ => ⟨S4096x2x1, .i32⟩
  | .hbm, ⟨8, _⟩ => ⟨S_, .i32⟩
  | .hbm, ⟨9, _⟩ => ⟨S4096x2x1, .i32⟩
  | .hbm, ⟨10, _⟩ => ⟨S4096x2x1, .i1⟩
  | .hbm, ⟨11, _⟩ => ⟨S_, .i32⟩
  | .hbm, ⟨12, _⟩ => ⟨S4096x2x1, .i32⟩
  | .hbm, ⟨13, _⟩ => ⟨S4096x2x1, .i32⟩
  | .hbm, ⟨14, _⟩ => ⟨S4096x2x1, .i32⟩
  | .hbm, ⟨15, _⟩ => ⟨S1, .i32⟩
  | .hbm, ⟨16, _⟩ => ⟨S_, .i32⟩
  | .hbm, ⟨17, _⟩ => ⟨S4096x2x1, .i32⟩
  | .hbm, ⟨18, _⟩ => ⟨S4096x2x1, .i1⟩
  | .hbm, ⟨19, _⟩ => ⟨S1x1x1, .i32⟩
  | .hbm, ⟨20, _⟩ => ⟨S4096x2x1, .i32⟩
  | .hbm, ⟨21, _⟩ => ⟨S4096x2x1, .i1⟩
  | .hbm, ⟨22, _⟩ => ⟨S4096x2x1, .i1⟩
  | .hbm, ⟨23, _⟩ => ⟨S_, .i1⟩
  | .hbm, ⟨24, _⟩ => ⟨S4096x2, .i1⟩
  | .hbm, ⟨25, _⟩ => ⟨S4096x2x2816, .f32⟩
  | .hbm, ⟨26, _⟩ => ⟨S4096x2x2816, .i1⟩
  | .hbm, ⟨27, _⟩ => ⟨S_, .f32⟩
  | .hbm, ⟨28, _⟩ => ⟨S4096x2x2816, .f32⟩
  | .hbm, ⟨29, _⟩ => ⟨S4096x2x2816, .f32⟩
  | .hbm, ⟨30, _⟩ => ⟨S4096x2x2816, .f32⟩
  | .hbm, ⟨31, _⟩ => ⟨S4096x2x2816, .f32⟩
  | .hbm, ⟨32, _⟩ => ⟨S_, .f32⟩
  | .hbm, ⟨33, _⟩ => ⟨S4096x2x2816, .f32⟩
  | .hbm, ⟨34, _⟩ => ⟨S4096x2x2816, .f32⟩
  | .hbm, ⟨35, _⟩ => ⟨S_, .f32⟩
  | .hbm, ⟨36, _⟩ => ⟨S4096x2x2816, .f32⟩
  | .hbm, ⟨37, _⟩ => ⟨S4096x2x2816, .f32⟩
  | .hbm, ⟨38, _⟩ => ⟨S4096x2x2816, .f32⟩
  | .hbm, ⟨39, _⟩ => ⟨S_, .i32⟩
  | .hbm, ⟨40, _⟩ => ⟨S4096x2x1, .i32⟩
  | .hbm, ⟨41, _⟩ => ⟨S4096x2x1, .i1⟩
  | .hbm, ⟨42, _⟩ => ⟨S_, .i32⟩
  | .hbm, ⟨43, _⟩ => ⟨S4096x2x1, .i32⟩
  | .hbm, ⟨44, _⟩ => ⟨S4096x2x1, .i32⟩
  | .hbm, ⟨45, _⟩ => ⟨S4096x2x1, .i32⟩
  | .hbm, ⟨46, _⟩ => ⟨S1, .i32⟩
  | .hbm, ⟨47, _⟩ => ⟨S_, .i32⟩
  | .hbm, ⟨48, _⟩ => ⟨S4096x2x1, .i32⟩
  | .hbm, ⟨49, _⟩ => ⟨S4096x2x1, .i1⟩
  | .hbm, ⟨50, _⟩ => ⟨S1x1x1, .i32⟩
  | .hbm, ⟨51, _⟩ => ⟨S4096x2x1, .i32⟩
  | .hbm, ⟨52, _⟩ => ⟨S4096x2x1, .i1⟩
  | .hbm, ⟨53, _⟩ => ⟨S4096x2x1, .i1⟩
  | .hbm, ⟨54, _⟩ => ⟨S_, .i1⟩
  | .hbm, ⟨55, _⟩ => ⟨S4096x2, .i1⟩
  | .hbm, ⟨56, _⟩ => ⟨S4096x2x2816, .f32⟩
  | .hbm, ⟨57, _⟩ => ⟨S4096x2x2816, .i1⟩
  | .hbm, ⟨58, _⟩ => ⟨S_, .f32⟩
  | .hbm, ⟨59, _⟩ => ⟨S4096x2x2816, .f32⟩
  | .hbm, ⟨60, _⟩ => ⟨S4096x2x2816, .f32⟩
  | .hbm, ⟨61, _⟩ => ⟨S4096x2x2816, .f32⟩
  | .hbm, ⟨62, _⟩ => ⟨S4096x2x8x1024, .f32⟩
  | .hbm, ⟨63, _⟩ => ⟨S4096x2x1x1, .i32⟩
  | .hbm, ⟨64, _⟩ => ⟨S_, .i32⟩
  | .hbm, ⟨65, _⟩ => ⟨S4096x2x1x1, .i32⟩
  | .hbm, ⟨66, _⟩ => ⟨S4096x2x1x1, .i1⟩
  | .hbm, ⟨67, _⟩ => ⟨S_, .i32⟩
  | .hbm, ⟨68, _⟩ => ⟨S4096x2x1x1, .i32⟩
  | .hbm, ⟨69, _⟩ => ⟨S4096x2x1x1, .i32⟩
  | .hbm, ⟨70, _⟩ => ⟨S4096x2x1x1, .i32⟩
  | .hbm, ⟨71, _⟩ => ⟨S1, .i32⟩
  | .hbm, ⟨72, _⟩ => ⟨S_, .i32⟩
  | .hbm, ⟨73, _⟩ => ⟨S4096x2x1x1, .i32⟩
  | .hbm, ⟨74, _⟩ => ⟨S4096x2x1x1, .i1⟩
  | .hbm, ⟨75, _⟩ => ⟨S1x1x1x1, .i32⟩
  | .hbm, ⟨76, _⟩ => ⟨S4096x2x1x1, .i32⟩
  | .hbm, ⟨77, _⟩ => ⟨S4096x2x1x1, .i1⟩
  | .hbm, ⟨78, _⟩ => ⟨S4096x2x1x1, .i1⟩
  | .hbm, ⟨79, _⟩ => ⟨S_, .i1⟩
  | .hbm, ⟨80, _⟩ => ⟨S4096x2x1, .i1⟩
  | .hbm, ⟨81, _⟩ => ⟨S4096x2x1x1024, .f32⟩
  | .hbm, ⟨82, _⟩ => ⟨S4096x2x1x1024, .i1⟩
  | .hbm, ⟨83, _⟩ => ⟨S_, .f32⟩
  | .hbm, ⟨84, _⟩ => ⟨S4096x2x1x1024, .f32⟩
  | .hbm, ⟨85, _⟩ => ⟨S4096x2x1x1024, .f32⟩
  | .hbm, ⟨86, _⟩ => ⟨S4096x2x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v3 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v4 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_c_2 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_c_3 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_c_1 : Ref sig .tc := ⟨.hbm, 71, rfl⟩
abbrev main_call3_c_2 : Ref sig .tc := ⟨.hbm, 72, rfl⟩
abbrev main_call3_v5 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_c_3 : Ref sig .tc := ⟨.hbm, 79, rfl⟩
abbrev main_call3_v11 : Ref sig .tc := ⟨.hbm, 80, rfl⟩
abbrev main_call3_v12 : Ref sig .tc := ⟨.hbm, 81, rfl⟩
abbrev main_call3_v13 : Ref sig .tc := ⟨.hbm, 82, rfl⟩
abbrev main_call3_cst : Ref sig .tc := ⟨.hbm, 83, rfl⟩
abbrev main_call3_v14 : Ref sig .tc := ⟨.hbm, 84, rfl⟩
abbrev main_v9 : Ref sig .tc := ⟨.hbm, 85, rfl⟩
abbrev main_v10 : Ref sig .tc := ⟨.hbm, 86, rfl⟩

abbrev nD : Nat := 1
abbrev τ : Topo := Topo.v7x

variable {F : FTy → Type} [FloatOps F]

class Facts₀ : Prop where
  bcast_S4096x2_S4096x2x1_0_1 : S4096x2.BroadcastsInDim S4096x2x1 (![0, 1] : Fin 2 → Fin S4096x2x1.rank)
  bcast_S_S4096x2x1 : S_.BroadcastsInDim S4096x2x1 (![] : Fin 0 → Fin S4096x2x1.rank)
  bcast_S1_S1x1x1_2 : S1.BroadcastsInDim S1x1x1 (![2] : Fin 1 → Fin S1x1x1.rank)
  bcast_S1x1x1_S4096x2x1_0_1_2 : S1x1x1.BroadcastsInDim S4096x2x1 (![0, 1, 2] : Fin 3 → Fin S4096x2x1.rank)
  reducesTo_S4096x2x1_S4096x2_d2 : S4096x2x1.ReducesTo [2] S4096x2
  h_S_ : 0 < S_.numel
  bcast_S4096x2_S4096x2x2816_0_1 : S4096x2.BroadcastsInDim S4096x2x2816 (![0, 1] : Fin 2 → Fin S4096x2x2816.rank)
  bcast_S_S4096x2x2816 : S_.BroadcastsInDim S4096x2x2816 (![] : Fin 0 → Fin S4096x2x2816.rank)
  bcast_S4096x2x1_S4096x2x1x1_0_1_2 : S4096x2x1.BroadcastsInDim S4096x2x1x1 (![0, 1, 2] : Fin 3 → Fin S4096x2x1x1.rank)
  bcast_S_S4096x2x1x1 : S_.BroadcastsInDim S4096x2x1x1 (![] : Fin 0 → Fin S4096x2x1x1.rank)
  bcast_S1_S1x1x1x1_3 : S1.BroadcastsInDim S1x1x1x1 (![3] : Fin 1 → Fin S1x1x1x1.rank)
  bcast_S1x1x1x1_S4096x2x1x1_0_1_2_3 : S1x1x1x1.BroadcastsInDim S4096x2x1x1 (![0, 1, 2, 3] : Fin 4 → Fin S4096x2x1x1.rank)
  reducesTo_S4096x2x1x1_S4096x2x1_d3 : S4096x2x1x1.ReducesTo [3] S4096x2x1
  bcast_S4096x2x1_S4096x2x1x1024_0_1_2 : S4096x2x1.BroadcastsInDim S4096x2x1x1024 (![0, 1, 2] : Fin 3 → Fin S4096x2x1x1024.rank)
  bcast_S_S4096x2x1x1024 : S_.BroadcastsInDim S4096x2x1x1024 (![] : Fin 0 → Fin S4096x2x1x1024.rank)
  shapeCasts_S4096x2x1x1024_S4096x2x1024 : S4096x2x1x1024.ShapeCasts S4096x2x1024
  dot_S4096x1024_S8x2816x1024_S4096x8x2816_1_2_0_01_n_n_wf : DotDims.WF S4096x1024 S8x2816x1024 S4096x8x2816 [1] [2] [0] [0, 1] [] []
  gather_S4096x8x2816_S4096x2x1_S4096x2x2816_2_1_0_0_1_2_112816_wf : GatherDims.WF S4096x8x2816 S4096x2x1 S4096x2x2816 [2] [1] [0] [1] [0] 2 ![1, 1, 2816]
  dot_S4096x2x2816_S8x1024x2816_S4096x2x8x1024_2_2_01_01_n_n_wf : DotDims.WF S4096x2x2816 S8x1024x2816 S4096x2x8x1024 [2] [2] [0, 1] [0, 1] [] []
  gather_S4096x2x8x1024_S4096x2x1x1_S4096x2x1x1024_3_2_01_01_2_3_1111024_wf : GatherDims.WF S4096x2x8x1024 S4096x2x1x1 S4096x2x1x1024 [3] [2] [0, 1] [2] [0, 1] 3 ![1, 1, 1, 1024]

variable [Facts₀]

def dot_S4096x1024_S8x2816x1024_S4096x8x2816_1_2_0_01_n_n : DotDims S4096x1024 S8x2816x1024 S4096x8x2816 where
  lhsContracting := [1]
  rhsContracting := [2]
  lhsNonContracting := [0]
  rhsNonContracting := [0, 1]
  lhsBatch := []
  rhsBatch := []
  wf := dot_S4096x1024_S8x2816x1024_S4096x8x2816_1_2_0_01_n_n_wf
def gather_S4096x8x2816_S4096x2x1_S4096x2x2816_2_1_0_0_1_2_112816 : GatherDims S4096x8x2816 S4096x2x1 S4096x2x2816 where
  offsetDims := [2]
  collapsedSliceDims := [1]
  operandBatchingDims := [0]
  startIndicesBatchingDims := [0]
  startIndexMap := [1]
  indexVectorDim := 2
  sliceSizes := ![1, 1, 2816]
  wf := gather_S4096x8x2816_S4096x2x1_S4096x2x2816_2_1_0_0_1_2_112816_wf
def dot_S4096x2x2816_S8x1024x2816_S4096x2x8x1024_2_2_01_01_n_n : DotDims S4096x2x2816 S8x1024x2816 S4096x2x8x1024 where
  lhsContracting := [2]
  rhsContracting := [2]
  lhsNonContracting := [0, 1]
  rhsNonContracting := [0, 1]
  lhsBatch := []
  rhsBatch := []
  wf := dot_S4096x2x2816_S8x1024x2816_S4096x2x8x1024_2_2_01_01_n_n_wf
def gather_S4096x2x8x1024_S4096x2x1x1_S4096x2x1x1024_3_2_01_01_2_3_1111024 : GatherDims S4096x2x8x1024 S4096x2x1x1 S4096x2x1x1024 where
  offsetDims := [3]
  collapsedSliceDims := [2]
  operandBatchingDims := [0, 1]
  startIndicesBatchingDims := [0, 1]
  startIndexMap := [2]
  indexVectorDim := 3
  sliceSizes := ![1, 1, 1, 1024]
  wf := gather_S4096x2x8x1024_S4096x2x1x1_S4096x2x1x1024_3_2_01_01_2_3_1111024_wf

class Facts : Prop extends Facts₀ where

variable [Facts]
-- ==== Proof.K.Cases.lean ====
/- The grid of the expert kernel is 16 row tiles × 8 experts × 11 hidden tiles, walked with the hidden tile fastest:
   point t is row tile t / 88, expert (t % 88) / 11, hidden tile t % 11.  The body branches three times on the point:
   "first point of a row tile" (expert 0 and hidden tile 0: the output block is zeroed), "first hidden tile" (the
   accumulator is zeroed) and "last hidden tile" (the accumulator, masked by the routing, is added into the output
   block).  Here: those three conditions in closed form over the grid, the four combinations the grid meets, where
   the output window is idle (exactly where neither the first nor the third branch is taken), and the staging
   memrefs the body is called with at a point. -/
import proofs.«412612_j8624294331062_1_alg».proof.Proof.Gen.Kernel.Frame
import proofs.«412612_j8624294331062_1_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "First point of a row tile": expert 0 and hidden tile 0. -/
abbrev rowStart (i : grid0.Coords) : Prop := k0_cond1 i = 1#1
/-- "First hidden tile", as the body computes it from the third coordinate. -/
abbrev tileStart (i : grid0.Coords) : Prop :=
  (Scalar.cmpi .ne (Scalar.extui (Scalar.cmpi .eq (BitVec.ofNat 32 (i 2).val) 0#32)) 0#32) = 1#1
/-- "Last hidden tile" (tile 10 of 11). -/
abbrev tileEnd (i : grid0.Coords) : Prop := k0_cond3 i = 1#1

theorem rowStart_iff : ∀ t : Fin cfg0.N, rowStart (grid0.coords t) ↔ t.val % 88 = 0 :=
  (by decide +kernel : ∀ t : Fin grid0.N, rowStart (grid0.coords t) ↔ t.val % 88 = 0)
theorem tileStart_iff : ∀ t : Fin cfg0.N, tileStart (grid0.coords t) ↔ t.val % 11 = 0 :=
  (by decide +kernel : ∀ t : Fin grid0.N, tileStart (grid0.coords t) ↔ t.val % 11 = 0)
theorem tileEnd_iff : ∀ t : Fin cfg0.N, tileEnd (grid0.coords t) ↔ t.val % 11 = 10 :=
  (by decide +kernel : ∀ t : Fin grid0.N, tileEnd (grid0.coords t) ↔ t.val % 11 = 10)

/-- The expert coordinate of point `t`. -/
theorem coord1_val : ∀ t : Fin cfg0.N, (grid0.coords t 1).val = t.val % 88 / 11 :=
  (by decide +kernel : ∀ t : Fin grid0.N, (grid0.coords t 1).val = t.val % 88 / 11)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is idle exactly at the points that neither zero it nor add into it. -/
theorem idle5_iff : ∀ t : Fin cfg0.N, cfg0.idle 5 (grid0.coords t) = true ↔ (t.val % 88 ≠ 0 ∧ t.val % 11 ≠ 10) :=
  (by decide +kernel : ∀ t : Fin grid0.N, cfg0.idle 5 (grid0.coords t) = true ↔ (t.val % 88 ≠ 0 ∧ t.val % 11 ≠ 10))

/-- Each window's current staging memref at point `t`, as the pipeline passes it to the body, and its wholeness. -/
abbrev mr0 (t : Fin cfg0.N) : Memref sig .tc .vmem S512x1024 .f32 := win0_0.stage (cfg0.slots t 0)
abbrev wh0 (t : Fin cfg0.N) : (mr0 t).IsWhole := hstage0_0 ((cfg0.slots t 0).cast nbuf0_0)
abbrev mr1 (t : Fin cfg0.N) : Memref sig .tc .vmem S1x256x1024 .f32 := win0_1.stage (cfg0.slots t 1)
abbrev wh1 (t : Fin cfg0.N) : (mr1 t).IsWhole := hstage0_1 ((cfg0.slots t 1).cast nbuf0_1)
abbrev mr2 (t : Fin cfg0.N) : Memref sig .tc .vmem S1x256x1024 .f32 := win0_2.stage (cfg0.slots t 2)
abbrev wh2 (t : Fin cfg0.N) : (mr2 t).IsWhole := hstage0_2 ((cfg0.slots t 2).cast nbuf0_2)
abbrev mr3 (t : Fin cfg0.N) : Memref sig .tc .vmem S1x1024x256 .f32 := win0_3.stage (cfg0.slots t 3)
abbrev wh3 (t : Fin cfg0.N) : (mr3 t).IsWhole := hstage0_3 ((cfg0.slots t 3).cast nbuf0_3)
abbrev mr4 (t : Fin cfg0.N) : Memref sig .tc .vmem S512 .i32 := win0_4.stage (cfg0.slots t 4)
abbrev wh4 (t : Fin cfg0.N) : (mr4 t).IsWhole := hstage0_4 ((cfg0.slots t 4).cast nbuf0_4)
abbrev mr5 (t : Fin cfg0.N) : Memref sig .tc .vmem S512x1024 .f32 := win0_5.stage (cfg0.slots t 5)
abbrev wh5 (t : Fin cfg0.N) : (mr5 t).IsWhole := hstage0_5 ((cfg0.slots t 5).cast nbuf0_5)
/-- The accumulator: a whole scoped buffer of the kernel's own. -/
abbrev accM : Memref sig .tc .vmem S512x1024 .f32 := Memref.whole cc0_scratch0

/-- What the launch lends the region besides the windows: the accumulator at some contents, and the generator register. -/
theorem lent_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.K.Data.lean ====
/- What the kernel's two carried buffers hold after each grid point, as a recursion on the point, and the pipeline's
   proof data built on it.

   The accumulator (a scratch buffer) and the output block (the output window's staging buffer, written back only
   at the last point of a row tile) are both carried from point to point.  One point does this:
   * at the first point of a row tile the output block becomes zero;
   * at a first hidden tile the accumulator restarts from zero; at every point it then gains this point's
     partial product (`accStep`);
   * at a last hidden tile the output block gains (routing mask) × (the accumulator just completed) (`outStep`);
   * at every other point the output block is left as found.
   `outsAt m c n` is the pair (output block, accumulator) after point `n`. -/
import proofs.«412612_j8624294331062_1_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after one point: what it held plus the point's partial product of the row tile with the
    expert's gate, up and down tiles. -/
def accStep (x0 : Vec F S512x1024 .f32) (x1 x2 : Vec F S1x256x1024 .f32) (x3 : Vec F S1x1024x256 .f32)
    (a : Vec F S512x1024 .f32) : Vec F S512x1024 .f32 :=
  k0_pay1 (k0_pay5 x0 x1 x2 x3 a)

/-- The output block after a last hidden tile: what it held plus (routing word = this expert) × the accumulator. -/
def outStep (i : grid0.Coords) (x4 : Vec F S512 .i32) (o a : Vec F S512x1024 .f32) : Vec F S512x1024 .f32 :=
  k0_pay2 (BitVec.ofNat 32 (i 1).val) x4 o a

/-- The zero block the output is reset to, and the zero block the accumulator is reset to. -/
def zeroOut : Vec F S512x1024 .f32 := k0_pay3 (F := F)
def zeroAcc : Vec F S512x1024 .f32 := k0_pay4 (F := F)

/-- (output block, accumulator) after point `n`. -/
def outsAt (c : Dev nD) : (n : ℕ) → n < cfg0.N → Vec F S512x1024 .f32 × Vec F S512x1024 .f32
  | 0, hn => (zeroOut, accStep (iblk m c 0 ⟨0, hn⟩) (iblk m c 1 ⟨0, hn⟩) (iblk m c 2 ⟨0, hn⟩) (iblk m c 3 ⟨0, hn⟩) zeroAcc)
  | n + 1, hn =>
    if (n + 1) % 88 = 0 then
      (zeroOut, accStep (iblk m c 0 ⟨n + 1, hn⟩) (iblk m c 1 ⟨n + 1, hn⟩) (iblk m c 2 ⟨n + 1, hn⟩) (iblk m c 3 ⟨n + 1, hn⟩) zeroAcc)
    else if (n + 1) % 11 = 0 then
      ((outsAt c n (Nat.lt_of_succ_lt hn)).1, accStep (iblk m c 0 ⟨n + 1, hn⟩) (iblk m c 1 ⟨n + 1, hn⟩) (iblk m c 2 ⟨n + 1, hn⟩) (iblk m c 3 ⟨n + 1, hn⟩) zeroAcc)
    else if (n + 1) % 11 = 10 then
      (outStep (grid0.coords ⟨n + 1, hn⟩) (iblk m c 4 ⟨n + 1, hn⟩) (outsAt c n (Nat.lt_of_succ_lt hn)).1
          (accStep (iblk m c 0 ⟨n + 1, hn⟩) (iblk m c 1 ⟨n + 1, hn⟩) (iblk m c 2 ⟨n + 1, hn⟩) (iblk m c 3 ⟨n + 1, hn⟩) (outsAt c n (Nat.lt_of_succ_lt hn)).2),
        accStep (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
    else
      ((outsAt c n (Nat.lt_of_succ_lt hn)).1,
        accStep (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- The pair the point before `t` left. -/
abbrev prevAt (c : Dev nD) (t : Fin cfg0.N) : Vec F S512x1024 .f32 × Vec F S512x1024 .f32 :=
  outsAt m c (t.val - 1) (Nat.lt_of_le_of_lt (Nat.sub_le _ _) t.isLt)

theorem outsAt_rowStart (c : Dev nD) (t : Fin cfg0.N) (h0 : t.val % 88 = 0) :
    outsAt m c t.val t.isLt = (zeroOut, accStep (iblk m c 0 t) (iblk m c 1 t) (iblk m c 2 t) (iblk m c 3 t) zeroAcc) := by
  obtain ⟨n, hn⟩ := t
  cases n with
  | zero => rfl
  | succ n => exact (if_pos h0)

theorem outsAt_tileStart (c : Dev nD) (t : Fin cfg0.N) (h0 : ¬t.val % 88 = 0) (h1 : t.val % 11 = 0) :
    outsAt m c t.val t.isLt = ((prevAt m c t).1, accStep (iblk m c 0 t) (iblk m c 1 t) (iblk m c 2 t) (iblk m c 3 t) zeroAcc) := by
  obtain ⟨n, hn⟩ := t
  cases n with
  | zero => exact absurd (Nat.zero_mod _) h0
  | succ n => exact (if_neg h0).trans (if_pos h1)

theorem outsAt_tileEnd (c : Dev nD) (t : Fin cfg0.N) (h0 : ¬t.val % 88 = 0) (h1 : ¬t.val % 11 = 0) (h2 : t.val % 11 = 10) :
    outsAt m c t.val t.isLt = (outStep (grid0.coords t) (iblk m c 4 t) (prevAt m c t).1
        (accStep (iblk m c 0 t) (iblk m c 1 t) (iblk m c 2 t) (iblk m c 3 t) (prevAt m c t).2), accStep (iblk m c 0 t) (iblk m c 1 t) (iblk m c 2 t) (iblk m c 3 t) (prevAt m c t).2) := by
  obtain ⟨n, hn⟩ := t
  cases n with
  | zero => exact absurd (Nat.zero_mod _) h0
  | succ n => exact (if_neg h0).trans ((if_neg h1).trans (if_pos h2))

theorem outsAt_mid (c : Dev nD) (t : Fin cfg0.N) (h0 : ¬t.val % 88 = 0) (h1 : ¬t.val % 11 = 0) (h2 : ¬t.val % 11 = 10) :
    outsAt m c t.val t.isLt = ((prevAt m c t).1, accStep (iblk m c 0 t) (iblk m c 1 t) (iblk m c 2 t) (iblk m c 3 t) (prevAt m c t).2) := by
  obtain ⟨n, hn⟩ := t
  cases n with
  | zero => exact absurd (Nat.zero_mod _) h0
  | succ n => exact (if_neg h0).trans ((if_neg h1).trans (if_neg h2))

/-- The region's invariant before point `n`: before the first point what the launch lends (the accumulator at
    anything); afterwards the accumulator at what the point before left, and the generator register. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-- The proof data of the pipeline on core `c`: the arrays as the region finds them; after the body each input's
    buffer at its block and the output's at `outsAt`'s first component; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).1 := by dsimp only [dats]

end Cert.Kernel.Hand

end
-- ==== Proof.K.RunStart.lean ====
/- The kernel body run at the two kinds of point that restart the accumulator.
   Each statement is a triple for the whole kernel body on whole staging memrefs: the five input buffers at given
   contents come back unchanged; the output block and the accumulator come back at the contents the recursion
   `outsAt` names for that kind of point (`zeroOut`, `accStep`, `outStep`). -/
import proofs.«412612_j8624294331062_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a whole-block access are all zero, at each rank the body meets. -/
private theorem hz2 : (![0, 0] : Fin S512x1024.rank → ℕ) = fun _ => 0 := by funext a; fin_cases a <;> rfl
private theorem hz3a : (![0, 0, 0] : Fin S1x256x1024.rank → ℕ) = fun _ => 0 := by funext a; fin_cases a <;> rfl
private theorem hz3b : (![0, 0, 0] : Fin S1x1024x256.rank → ℕ) = fun _ => 0 := by funext a; fin_cases a <;> rfl

/-- A store of the whole 512×1024 block covers every index of the block, whatever was stored before it. -/
private theorem cover_whole {Val : EltTy → Type} (inb : ∀ a, (![0, 0] : Fin S512x1024.rank → ℕ) a + S512x1024.size a ≤ S512x1024.size a)
    (w : S512x1024.Idx → Val .f32) (L : List (View.Piece Val S512x1024 .f32)) (y : S512x1024.Idx) :
    ∃ p ∈ ((⟨Rect.unit (s := S512x1024) ![0, 0] S512x1024.size inb, w⟩ : View.Piece Val S512x1024 .f32) :: L), y ∈ p.1.set :=
  ⟨_, List.Mem.head _, View.mem_set_unit_zero (S := S512x1024) hz2 inb y⟩

/-- So a buffer whose last store was of the whole block reads as that store's value: earlier stores and the
    contents before them are overwritten. -/
private theorem read_after_whole {Val : EltTy → Type} [∀ e, Nonempty (Val e)] {sig : RefSig} {κ : Kind} {sp : Space}
    (v : View sig κ sp S512x1024 .f32) (f : v.ty.Contents Val)
    (inb : ∀ a, (![0, 0] : Fin S512x1024.rank → ℕ) a + S512x1024.size a ≤ S512x1024.size a)
    (w : S512x1024.Idx → Val .f32) (L : List (View.Piece Val S512x1024 .f32)) :
    v.read Val (v.writes Val f ((⟨Rect.unit (s := S512x1024) ![0, 0] S512x1024.size inb, w⟩ : View.Piece Val S512x1024 .f32) :: L)) = w := by
  rw [View.read_writes_eq_canon v f _ (cover_whole inb w L), View.canon_cons_unit_zero (S := S512x1024) hz2 inb w L]

/-- At the first point of a row tile: the output block is zeroed, the accumulator restarts from zero and gains the point's partial product. Neither buffer's previous contents matter. -/
theorem run_rowStart (c : Dev nD) (i : grid0.Coords) (arg3 : Memref sig .tc .vmem S512x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1024x256 .f32) (harg6 : arg6.IsWhole) (arg7 : Memref sig .tc .vmem S512 .i32) (harg7 : arg7.IsWhole) (arg8 : Memref sig .tc .vmem S512x1024 .f32) (harg8 : arg8.IsWhole) (arg9 : Memref sig .tc .vmem S512x1024 .f32) (harg9 : arg9.IsWhole) (hc0 : rowStart i) (hc1 : tileStart i) (hc2 : ¬tileEnd i)
    (x0 : Vec F S512x1024 .f32) (x1 : Vec F S1x256x1024 .f32) (x2 : Vec F S1x256x1024 .f32) (x3 : Vec F S1x1024x256 .f32) (x4 : Vec F S512 .i32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare zeroOut ∗ owns (c : Thread nD τ) arg9 fullShare (accStep x0 x1 x2 x3 zeroAcc)) -∗ K ⟨⟩))
      ⊢ wp frame (wpE (defs₀ (F := F)) Variants.none c none) E (cc0__moe_kernel i arg3 harg3 arg4 harg4 arg5 harg5 arg6 harg6 arg7 harg7 arg8 harg8 arg9 harg9) K := by
  simp only [cc0__moe_kernel_eq_skeleton]; unfold cc0__moe_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    exact (read_after_whole _ _ _ _ _).trans rfl
  iexists _; isplitr; swap; · iexact H6
  ipureintro
  refine (read_after_whole _ _ _ _ _).trans ?_
  sl_unfold_words
  simp only [View.readAt_eq_ld, harg3.read_unread, harg4.read_unread, harg5.read_unread, harg6.read_unread,
    View.ld_unit_zero (S := S512x1024) hz2, View.ld_unit_zero (S := S1x256x1024) hz3a,
    View.ld_unit_zero (S := S1x1024x256) hz3b, View.readCov_unit_zero (S := S512x1024) _ hz2]
  rfl

/-- At a first hidden tile that is not the first point of a row tile: the output block is left as found, the accumulator restarts from zero and gains the point's partial product. -/
theorem run_tileStart (c : Dev nD) (i : grid0.Coords) (arg3 : Memref sig .tc .vmem S512x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1024x256 .f32) (harg6 : arg6.IsWhole) (arg7 : Memref sig .tc .vmem S512 .i32) (harg7 : arg7.IsWhole) (arg8 : Memref sig .tc .vmem S512x1024 .f32) (harg8 : arg8.IsWhole) (arg9 : Memref sig .tc .vmem S512x1024 .f32) (harg9 : arg9.IsWhole) (hc0 : ¬rowStart i) (hc1 : tileStart i) (hc2 : ¬tileEnd i)
    (x0 : Vec F S512x1024 .f32) (x1 : Vec F S1x256x1024 .f32) (x2 : Vec F S1x256x1024 .f32) (x3 : Vec F S1x1024x256 .f32) (x4 : Vec F S512 .i32) (xo : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare (accStep x0 x1 x2 x3 zeroAcc)) -∗ K ⟨⟩))
      ⊢ wp frame (wpE (defs₀ (F := F)) Variants.none c none) E (cc0__moe_kernel i arg3 harg3 arg4 harg4 arg5 harg5 arg6 harg6 arg7 harg7 arg8 harg8 arg9 harg9) K := by
  simp only [cc0__moe_kernel_eq_skeleton]; unfold cc0__moe_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr; swap; · iexact H6
  ipureintro
  refine (read_after_whole _ _ _ _ _).trans ?_
  sl_unfold_words
  simp only [View.readAt_eq_ld, harg3.read_unread, harg4.read_unread, harg5.read_unread, harg6.read_unread,
    View.ld_unit_zero (S := S512x1024) hz2, View.ld_unit_zero (S := S1x256x1024) hz3a,
    View.ld_unit_zero (S := S1x1024x256) hz3b, View.readCov_unit_zero (S := S512x1024) _ hz2]
  rfl

end Cert.Kernel.Hand

end
-- ==== Proof.K.RunEnd.lean ====
/- The kernel body run at the two kinds of point that continue the accumulator.
   Each statement is a triple for the whole kernel body on whole staging memrefs: the five input buffers at given
   contents come back unchanged; the output block and the accumulator come back at the contents the recursion
   `outsAt` names for that kind of point (`zeroOut`, `accStep`, `outStep`). -/
import proofs.«412612_j8624294331062_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-two block, as the constant function. -/
private theorem zeros2 : (![0, 0] : Fin S512x1024.rank → ℕ) = fun _ => 0 := by funext a; fin_cases a <;> rfl

/-- The zero offsets of a rank-three block and of a rank-one block, as constant functions. -/
private theorem zeros3a : (![0, 0, 0] : Fin S1x256x1024.rank → ℕ) = fun _ => 0 := by funext a; fin_cases a <;> rfl
private theorem zeros3b : (![0, 0, 0] : Fin S1x1024x256.rank → ℕ) = fun _ => 0 := by funext a; fin_cases a <;> rfl
private theorem zeros1 : (![0] : Fin S512.rank → ℕ) = fun _ => 0 := by funext a; fin_cases a; rfl

/-- One store of the whole 512×1024 block, over any contents, reads back as its payload. -/
private theorem read_one_store (arg : Memref sig .tc .vmem S512x1024 .f32) (f : arg.view.ty.Contents (Elt F)) (w : Vec F S512x1024 .f32) :
    arg.view.read (Elt F) (arg.view.writes (Elt F) f
      [(⟨Rect.unit (s := S512x1024) ![0, 0] S512x1024.size inb_S512x1024_S512x1024_0_0, w⟩ : View.Piece (Elt F) S512x1024 .f32)]) = w := by
  have hcov : ∀ y : S512x1024.Idx, ∃ p ∈ [(⟨Rect.unit (s := S512x1024) ![0, 0] S512x1024.size inb_S512x1024_S512x1024_0_0, w⟩ : View.Piece (Elt F) S512x1024 .f32)], y ∈ p.1.set :=
    fun y => ⟨_, List.mem_singleton_self _, View.mem_set_unit_zero (S := S512x1024) zeros2 inb_S512x1024_S512x1024_0_0 y⟩
  rw [View.read_writes_eq_canon arg.view f _ hcov, View.canon_unit_zero (S := S512x1024) zeros2 inb_S512x1024_S512x1024_0_0 w]

/-- A load of a whole block from a whole buffer at known contents reads those contents. -/
private theorem load_whole2 (arg : Memref sig .tc .vmem S512x1024 .f32) (harg : arg.IsWhole) (x : Vec F S512x1024 .f32) :
    View.readAt (Elt F) arg.view (Rect.unit (s := S512x1024) ![0, 0] S512x1024.size inb_S512x1024_S512x1024_0_0).toLoadRect (harg.unread x) = x := by
  rw [View.readAt_eq_ld, harg.read_unread, View.ld_unit_zero (S := S512x1024) zeros2]

private theorem load_whole3a (arg : Memref sig .tc .vmem S1x256x1024 .f32) (harg : arg.IsWhole) (x : Vec F S1x256x1024 .f32) :
    View.readAt (Elt F) arg.view (Rect.unit (s := S1x256x1024) ![0, 0, 0] S1x256x1024.size inb_S1x256x1024_S1x256x1024_0_0_0).toLoadRect (harg.unread x) = x := by
  rw [View.readAt_eq_ld, harg.read_unread, View.ld_unit_zero (S := S1x256x1024) zeros3a]

private theorem load_whole3b (arg : Memref sig .tc .vmem S1x1024x256 .f32) (harg : arg.IsWhole) (x : Vec F S1x1024x256 .f32) :
    View.readAt (Elt F) arg.view (Rect.unit (s := S1x1024x256) ![0, 0, 0] S1x1024x256.size inb_S1x1024x256_S1x1024x256_0_0_0).toLoadRect (harg.unread x) = x := by
  rw [View.readAt_eq_ld, harg.read_unread, View.ld_unit_zero (S := S1x1024x256) zeros3b]

private theorem load_whole1 (arg : Memref sig .tc .vmem S512 .i32) (harg : arg.IsWhole) (x : Vec F S512 .i32) :
    View.readAt (Elt F) arg.view (Rect.unit (s := S512) ![0] S512.size inb_S512_S512_0).toLoadRect (harg.unread x) = x := by
  rw [View.readAt_eq_ld, harg.read_unread, View.ld_unit_zero (S := S512) zeros1]

/-- A load of the whole block right after one store of the whole block reads the stored payload. -/
private theorem readback2 (arg : Memref sig .tc .vmem S512x1024 .f32) (w : Vec F S512x1024 .f32) :
    arg.view.readCov [(⟨Rect.unit (s := S512x1024) ![0, 0] S512x1024.size inb_S512x1024_S512x1024_0_0, w⟩ : View.Piece (Elt F) S512x1024 .f32)]
      (Rect.unit (s := S512x1024) ![0, 0] S512x1024.size inb_S512x1024_S512x1024_0_0).toLoadRect = w :=
  View.readCov_unit_zero (S := S512x1024) arg.view zeros2 inb_S512x1024_S512x1024_0_0 w

/-- The accumulator's new contents, computed from the five loads of whole buffers at known contents, is the point's step. -/
private theorem acc_val (arg3 : Memref sig .tc .vmem S512x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1024x256 .f32) (harg6 : arg6.IsWhole) (arg9 : Memref sig .tc .vmem S512x1024 .f32) (harg9 : arg9.IsWhole)
    (x0 : Vec F S512x1024 .f32) (x1 : Vec F S1x256x1024 .f32) (x2 : Vec F S1x256x1024 .f32) (x3 : Vec F S1x1024x256 .f32) (xs : Vec F S512x1024 .f32) :
    k0_pay1 (k0_pay5
        (View.readAt (Elt F) arg3.view (Rect.unit (s := S512x1024) ![0, 0] S512x1024.size inb_S512x1024_S512x1024_0_0).toLoadRect (harg3.unread x0))
        (View.readAt (Elt F) arg4.view (Rect.unit (s := S1x256x1024) ![0, 0, 0] S1x256x1024.size inb_S1x256x1024_S1x256x1024_0_0_0).toLoadRect (harg4.unread x1))
        (View.readAt (Elt F) arg5.view (Rect.unit (s := S1x256x1024) ![0, 0, 0] S1x256x1024.size inb_S1x256x1024_S1x256x1024_0_0_0).toLoadRect (harg5.unread x2))
        (View.readAt (Elt F) arg6.view (Rect.unit (s := S1x1024x256) ![0, 0, 0] S1x1024x256.size inb_S1x1024x256_S1x1024x256_0_0_0).toLoadRect (harg6.unread x3))
        (View.readAt (Elt F) arg9.view (Rect.unit (s := S512x1024) ![0, 0] S512x1024.size inb_S512x1024_S512x1024_0_0).toLoadRect (harg9.unread xs)))
      = accStep x0 x1 x2 x3 xs := by
  rw [load_whole2 arg3 harg3 x0, load_whole3a arg4 harg4 x1, load_whole3a arg5 harg5 x2, load_whole3b arg6 harg6 x3, load_whole2 arg9 harg9 xs]
  rfl

/-- At a point that is neither a first nor a last hidden tile: the output block is left as found, the accumulator gains the point's partial product. -/
theorem run_mid (c : Dev nD) (i : grid0.Coords) (arg3 : Memref sig .tc .vmem S512x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1024x256 .f32) (harg6 : arg6.IsWhole) (arg7 : Memref sig .tc .vmem S512 .i32) (harg7 : arg7.IsWhole) (arg8 : Memref sig .tc .vmem S512x1024 .f32) (harg8 : arg8.IsWhole) (arg9 : Memref sig .tc .vmem S512x1024 .f32) (harg9 : arg9.IsWhole) (hc0 : ¬rowStart i) (hc1 : ¬tileStart i) (hc2 : ¬tileEnd i)
    (x0 : Vec F S512x1024 .f32) (x1 : Vec F S1x256x1024 .f32) (x2 : Vec F S1x256x1024 .f32) (x3 : Vec F S1x1024x256 .f32) (x4 : Vec F S512 .i32) (xo xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare (accStep x0 x1 x2 x3 xs)) -∗ K ⟨⟩))
      ⊢ wp frame (wpE (defs₀ (F := F)) Variants.none c none) E (cc0__moe_kernel i arg3 harg3 arg4 harg4 arg5 harg5 arg6 harg6 arg7 harg7 arg8 harg8 arg9 harg9) K := by
  simp only [cc0__moe_kernel_eq_skeleton]; unfold cc0__moe_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr; swap; · iexact H6
  ipureintro
  refine (read_one_store _ _ _).trans ?_
  sl_unfold_words
  exact acc_val arg3 harg3 arg4 harg4 arg5 harg5 arg6 harg6 arg9 harg9 x0 x1 x2 x3 xs

/-- At a last hidden tile: the accumulator gains the point's partial product, and the output block gains the routing mask times the completed accumulator. -/
theorem run_tileEnd (c : Dev nD) (i : grid0.Coords) (arg3 : Memref sig .tc .vmem S512x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1024x256 .f32) (harg6 : arg6.IsWhole) (arg7 : Memref sig .tc .vmem S512 .i32) (harg7 : arg7.IsWhole) (arg8 : Memref sig .tc .vmem S512x1024 .f32) (harg8 : arg8.IsWhole) (arg9 : Memref sig .tc .vmem S512x1024 .f32) (harg9 : arg9.IsWhole) (hc0 : ¬rowStart i) (hc1 : ¬tileStart i) (hc2 : tileEnd i)
    (x0 : Vec F S512x1024 .f32) (x1 : Vec F S1x256x1024 .f32) (x2 : Vec F S1x256x1024 .f32) (x3 : Vec F S1x1024x256 .f32) (x4 : Vec F S512 .i32) (xo xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outStep i x4 xo (accStep x0 x1 x2 x3 xs)) ∗ owns (c : Thread nD τ) arg9 fullShare (accStep x0 x1 x2 x3 xs)) -∗ K ⟨⟩))
      ⊢ wp frame (wpE (defs₀ (F := F)) Variants.none c none) E (cc0__moe_kernel i arg3 harg3 arg4 harg4 arg5 harg5 arg6 harg6 arg7 harg7 arg8 harg8 arg9 harg9) K := by
  simp only [cc0__moe_kernel_eq_skeleton]; unfold cc0__moe_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (read_one_store _ _ _).trans ?_
    sl_unfold_words
    unfold outStep
    exact congr (congr (congrArg (k0_pay2 _) (load_whole1 arg7 harg7 x4)) (load_whole2 arg8 harg8 xo))
      ((readback2 arg9 _).trans (acc_val arg3 harg3 arg4 harg4 arg5 harg5 arg6 harg6 arg9 harg9 x0 x1 x2 x3 xs))
  iexists _; isplitr; swap; · iexact H6
  ipureintro
  refine (read_one_store _ _ _).trans ?_
  sl_unfold_words
  exact acc_val arg3 harg3 arg4 harg4 arg5 harg5 arg6 harg6 arg9 harg9 x0 x1 x2 x3 xs

end Cert.Kernel.Hand

end
-- ==== Proof.K.Body.lean ====
/- The body obligation of the pipeline, the frame run and the frame.

   The output window is handed to the body at what its staging buffer holds: at the first point of a row tile
   anything (nothing has been stored, or the block has just been written back); otherwise what the point before
   left — looking back through the points idle for the window, this is `outsAt`'s first component at the point
   before (`before_5`, by induction on the point).  With that, each of the four kinds of point is its run
   (RunStart, RunEnd), and the launch is the library's frame run for a region followed by host lines. -/
import proofs.«412612_j8624294331062_1_alg».proof.Proof.K.RunStart
import proofs.«412612_j8624294331062_1_alg».proof.Proof.K.RunEnd

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The output window is uncut, so what a live point leaves in its staging buffer is all of what the body left. -/
private theorem kept_5 (c : Dev nD) (t : Fin cfg0.N) (d) :
    (dats m 0 c).kept 5 t d = (outsAt m c t.val t.isLt).1 := by
  unfold Dat.kept
  rw [Pipeline.fill_of_clip_none 5 _ (fun _ => rfl) d ((dats m 0 c).after 5 t), Window.fill_cut, after_5]

/-- By induction on the point: past the first point of a row tile the previous point does not write the block back;
    if it is idle for the window it hands on what it found, which by induction is what the point before it left,
    and an idle point leaves the first component unchanged; if it is live it leaves its own first component. -/
private theorem before_5_aux (c : Dev nD) (d) : ∀ (n : ℕ) (t : Fin cfg0.N), t.val = n → ¬t.val % 88 = 0 →
    (dats m 0 c).before 5 t d = (prevAt m c t).1 := by
  intro n
  induction n with
  | zero => intro t ht h0; exact absurd (by rw [ht]) h0
  | succ n ih =>
    intro t ht h0
    have htpos : t.val ≠ 0 := by omega
    rw [Dat.before_of_pos _ 5 t htpos ((cfg0.win 5).fetch_out rfl t) d]
    generalize hp : (⟨t.val - 1, Nat.lt_of_le_of_lt (Nat.sub_le _ _) t.isLt⟩ : Fin cfg0.N) = p
    have hpv : p.val = n := by rw [← hp]; dsimp only; omega
    have hfl : (cfg0.win 5).flush p = false :=
      Bool.eq_false_iff.mpr fun h => by have := (flush0_5 p).mp h; omega
    rw [hfl, if_neg Bool.false_ne_true]
    have hprev : (prevAt m c t).1 = (outsAt m c p.val p.isLt).1 := by rw [← hp]
    rw [hprev]
    unfold Dat.left
    by_cases hi : cfg0.idle 5 (grid0.coords p) = true
    · obtain ⟨hp0, hp2⟩ := (idle5_iff p).mp hi
      rw [hi]
      show (dats m 0 c).before 5 p d = _
      rw [ih p hpv hp0]
      by_cases hp1 : p.val % 11 = 0
      · rw [outsAt_tileStart m c p hp0 hp1]
      · rw [outsAt_mid m c p hp0 hp1 hp2]
    · rw [Bool.eq_false_iff.mpr hi]
      exact kept_5 m c p d

/-- Past the first point of a row tile the output window's staging buffer holds what the point before left in it:
    the block is not written back inside a row tile, and an idle point hands the buffer on unchanged. -/
theorem before_5 (c : Dev nD) (t : Fin cfg0.N) (h0 : ¬t.val % 88 = 0) (d) :
    (dats m 0 c).before 5 t d = (prevAt m c t).1 :=
  before_5_aux m c d t.val t rfl h0

/-- What the body is called with at point `t`: the invariant, what the core owes, and the six windows' current
    staging buffers one by one. -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input window is live everywhere: after the body its buffer holds its block. -/
private theorem leaves_0 (c : Dev nD) (t : Fin cfg0.N) :
    (dats m 0 c).leavesExact 0 t = owns (c : Thread nD τ) (mr0 t) fullShare (iblk m c 0 t) := by
  unfold Dat.leavesExact; rw [live0 t, after_0]
private theorem leaves_1 (c : Dev nD) (t : Fin cfg0.N) :
    (dats m 0 c).leavesExact 1 t = owns (c : Thread nD τ) (mr1 t) fullShare (iblk m c 1 t) := by
  unfold Dat.leavesExact; rw [live1 t, after_1]
private theorem leaves_2 (c : Dev nD) (t : Fin cfg0.N) :
    (dats m 0 c).leavesExact 2 t = owns (c : Thread nD τ) (mr2 t) fullShare (iblk m c 2 t) := by
  unfold Dat.leavesExact; rw [live2 t, after_2]
private theorem leaves_3 (c : Dev nD) (t : Fin cfg0.N) :
    (dats m 0 c).leavesExact 3 t = owns (c : Thread nD τ) (mr3 t) fullShare (iblk m c 3 t) := by
  unfold Dat.leavesExact; rw [live3 t, after_3]
private theorem leaves_4 (c : Dev nD) (t : Fin cfg0.N) :
    (dats m 0 c).leavesExact 4 t = owns (c : Thread nD τ) (mr4 t) fullShare (iblk m c 4 t) := by
  unfold Dat.leavesExact; rw [live4 t, after_4]

/-- Where the output window is live (a point that zeroes the block or adds into it) its buffer ends at the first
    component of `outsAt`. -/
private theorem leaves_5_live (c : Dev nD) (t : Fin cfg0.N) (h : t.val % 88 = 0 ∨ t.val % 11 = 10) :
    (dats m 0 c).leavesExact 5 t = owns (c : Thread nD τ) (mr5 t) fullShare (outsAt m c t.val t.isLt).1 := by
  have hl : cfg0.idle 5 (grid0.coords t) = false :=
    Bool.eq_false_iff.mpr fun hi => by have := (idle5_iff t).mp hi; omega
  unfold Dat.leavesExact; rw [hl, after_5]

/-- Where it is idle (inside a row tile, not at a last hidden tile) the block is not written back, and the buffer
    is handed on as found. -/
private theorem leaves_5_idle (c : Dev nD) (t : Fin cfg0.N) (h0 : ¬t.val % 88 = 0) (h2 : ¬t.val % 11 = 10) :
    (dats m 0 c).leavesExact 5 t
      = iprop(∃ d, owns (c : Thread nD τ) (mr5 t) fullShare ((dats m 0 c).before 5 t d)) :=
  Dat.leavesExact_idle (dats m 0 c) 5 t ((idle5_iff t).mpr ⟨h0, h2⟩)
    (Bool.eq_false_iff.mpr fun hf => by have := (flush0_5 t).mp hf; omega)

set_option maxHeartbeats 4800000 in
/-- The body at any point.  The inputs' buffers hold their blocks; the point is of one of four kinds, told apart by
    its position in the row tile and in the expert's hidden tiles, and each kind is its run.  The invariant lends the
    accumulator — at anything before the first point, afterwards at what the point before left — and takes it back
    at this point's second component; the output block is given at what it holds and taken back at this point's
    first component where the window is live, untouched where it is idle. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  have hN : t.val < 1408 := lt_of_lt_of_eq t.isLt (show cfg0.N = 1408 from N_0)
  by_cases h0 : t.val % 88 = 0
  · -- first point of a row tile: also a first hidden tile, not a last one
    have h1 : t.val % 11 = 0 := by omega
    have h2 : ¬t.val % 11 = 10 := by omega
    rw [leaves_5_live m c t (Or.inl h0), outsAt_rowStart m c t h0]
    by_cases hz : t.val = 0
    · rw [Phi_castSucc m c t, PhiS_zero m c _ _ hz, lent_eq]
      iintro ⟨⟨HS, Hg⟩, Ho, ⟨%d0, H0⟩, ⟨%d1, H1⟩, ⟨%d2, H2⟩, ⟨%d3, H3⟩, ⟨%d4, H4⟩, ⟨%d5, H5⟩⟩
      iapply (run_rowStart c (grid0.coords t) (mr0 t) (wh0 t) (mr1 t) (wh1 t) (mr2 t) (wh2 t) (mr3 t) (wh3 t) (mr4 t) (wh4 t) (mr5 t) (wh5 t) accM (Memref.isWhole_whole _) ((rowStart_iff t).mpr h0) ((tileStart_iff t).mpr h1) (fun h => h2 ((tileEnd_iff t).mp h)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_rowStart c (grid0.coords t) (mr0 t) (wh0 t) (mr1 t) (wh1 t) (mr2 t) (wh2 t) (mr3 t) (wh3 t) (mr4 t) (wh4 t) (mr5 t) (wh5 t) accM (Memref.isWhole_whole _) ((rowStart_iff t).mpr h0) ((tileStart_iff t).mpr h1) (fun h => h2 ((tileEnd_iff t).mp h)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun hz => h0 (by rw [hz])
    rw [Phi_castSucc m c t, PhiS_pos m c _ _ hz]
    by_cases h1 : t.val % 11 = 0
    · -- a first hidden tile inside a row tile: the output window is idle
      have h2 : ¬t.val % 11 = 10 := by omega
      rw [leaves_5_idle m c t h0 h2, outsAt_tileStart m c t h0 h1]
      iintro ⟨⟨HS, Hg⟩, Ho, ⟨%d0, H0⟩, ⟨%d1, H1⟩, ⟨%d2, H2⟩, ⟨%d3, H3⟩, ⟨%d4, H4⟩, ⟨%d5, H5⟩⟩
      iapply (run_tileStart c (grid0.coords t) (mr0 t) (wh0 t) (mr1 t) (wh1 t) (mr2 t) (wh2 t) (mr3 t) (wh3 t) (mr4 t) (wh4 t) (mr5 t) (wh5 t) accM (Memref.isWhole_whole _) (fun h => h0 ((rowStart_iff t).mp h)) ((tileStart_iff t).mpr h1) (fun h => h2 ((tileEnd_iff t).mp h)) (iblk m c 0 t) (iblk m c 1 t) (iblk m c 2 t) (iblk m c 3 t) (iblk m c 4 t) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · by_cases h2 : t.val % 11 = 10
      · -- a last hidden tile: the output block holds what the point before left, and gains the masked accumulator
        simp only [before_5 m c t h0]
        rw [leaves_5_live m c t (Or.inr h2), outsAt_tileEnd m c t h0 h1 h2]
        iintro ⟨⟨HS, Hg⟩, Ho, ⟨%d0, H0⟩, ⟨%d1, H1⟩, ⟨%d2, H2⟩, ⟨%d3, H3⟩, ⟨%d4, H4⟩, ⟨%d5, H5⟩⟩
        iapply (run_tileEnd c (grid0.coords t) (mr0 t) (wh0 t) (mr1 t) (wh1 t) (mr2 t) (wh2 t) (mr3 t) (wh3 t) (mr4 t) (wh4 t) (mr5 t) (wh5 t) accM (Memref.isWhole_whole _) (fun h => h0 ((rowStart_iff t).mp h)) (fun h => h1 ((tileStart_iff t).mp h)) ((tileEnd_iff t).mpr h2) (iblk m c 0 t) (iblk m c 1 t) (iblk m c 2 t) (iblk m c 3 t) (iblk m c 4 t) (prevAt m c t).1 (prevAt m c t).2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        iexact H5
      · -- any other point: the output window is idle, the accumulator goes on
        rw [leaves_5_idle m c t h0 h2, outsAt_mid m c t h0 h1 h2]
        iintro ⟨⟨HS, Hg⟩, Ho, ⟨%d0, H0⟩, ⟨%d1, H1⟩, ⟨%d2, H2⟩, ⟨%d3, H3⟩, ⟨%d4, H4⟩, ⟨%d5, H5⟩⟩
        iapply (run_mid c (grid0.coords t) (mr0 t) (wh0 t) (mr1 t) (wh1 t) (mr2 t) (wh2 t) (mr3 t) (wh3 t) (mr4 t) (wh4 t) (mr5 t) (wh5 t) accM (Memref.isWhole_whole _) (fun h => h0 ((rowStart_iff t).mp h)) (fun h => h1 ((tileStart_iff t).mp h)) (fun h => h2 ((tileEnd_iff t).mp h)) (iblk m c 0 t) (iblk m c 1 t) (iblk m c 2 t) (iblk m c 3 t) (iblk m c 4 t) ((dats m 0 c).before 5 t d5) (prevAt m c t).2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 1408 := N_0; omega
  rw [show (dats m 0 c).Φ (Fin.last cfg0.N) = PhiS m c (Fin.last cfg0.N).val (Nat.le_of_lt_succ (Fin.last cfg0.N).isLt) from rfl,
    PhiS_pos m c _ _ hne, lent_eq]
  iintro ⟨HS, Hg⟩
  isplitl [HS]
  · iexists _; iexact HS
  iexact Hg

set_option backward.isDefEq.respectTransparency.types false in
/-- Every weakly fair execution of @main terminates; every array of the pipeline ends at what the library computes
    from the proof data (`Dat.arrAt`), and every other unscoped buffer at its region-entry contents run through
    the host lines after the region. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KI.Cases.lean ====
/- The grid of the expert kernel is 16 row tiles × 8 experts × 11 hidden tiles, walked with the hidden tile fastest:
   point t is row tile t / 88, expert (t % 88) / 11, hidden tile t % 11.  The body branches three times on the point:
   "first point of a row tile" (expert 0 and hidden tile 0: the output block is zeroed), "first hidden tile" (the
   accumulator is zeroed) and "last hidden tile" (the accumulator, masked by the routing, is added into the output
   block).  Here: those three conditions in closed form over the grid, the four combinations the grid meets, where
   the output window is idle (exactly where neither the first nor the third branch is taken), and the staging
   memrefs the body is called with at a point. -/
import proofs.«412612_j8624294331062_1_alg».proof.Proof.Gen.KernelIdeal.Frame
import proofs.«412612_j8624294331062_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "First point of a row tile": expert 0 and hidden tile 0. -/
abbrev rowStart (i : grid0.Coords) : Prop := k0_cond1 i = 1#1
/-- "First hidden tile", as the body computes it from the third coordinate. -/
abbrev tileStart (i : grid0.Coords) : Prop :=
  (Scalar.cmpi .ne (Scalar.extui (Scalar.cmpi .eq (BitVec.ofNat 32 (i 2).val) 0#32)) 0#32) = 1#1
/-- "Last hidden tile" (tile 10 of 11). -/
abbrev tileEnd (i : grid0.Coords) : Prop := k0_cond3 i = 1#1

theorem rowStart_iff : ∀ t : Fin cfg0.N, rowStart (grid0.coords t) ↔ t.val % 88 = 0 :=
  (by decide +kernel : ∀ t : Fin grid0.N, rowStart (grid0.coords t) ↔ t.val % 88 = 0)
theorem tileStart_iff : ∀ t : Fin cfg0.N, tileStart (grid0.coords t) ↔ t.val % 11 = 0 :=
  (by decide +kernel : ∀ t : Fin grid0.N, tileStart (grid0.coords t) ↔ t.val % 11 = 0)
theorem tileEnd_iff : ∀ t : Fin cfg0.N, tileEnd (grid0.coords t) ↔ t.val % 11 = 10 :=
  (by decide +kernel : ∀ t : Fin grid0.N, tileEnd (grid0.coords t) ↔ t.val % 11 = 10)

/-- The expert coordinate of point `t`. -/
theorem coord1_val : ∀ t : Fin cfg0.N, (grid0.coords t 1).val = t.val % 88 / 11 :=
  (by decide +kernel : ∀ t : Fin grid0.N, (grid0.coords t 1).val = t.val % 88 / 11)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is idle exactly at the points that neither zero it nor add into it. -/
theorem idle5_iff : ∀ t : Fin cfg0.N, cfg0.idle 5 (grid0.coords t) = true ↔ (t.val % 88 ≠ 0 ∧ t.val % 11 ≠ 10) :=
  (by decide +kernel : ∀ t : Fin grid0.N, cfg0.idle 5 (grid0.coords t) = true ↔ (t.val % 88 ≠ 0 ∧ t.val % 11 ≠ 10))

/-- Each window's current staging memref at point `t`, as the pipeline passes it to the body, and its wholeness. -/
abbrev mr0 (t : Fin cfg0.N) : Memref sig .tc .vmem S512x1024 .f32 := win0_0.stage (cfg0.slots t 0)
abbrev wh0 (t : Fin cfg0.N) : (mr0 t).IsWhole := hstage0_0 ((cfg0.slots t 0).cast nbuf0_0)
abbrev mr1 (t : Fin cfg0.N) : Memref sig .tc .vmem S1x256x1024 .f32 := win0_1.stage (cfg0.slots t 1)
abbrev wh1 (t : Fin cfg0.N) : (mr1 t).IsWhole := hstage0_1 ((cfg0.slots t 1).cast nbuf0_1)
abbrev mr2 (t : Fin cfg0.N) : Memref sig .tc .vmem S1x256x1024 .f32 := win0_2.stage (cfg0.slots t 2)
abbrev wh2 (t : Fin cfg0.N) : (mr2 t).IsWhole := hstage0_2 ((cfg0.slots t 2).cast nbuf0_2)
abbrev mr3 (t : Fin cfg0.N) : Memref sig .tc .vmem S1x1024x256 .f32 := win0_3.stage (cfg0.slots t 3)
abbrev wh3 (t : Fin cfg0.N) : (mr3 t).IsWhole := hstage0_3 ((cfg0.slots t 3).cast nbuf0_3)
abbrev mr4 (t : Fin cfg0.N) : Memref sig .tc .vmem S512 .i32 := win0_4.stage (cfg0.slots t 4)
abbrev wh4 (t : Fin cfg0.N) : (mr4 t).IsWhole := hstage0_4 ((cfg0.slots t 4).cast nbuf0_4)
abbrev mr5 (t : Fin cfg0.N) : Memref sig .tc .vmem S512x1024 .f32 := win0_5.stage (cfg0.slots t 5)
abbrev wh5 (t : Fin cfg0.N) : (mr5 t).IsWhole := hstage0_5 ((cfg0.slots t 5).cast nbuf0_5)
/-- The accumulator: a whole scoped buffer of the kernel's own. -/
abbrev accM : Memref sig .tc .vmem S512x1024 .f32 := Memref.whole cc0_scratch0

/-- What the launch lends the region besides the windows: the accumulator at some contents, and the generator register. -/
theorem lent_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KI.Data.lean ====
/- What the kernel's two carried buffers hold after each grid point, as a recursion on the point, and the pipeline's
   proof data built on it.

   The accumulator (a scratch buffer) and the output block (the output window's staging buffer, written back only
   at the last point of a row tile) are both carried from point to point.  One point does this:
   * at the first point of a row tile the output block becomes zero;
   * at a first hidden tile the accumulator restarts from zero; at every point it then gains this point's
     partial product (`accStep`);
   * at a last hidden tile the output block gains (routing mask) × (the accumulator just completed) (`outStep`);
   * at every other point the output block is left as found.
   `outsAt m c n` is the pair (output block, accumulator) after point `n`. -/
import proofs.«412612_j8624294331062_1_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after one point: what it held plus the point's partial product of the row tile with the
    expert's gate, up and down tiles. -/
def accStep (x0 : Vec F S512x1024 .f32) (x1 x2 : Vec F S1x256x1024 .f32) (x3 : Vec F S1x1024x256 .f32)
    (a : Vec F S512x1024 .f32) : Vec F S512x1024 .f32 :=
  k0_pay1 (k0_pay5 x0 x1 x2 x3 a)

/-- The output block after a last hidden tile: what it held plus (routing word = this expert) × the accumulator. -/
def outStep (i : grid0.Coords) (x4 : Vec F S512 .i32) (o a : Vec F S512x1024 .f32) : Vec F S512x1024 .f32 :=
  k0_pay2 (BitVec.ofNat 32 (i 1).val) x4 o a

/-- The zero block the output is reset to, and the zero block the accumulator is reset to. -/
def zeroOut : Vec F S512x1024 .f32 := k0_pay3 (F := F)
def zeroAcc : Vec F S512x1024 .f32 := k0_pay4 (F := F)

/-- (output block, accumulator) after point `n`. -/
def outsAt (c : Dev nD) : (n : ℕ) → n < cfg0.N → Vec F S512x1024 .f32 × Vec F S512x1024 .f32
  | 0, hn => (zeroOut, accStep (iblk m c 0 ⟨0, hn⟩) (iblk m c 1 ⟨0, hn⟩) (iblk m c 2 ⟨0, hn⟩) (iblk m c 3 ⟨0, hn⟩) zeroAcc)
  | n + 1, hn =>
    if (n + 1) % 88 = 0 then
      (zeroOut, accStep (iblk m c 0 ⟨n + 1, hn⟩) (iblk m c 1 ⟨n + 1, hn⟩) (iblk m c 2 ⟨n + 1, hn⟩) (iblk m c 3 ⟨n + 1, hn⟩) zeroAcc)
    else if (n + 1) % 11 = 0 then
      ((outsAt c n (Nat.lt_of_succ_lt hn)).1, accStep (iblk m c 0 ⟨n + 1, hn⟩) (iblk m c 1 ⟨n + 1, hn⟩) (iblk m c 2 ⟨n + 1, hn⟩) (iblk m c 3 ⟨n + 1, hn⟩) zeroAcc)
    else if (n + 1) % 11 = 10 then
      (outStep (grid0.coords ⟨n + 1, hn⟩) (iblk m c 4 ⟨n + 1, hn⟩) (outsAt c n (Nat.lt_of_succ_lt hn)).1
          (accStep (iblk m c 0 ⟨n + 1, hn⟩) (iblk m c 1 ⟨n + 1, hn⟩) (iblk m c 2 ⟨n + 1, hn⟩) (iblk m c 3 ⟨n + 1, hn⟩) (outsAt c n (Nat.lt_of_succ_lt hn)).2),
        accStep (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
    else
      ((outsAt c n (Nat.lt_of_succ_lt hn)).1,
        accStep (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- The pair the point before `t` left. -/
abbrev prevAt (c : Dev nD) (t : Fin cfg0.N) : Vec F S512x1024 .f32 × Vec F S512x1024 .f32 :=
  outsAt m c (t.val - 1) (Nat.lt_of_le_of_lt (Nat.sub_le _ _) t.isLt)

theorem outsAt_rowStart (c : Dev nD) (t : Fin cfg0.N) (h0 : t.val % 88 = 0) :
    outsAt m c t.val t.isLt = (zeroOut, accStep (iblk m c 0 t) (iblk m c 1 t) (iblk m c 2 t) (iblk m c 3 t) zeroAcc) := by
  obtain ⟨n, hn⟩ := t
  cases n with
  | zero => rfl
  | succ n => exact (if_pos h0)

theorem outsAt_tileStart (c : Dev nD) (t : Fin cfg0.N) (h0 : ¬t.val % 88 = 0) (h1 : t.val % 11 = 0) :
    outsAt m c t.val t.isLt = ((prevAt m c t).1, accStep (iblk m c 0 t) (iblk m c 1 t) (iblk m c 2 t) (iblk m c 3 t) zeroAcc) := by
  obtain ⟨n, hn⟩ := t
  cases n with
  | zero => exact absurd (Nat.zero_mod _) h0
  | succ n => exact (if_neg h0).trans (if_pos h1)

theorem outsAt_tileEnd (c : Dev nD) (t : Fin cfg0.N) (h0 : ¬t.val % 88 = 0) (h1 : ¬t.val % 11 = 0) (h2 : t.val % 11 = 10) :
    outsAt m c t.val t.isLt = (outStep (grid0.coords t) (iblk m c 4 t) (prevAt m c t).1
        (accStep (iblk m c 0 t) (iblk m c 1 t) (iblk m c 2 t) (iblk m c 3 t) (prevAt m c t).2), accStep (iblk m c 0 t) (iblk m c 1 t) (iblk m c 2 t) (iblk m c 3 t) (prevAt m c t).2) := by
  obtain ⟨n, hn⟩ := t
  cases n with
  | zero => exact absurd (Nat.zero_mod _) h0
  | succ n => exact (if_neg h0).trans ((if_neg h1).trans (if_pos h2))

theorem outsAt_mid (c : Dev nD) (t : Fin cfg0.N) (h0 : ¬t.val % 88 = 0) (h1 : ¬t.val % 11 = 0) (h2 : ¬t.val % 11 = 10) :
    outsAt m c t.val t.isLt = ((prevAt m c t).1, accStep (iblk m c 0 t) (iblk m c 1 t) (iblk m c 2 t) (iblk m c 3 t) (prevAt m c t).2) := by
  obtain ⟨n, hn⟩ := t
  cases n with
  | zero => exact absurd (Nat.zero_mod _) h0
  | succ n => exact (if_neg h0).trans ((if_neg h1).trans (if_neg h2))

/-- The region's invariant before point `n`: before the first point what the launch lends (the accumulator at
    anything); afterwards the accumulator at what the point before left, and the generator register. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-- The proof data of the pipeline on core `c`: the arrays as the region finds them; after the body each input's
    buffer at its block and the output's at `outsAt`'s first component; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).1 := by dsimp only [dats]

end Cert.KernelIdeal.Hand

end
-- ==== Proof.Spec.lean ====
/- The mixture-of-experts feed-forward, element by element, over the extended reals.

   One token row `xr` (1024 reals) meets expert `e`'s two projections: `pre xr gate e h` and `pre xr up e h` are the
   row's inner products with row `h` of the gate and up matrices; the hidden activation is
   `silu (gate part) · (up part)`, with `silu g = g · 1/(1 + e^(-g))`; the expert's output at column `d` is the inner
   product of the 2816 hidden activations with row `d` of the down matrix (`expert`).

   The kernel reaches the same number in two nested running sums: over the hidden axis in 11 tiles of 256 (`tile`,
   `acc`), and over the 8 experts, each weighted by the 0/1 indicator that the routed expert word equals `e` (`mask`,
   `out`). `acc_full` regroups the 2816 terms into 11 × 256; `out_full` collapses the indicator sum onto the one
   routed expert. Both use only that the extended reals are a commutative monoid under `+` with `0 · a = 0` and
   `1 · a = a`; no finiteness is needed. -/
import Idealize.ShloMosaic.PureOps.Ideal
import Idealize.ShloMosaic.Lib.ValueIdx

noncomputable section

open scoped BigOperators

namespace Cert.Spec

open Idealize.ShloMosaic Idealize.ShloMosaic.ValueIdx

/-- A gate or up projection: expert × hidden unit × model dimension. -/
abbrev W3 : Type := (⟨3, ![8, 2816, 1024]⟩ : Shape).Idx → EReal
/-- The down projection: expert × model dimension × hidden unit. -/
abbrev D3 : Type := (⟨3, ![8, 1024, 2816]⟩ : Shape).Idx → EReal

/-- The inner product of a token row with row `h` of expert `e`'s projection `w`. -/
def pre (xr : Fin 1024 → EReal) (w : W3) (e : Fin 8) (h : Fin 2816) : EReal :=
  ∑ k : Fin 1024, xr k * w (ix3 e h k)

/-- The hidden activation: `silu` of the gate part times the up part. -/
def hid (xr : Fin 1024 → EReal) (gate up : W3) (e : Fin 8) (h : Fin 2816) : EReal :=
  (pre xr gate e h * Ideal.logistic (pre xr gate e h)) * pre xr up e h

/-- Expert `e`'s output at column `d`: the hidden activations against row `d` of its down matrix. -/
def expert (xr : Fin 1024 → EReal) (gate up : W3) (down : D3) (e : Fin 8) (d : Fin 1024) : EReal :=
  ∑ h : Fin 2816, hid xr gate up e h * down (ix3 e d h)

/-- The part of that sum over the `hb`-th tile of 256 hidden units (zero past the last tile). -/
def tile (xr : Fin 1024 → EReal) (gate up : W3) (down : D3) (e : Fin 8) (hb : ℕ) (d : Fin 1024) : EReal :=
  ∑ hh : Fin 256, if hlt : 256 * hb + hh.val < 2816 then
    hid xr gate up e ⟨256 * hb + hh.val, hlt⟩ * down (ix3 e d ⟨256 * hb + hh.val, hlt⟩) else 0

/-- The running sum over the first `k` tiles. -/
def acc (xr : Fin 1024 → EReal) (gate up : W3) (down : D3) (e : Fin 8) (k : ℕ) (d : Fin 1024) : EReal :=
  ∑ hb ∈ Finset.range k, tile xr gate up down e hb d

/-- The indicator that the routed expert word `w` is expert number `e`. -/
def mask (w : BitVec 32) (e : ℕ) : EReal := if w = BitVec.ofNat 32 e then 1 else 0

/-- The running sum over the first `k` experts of indicator × that expert's full output. -/
def out (xr : Fin 1024 → EReal) (gate up : W3) (down : D3) (w : BitVec 32) (k : ℕ) (d : Fin 1024) : EReal :=
  ∑ e ∈ Finset.range k, mask w e * (if he : e < 8 then acc xr gate up down ⟨e, he⟩ 11 d else 0)

/-- A sum over 2816 terms, cut into 11 consecutive runs of 256: position `256 · hb + hh` is the pair `(hb, hh)`,
    and every such position is below 2816, so the guard never fires. -/
private theorem sum_tiles {M : Type*} [AddCommMonoid M] (f : Fin 2816 → M) :
    (∑ hb ∈ Finset.range 11, ∑ hh : Fin 256,
      if hlt : 256 * hb + hh.val < 2816 then f ⟨256 * hb + hh.val, hlt⟩ else 0) = ∑ h : Fin 2816, f h := by
  rw [Finset.sum_range, ← Fintype.sum_prod_type']
  refine Fintype.sum_equiv (finProdFinEquiv (m := 11) (n := 256)) _ _ ?_
  rintro ⟨hb, hh⟩
  have h1 := hb.isLt
  have h2 := hh.isLt
  have hlt : 256 * hb.val + hh.val < 2816 := by omega
  simp only [dif_pos hlt]
  congr 1
  apply Fin.ext
  simp only [finProdFinEquiv, Equiv.coe_fn_mk]
  omega

/-- Eleven tiles of 256 are the whole hidden axis. -/
theorem acc_full (xr : Fin 1024 → EReal) (gate up : W3) (down : D3) (e : Fin 8) (d : Fin 1024) :
    acc xr gate up down e 11 d = expert xr gate up down e d := by
  unfold acc expert tile
  exact sum_tiles (fun h => hid xr gate up e h * down (ix3 e d h))

/-- With the routed word an expert number below 8, the indicator sum is that expert's output. -/
theorem out_full (xr : Fin 1024 → EReal) (gate up : W3) (down : D3) (w : BitVec 32) (hw : w.toNat < 8) (d : Fin 1024) :
    out xr gate up down w 8 d = expert xr gate up down ⟨w.toNat, hw⟩ d := by
  unfold out
  rw [Finset.sum_eq_single_of_mem w.toNat (Finset.mem_range.mpr hw)]
  · -- the routed expert's own term: indicator 1
    have hm : mask w w.toNat = 1 := by
      unfold mask
      rw [if_pos]
      apply BitVec.eq_of_toNat_eq
      rw [BitVec.toNat_ofNat, Nat.mod_eq_of_lt (by omega)]
    rw [hm, one_mul, dif_pos hw, acc_full]
  · -- every other expert below 8: indicator 0
    intro b hb hne
    have hb8 : b < 8 := Finset.mem_range.mp hb
    have hm : mask w b = 0 := by
      unfold mask
      rw [if_neg]
      intro h
      apply hne
      rw [h, BitVec.toNat_ofNat, Nat.mod_eq_of_lt (by omega)]
    rw [hm, zero_mul]

/-- The expert a routing word names (words below 8 name themselves). -/
def expertOf (w : BitVec 32) : Fin 8 := ⟨w.toNat % 8, Nat.mod_lt _ (by norm_num)⟩

/-- The result as the kernel computes it: at (token t, slot a, column d), the masked sum over the 8 experts of
    token t's row, masked by slot (t, a)'s routing word. Arguments in the order of the programs' parameters:
    tokens, routing words, up, gate, down. -/
def kernelResult (x : (⟨2, ![4096, 1024]⟩ : Shape).Idx → EReal) (idx : (⟨2, ![4096, 2]⟩ : Shape).Idx → BitVec 32)
    (up gate : W3) (down : D3) : (⟨3, ![4096, 2, 1024]⟩ : Shape).Idx → EReal :=
  fun j => out (fun k => x (ix2 (j 0) k)) gate up down (idx (ix2 (j 0) (j 1))) 8 (j 2)

/-- The result as the reference computes it: the routed expert's output for token t's row. -/
def result (x : (⟨2, ![4096, 1024]⟩ : Shape).Idx → EReal) (idx : (⟨2, ![4096, 2]⟩ : Shape).Idx → BitVec 32)
    (up gate : W3) (down : D3) : (⟨3, ![4096, 2, 1024]⟩ : Shape).Idx → EReal :=
  fun j => expert (fun k => x (ix2 (j 0) k)) gate up down (expertOf (idx (ix2 (j 0) (j 1)))) (j 2)

/-- With every routing word an expert number, the two are one function. -/
theorem kernelResult_eq (x : (⟨2, ![4096, 1024]⟩ : Shape).Idx → EReal) (idx : (⟨2, ![4096, 2]⟩ : Shape).Idx → BitVec 32)
    (up gate : W3) (down : D3) (hidx : ∀ j, (idx j).toNat < 8) :
    kernelResult x idx up gate down = result x idx up gate down := by
  funext j
  unfold kernelResult result
  refine (out_full _ gate up down _ (hidx _) _).trans ?_
  congr 1
  exact Fin.ext (Nat.mod_eq_of_lt (hidx _)).symm

end Cert.Spec

end
-- ==== Proof.KI.Payload.lean ====
/- One grid point's arithmetic, element by element, over the extended reals.

   `accStep`: element (p, q) of the accumulator gains  Σ_hh z(p, hh) · down(q, hh)  over the 256 hidden units of the
   tile, where z(p, hh) = silu(g) · u with g, u the inner products of row p of the token tile with row hh of the
   gate and up tiles (the two transposes and the three matrix products of the body, each into a zero accumulator;
   the changes of float format are the identity).  `outStep`: element (p, q) of the output block gains
   (1 if row p's routing word is this expert's number, else 0) · accumulator(p, q).  The two reset blocks are zero. -/
import proofs.«412612_j8624294331062_1_alg».proof.Proof.KI.Data
import proofs.«412612_j8624294331062_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem zeroOut_apply (j : S512x1024.Idx) : (zeroOut (F := Ideal)) j = (0 : EReal) := by
  unfold zeroOut k0_pay3
  exact Ideal.ofBits_zero_f32

theorem zeroAcc_apply (j : S512x1024.Idx) : (zeroAcc (F := Ideal)) j = (0 : EReal) := by
  unfold zeroAcc k0_pay4
  rw [shapeCast_self]
  exact Ideal.ofBits_zero_f32

section Layout
variable {α : Type}

/-- The transposed gate or up tile at (k, hh) is the tile at (hh, k). -/
private theorem transpose_gate_apply (y : S256x1024.Idx → α) (k : Fin 1024) (hh : Fin 256) :
    transpose S1024x256 [1, 0] y transposes_S256x1024_p1_0_S1024x256 (ix2 k hh) = y (ix2 hh k) :=
  transpose_apply _ y _ (ix2 k hh) (ix2 hh k) (fun b => match b with | ⟨0, _⟩ => rfl | ⟨1, _⟩ => rfl)

/-- The transposed down tile at (hh, q) is the tile at (q, hh). -/
private theorem transpose_down_apply (y : S1024x256.Idx → α) (hh : Fin 256) (q : Fin 1024) :
    transpose S256x1024 [1, 0] y transposes_S1024x256_p1_0_S256x1024 (ix2 hh q) = y (ix2 q hh) :=
  transpose_apply _ y _ (ix2 hh q) (ix2 q hh) (fun b => match b with | ⟨0, _⟩ => rfl | ⟨1, _⟩ => rfl)

/-- Dropping the unit axis of a gate or up block: (hh, k) reads (0, hh, k). -/
private theorem shapeCast_gate_apply (x : S1x256x1024.Idx → α) (hh : Fin 256) (k : Fin 1024) :
    shapeCast S256x1024 x shapeCasts_S1x256x1024_S256x1024 (ix2 hh k) = x (ix3 (0 : Fin 1) hh k) :=
  shapeCast_apply x _ (ix2 hh k) (ix3 (0 : Fin 1) hh k) (by
    rw [Shape.rowMajor_val_three, Shape.rowMajor_val_two]
    show ((0 : Fin 1).val * 256 + hh.val) * 1024 + k.val = hh.val * 1024 + k.val
    simp)

/-- Dropping the unit axis of a down block: (q, hh) reads (0, q, hh). -/
private theorem shapeCast_down_apply (x : S1x1024x256.Idx → α) (q : Fin 1024) (hh : Fin 256) :
    shapeCast S1024x256 x shapeCasts_S1x1024x256_S1024x256 (ix2 q hh) = x (ix3 (0 : Fin 1) q hh) :=
  shapeCast_apply x _ (ix2 q hh) (ix3 (0 : Fin 1) q hh) (by
    rw [Shape.rowMajor_val_three, Shape.rowMajor_val_two]
    show ((0 : Fin 1).val * 1024 + q.val) * 256 + hh.val = q.val * 256 + hh.val
    simp)

end Layout

/-! The operand indices of the two matrix products, axis by axis: rows × contraction on the left, contraction × columns
    on the right. -/

private theorem lhs_gate_0 (j : S512x256.Idx) (c : dot_S512x1024_S1024x256_S512x256_1_0_0_1_n_n.contr.Idx) : (dot_S512x1024_S1024x256_S512x256_1_0_0_1_n_n.lhsIdx j c 0).val = (j 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
private theorem lhs_gate_1 (j : S512x256.Idx) (c : dot_S512x1024_S1024x256_S512x256_1_0_0_1_n_n.contr.Idx) : (dot_S512x1024_S1024x256_S512x256_1_0_0_1_n_n.lhsIdx j c 1).val = (c ⟨0, by decide⟩).val :=
  dot_S512x1024_S1024x256_S512x256_1_0_0_1_n_n.lhsIdx_val_of_single rfl j c
private theorem rhs_gate_0 (j : S512x256.Idx) (c : dot_S512x1024_S1024x256_S512x256_1_0_0_1_n_n.contr.Idx) : (dot_S512x1024_S1024x256_S512x256_1_0_0_1_n_n.rhsIdx j c 0).val = (c ⟨0, by decide⟩).val :=
  dot_S512x1024_S1024x256_S512x256_1_0_0_1_n_n.rhsIdx_val_of_single rfl j c
private theorem rhs_gate_1 (j : S512x256.Idx) (c : dot_S512x1024_S1024x256_S512x256_1_0_0_1_n_n.contr.Idx) : (dot_S512x1024_S1024x256_S512x256_1_0_0_1_n_n.rhsIdx j c 1).val = (j 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

private theorem lhs_down_0 (j : S512x1024.Idx) (c : dot_S512x256_S256x1024_S512x1024_1_0_0_1_n_n.contr.Idx) : (dot_S512x256_S256x1024_S512x1024_1_0_0_1_n_n.lhsIdx j c 0).val = (j 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
private theorem lhs_down_1 (j : S512x1024.Idx) (c : dot_S512x256_S256x1024_S512x1024_1_0_0_1_n_n.contr.Idx) : (dot_S512x256_S256x1024_S512x1024_1_0_0_1_n_n.lhsIdx j c 1).val = (c ⟨0, by decide⟩).val :=
  dot_S512x256_S256x1024_S512x1024_1_0_0_1_n_n.lhsIdx_val_of_single rfl j c
private theorem rhs_down_0 (j : S512x1024.Idx) (c : dot_S512x256_S256x1024_S512x1024_1_0_0_1_n_n.contr.Idx) : (dot_S512x256_S256x1024_S512x1024_1_0_0_1_n_n.rhsIdx j c 0).val = (c ⟨0, by decide⟩).val :=
  dot_S512x256_S256x1024_S512x1024_1_0_0_1_n_n.rhsIdx_val_of_single rfl j c
private theorem rhs_down_1 (j : S512x1024.Idx) (c : dot_S512x256_S256x1024_S512x1024_1_0_0_1_n_n.contr.Idx) : (dot_S512x256_S256x1024_S512x1024_1_0_0_1_n_n.rhsIdx j c 1).val = (j 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The inner product of row `p` of a token tile with row `hh` of a gate or up tile. -/
def dotRow (x0 : Vec Ideal S512x1024 .f32) (x1 : Vec Ideal S1x256x1024 .f32) (p : Fin 512) (hh : Fin 256) : EReal :=
  ∑ k : Fin 1024, x0 (ix2 p k) * x1 (ix3 (0 : Fin 1) hh k)

/-- The first two matrix products: the token tile times a transposed gate or up tile, into zero, at (p, hh), is the
    inner product of the two rows. -/
private theorem gate_apply (x0 : Vec Ideal S512x1024 .f32) (x1 : Vec Ideal S1x256x1024 .f32) (p : Fin 512) (hh : Fin 256) :
    matmul (F := Ideal) dot_S512x1024_S1024x256_S512x256_1_0_0_1_n_n none
        (truncf .bf16 (shapeCast S512x1024 x0 shapeCasts_S512x1024_S512x1024) bitsLt_bf16_f32)
        (transpose S1024x256 [1, 0] (truncf .bf16 (shapeCast S256x1024 x1 shapeCasts_S1x256x1024_S256x1024) bitsLt_bf16_f32) transposes_S256x1024_p1_0_S1024x256)
        (constant S512x256 .f32 0x00000000#32) (ix2 p hh)
      = dotRow x0 x1 p hh := by
  unfold dotRow
  rw [shapeCast_self]
  refine (Ideal.matmul_constant_zero_apply dot_S512x1024_S1024x256_S512x256_1_0_0_1_n_n none _ _ (ix2 p hh)).trans ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p hh) ((contrEquiv1 dot_S512x1024_S1024x256_S512x256_1_0_0_1_n_n 1024 rfl rfl).symm k) = ix2 p k := funext fun a => Fin.ext (by
    match a with
    | ⟨0, _⟩ => exact lhs_gate_0 _ _
    | ⟨1, _⟩ => exact (lhs_gate_1 _ _).trans hk)
  have er : dot_S512x1024_S1024x256_S512x256_1_0_0_1_n_n.rhsIdx (ix2 p hh) ((contrEquiv1 dot_S512x1024_S1024x256_S512x256_1_0_0_1_n_n 1024 rfl rfl).symm k) = ix2 k hh := funext fun a => Fin.ext (by
    match a with
    | ⟨0, _⟩ => exact (rhs_gate_0 _ _).trans hk
    | ⟨1, _⟩ => exact rhs_gate_1 _ _)
  rw [el, er, truncf_apply, transpose_gate_apply, truncf_apply, shapeCast_gate_apply]

/-- The third matrix product: a [512, 256] tile times the transposed down tile, into zero, at (p, q), sums over the
    hidden units. -/
private theorem down_apply (z : FVec Ideal S512x256 .bf16) (x3 : Vec Ideal S1x1024x256 .f32) (p : Fin 512) (q : Fin 1024) :
    matmul (F := Ideal) dot_S512x256_S256x1024_S512x1024_1_0_0_1_n_n none z
        (transpose S256x1024 [1, 0] (truncf .bf16 (shapeCast S1024x256 x3 shapeCasts_S1x1024x256_S1024x256) bitsLt_bf16_f32) transposes_S1024x256_p1_0_S256x1024)
        (constant S512x1024 .f32 0x00000000#32) (ix2 p q)
      = ∑ hh : Fin 256, z (ix2 p hh) * x3 (ix3 (0 : Fin 1) q hh) := by
  refine (Ideal.matmul_constant_zero_apply dot_S512x256_S256x1024_S512x1024_1_0_0_1_n_n none _ _ (ix2 p q)).trans ?_
  rw [← Equiv.sum_comp (contrEquiv1 dot_S512x256_S256x1024_S512x1024_1_0_0_1_n_n 256 rfl rfl).symm]
  refine Finset.sum_congr rfl fun hh _ => ?_
  have hk := contrEquiv1_symm_val dot_S512x256_S256x1024_S512x1024_1_0_0_1_n_n 256 rfl rfl hh
  have el : dot_S512x256_S256x1024_S512x1024_1_0_0_1_n_n.lhsIdx (ix2 p q) ((contrEquiv1 dot_S512x256_S256x1024_S512x1024_1_0_0_1_n_n 256 rfl rfl).symm hh) = ix2 p hh := funext fun a => Fin.ext (by
    match a with
    | ⟨0, _⟩ => exact lhs_down_0 _ _
    | ⟨1, _⟩ => exact (lhs_down_1 _ _).trans hk)
  have er : dot_S512x256_S256x1024_S512x1024_1_0_0_1_n_n.rhsIdx (ix2 p q) ((contrEquiv1 dot_S512x256_S256x1024_S512x1024_1_0_0_1_n_n 256 rfl rfl).symm hh) = ix2 hh q := funext fun a => Fin.ext (by
    match a with
    | ⟨0, _⟩ => exact (rhs_down_0 _ _).trans hk
    | ⟨1, _⟩ => exact rhs_down_1 _ _)
  rw [el, er, transpose_down_apply, truncf_apply, shapeCast_down_apply]

/-- The logistic function of a tile, read at an index. -/
private theorem logistic_at {s : Shape} {φ : FTy} (x : FVec Ideal s φ) (i : s.Idx) : logistic x i = Ideal.logistic (x i) := rfl

theorem accStep_apply (x0 : Vec Ideal S512x1024 .f32) (x1 x2 : Vec Ideal S1x256x1024 .f32) (x3 : Vec Ideal S1x1024x256 .f32)
    (a : Vec Ideal S512x1024 .f32) (p : Fin 512) (q : Fin 1024) :
    accStep x0 x1 x2 x3 a (ix2 p q)
      = a (ix2 p q) + ∑ hh : Fin 256,
          ((dotRow x0 x1 p hh * Ideal.logistic (dotRow x0 x1 p hh)) * dotRow x0 x2 p hh) * x3 (ix3 (0 : Fin 1) q hh) := by
  unfold accStep k0_pay1 k0_pay5
  dsimp only
  rw [shapeCast_self (addf _ _), addf_apply]
  refine congrArg (a (ix2 p q) + ·) ?_
  refine (down_apply _ x3 p q).trans ?_
  refine Finset.sum_congr rfl fun hh _ => ?_
  refine congrArg (· * x3 (ix3 (0 : Fin 1) q hh)) ?_
  rw [truncf_apply, mulf_apply, mulf_apply, logistic_at, gate_apply, gate_apply]

section Column
variable {α : Type}

/-- A vector of 512 recast as a [512, 1] column: (p, 0) reads p. -/
private theorem shapeCast_col_apply (v : S512.Idx → α) (p : Fin 512) (z : Fin 1) :
    shapeCast S512x1 v shapeCasts_S512_S512x1 (ix2 p z) = v (ix1 p) :=
  shapeCast_apply v _ (ix2 p z) (ix1 p) (by
    rw [Shape.rowMajor_val_one, Shape.rowMajor_val_two]
    show p.val = p.val * 1 + z.val
    have := z.isLt
    omega)

/-- A [512, 1] column spread along the rows of a [512, 1024] tile: (p, q) reads (p, 0). -/
private theorem broadcastTo_col_apply (v : S512x1.Idx → α) (p : Fin 512) (q : Fin 1024) :
    broadcastTo S512x1024 v broadcasts_S512x1_S512x1024 (ix2 p q) = v (ix2 p (0 : Fin 1)) :=
  broadcastTo_apply v _ (ix2 p q) (ix2 p (0 : Fin 1)) (fun b => match b with
    | ⟨0, _⟩ => by show p.val = if (512 : Nat) = 1 then 0 else p.val; rw [if_neg (by decide)]
    | ⟨1, _⟩ => by show (0 : Fin 1).val = if (1 : Nat) = 1 then 0 else q.val; rw [if_pos rfl]; rfl)

end Column

/-- Comparing two words for equality gives the bit 1 when they are equal … -/
private theorem cmpi_eq_self (w : BitVec 32) : IntOp.cmpi .eq w w = 1#1 := by
  unfold IntOp.cmpi
  simp
/-- … and the bit 0 when they differ. -/
private theorem cmpi_eq_of_ne {w e : BitVec 32} (h : w ≠ e) : IntOp.cmpi .eq w e = 0#1 := by
  unfold IntOp.cmpi
  have hb : (w == e) = false := beq_eq_false_iff_ne.mpr h
  show BitVec.ofBool (w == e) = 0#1
  rw [hb]
  rfl

/-- The equality bit, widened to a word and converted to a number, is the indicator 1 or 0. -/
private theorem indicator_word (w e : BitVec 32) :
    FloatOps.sitofp (F := Ideal) .f32 ((IntOp.cmpi .eq w e).setWidth 32) = if w = e then (1 : EReal) else 0 := by
  by_cases h : w = e
  · subst h
    rw [if_pos rfl, cmpi_eq_self]
    show ((((1#1 : BitVec 1).setWidth 32).toInt : ℝ) : EReal) = 1
    rw [show ((1#1 : BitVec 1).setWidth 32).toInt = 1 by decide]
    simp
  · rw [if_neg h, cmpi_eq_of_ne h]
    show ((((0#1 : BitVec 1).setWidth 32).toInt : ℝ) : EReal) = 0
    rw [show ((0#1 : BitVec 1).setWidth 32).toInt = 0 by decide]
    simp

theorem outStep_apply (i : grid0.Coords) (x4 : Vec Ideal S512 .i32) (o a : Vec Ideal S512x1024 .f32) (p : Fin 512) (q : Fin 1024) :
    outStep i x4 o a (ix2 p q) = o (ix2 p q) + Cert.Spec.mask (x4 (ix1 p)) (i 1).val * a (ix2 p q) := by
  unfold outStep k0_pay2
  dsimp only
  rw [shapeCast_self x4, shapeCast_self o, addf_apply, mulf_apply, broadcastTo_col_apply, shapeCast_col_apply,
    sitofp_apply, extui_apply]
  refine congrArg (fun m => o (ix2 p q) + m * a (ix2 p q)) ?_
  exact indicator_word (x4 (ix1 p)) (BitVec.ofNat 32 (i 1).val)

end Cert.KernelIdeal.Hand

end
-- ==== Proof.KI.Blocks.lean ====
/- Which elements of the arrays a window's block at a grid point holds.

   Point t is row tile t / 88, expert t % 88 / 11, hidden tile t % 11.  The token window's block is rows
   512·(t/88) … of the flattened token array; the gate and up windows' blocks are rows 256·(t%11) … of expert
   (t%88/11)'s matrices; the down window's block is columns 256·(t%11) … of that expert's down matrix; the routing
   window's block is entries 512·(t/88) … of the flattened routing array.  A block's coordinate is always
   (block index) × (block size) + (coordinate inside the block). -/
import proofs.«412612_j8624294331062_1_alg».proof.Proof.KI.Data
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The arrays the region finds, at their literal types: the flattened token rows, the gate, up and down
    projections, the flattened routing words. -/
abbrev xarr (c : Dev nD) : Vec Ideal S8192x1024 .f32 := V m c main_v1
abbrev garr (c : Dev nD) : Vec Ideal S8x2816x1024 .f32 := V m c main_arg3
abbrev uarr (c : Dev nD) : Vec Ideal S8x2816x1024 .f32 := V m c main_arg2
abbrev darr (c : Dev nD) : Vec Ideal S8x1024x2816 .f32 := V m c main_arg4
abbrev earr (c : Dev nD) : Vec Ideal S8192 .i32 := V m c main_v2

/-- The windows' blocks at a point, at their literal types. -/
abbrev xblk (c : Dev nD) (t : Fin cfg0.N) : Vec Ideal S512x1024 .f32 := iblk m c 0 t
abbrev gblk (c : Dev nD) (t : Fin cfg0.N) : Vec Ideal S1x256x1024 .f32 := iblk m c 1 t
abbrev ublk (c : Dev nD) (t : Fin cfg0.N) : Vec Ideal S1x256x1024 .f32 := iblk m c 2 t
abbrev dblk (c : Dev nD) (t : Fin cfg0.N) : Vec Ideal S1x1024x256 .f32 := iblk m c 3 t
abbrev eblk (c : Dev nD) (t : Fin cfg0.N) : Vec Ideal S512 .i32 := iblk m c 4 t

theorem pt_lt (t : Fin cfg0.N) : t.val < 1408 := lt_of_lt_of_eq t.isLt (show cfg0.N = 1408 from N_0)

/-- The row of the flattened arrays that row `p` of point `t`'s tile is. -/
def rowAt (t : Fin cfg0.N) (p : Fin 512) : Fin 8192 := ⟨512 * (t.val / 88) + p.val, by have := pt_lt t; omega⟩
/-- The expert of point `t`. -/
def expAt (t : Fin cfg0.N) : Fin 8 := ⟨t.val % 88 / 11, by omega⟩
/-- The hidden unit that unit `hh` of point `t`'s tile is. -/
def hidAt (t : Fin cfg0.N) (hh : Fin 256) : Fin 2816 := ⟨256 * (t.val % 11) + hh.val, by omega⟩

/-- The token window's block index at point t: (t / 88, 0). -/
theorem idx0 : ∀ t : Fin cfg0.N, win0_0.index t (0 : Fin 2) = t.val / 88 ∧ win0_0.index t (1 : Fin 2) = 0 :=
  (by decide +kernel : ∀ t : Fin grid0.N, _)
/-- The gate window's block index at point t: (t % 88 / 11, t % 11, 0). -/
theorem idx1 : ∀ t : Fin cfg0.N, win0_1.index t (0 : Fin 3) = t.val % 88 / 11 ∧ win0_1.index t (1 : Fin 3) = t.val % 11
    ∧ win0_1.index t (2 : Fin 3) = 0 :=
  (by decide +kernel : ∀ t : Fin grid0.N, _)
/-- The up window's block index at point t: (t % 88 / 11, t % 11, 0). -/
theorem idx2 : ∀ t : Fin cfg0.N, win0_2.index t (0 : Fin 3) = t.val % 88 / 11 ∧ win0_2.index t (1 : Fin 3) = t.val % 11
    ∧ win0_2.index t (2 : Fin 3) = 0 :=
  (by decide +kernel : ∀ t : Fin grid0.N, _)
/-- The down window's block index at point t: (t % 88 / 11, 0, t % 11). -/
theorem idx3 : ∀ t : Fin cfg0.N, win0_3.index t (0 : Fin 3) = t.val % 88 / 11 ∧ win0_3.index t (1 : Fin 3) = 0
    ∧ win0_3.index t (2 : Fin 3) = t.val % 11 :=
  (by decide +kernel : ∀ t : Fin grid0.N, _)
/-- The routing window's block index at point t: (t / 88). -/
theorem idx4 : ∀ t : Fin cfg0.N, win0_4.index t (0 : Fin 1) = t.val / 88 :=
  (by decide +kernel : ∀ t : Fin grid0.N, _)

theorem xblk_apply (c : Dev nD) (t : Fin cfg0.N) (p : Fin 512) (k : Fin 1024) :
    xblk m c t (ix2 p k) = xarr m c (ix2 (rowAt t p) k) := by
  obtain ⟨e0, e1⟩ := idx0 t
  unfold xblk xarr iblk
  rw [View.read_apply]
  show V m c main_v1 _ = V m c main_v1 _
  congr 1
  funext a
  apply Fin.ext
  match a with
  | ⟨0, _⟩ => show win0_0.index t (0 : Fin 2) * 512 + 1 * p.val = 512 * (t.val / 88) + p.val; rw [e0]; omega
  | ⟨1, _⟩ => show win0_0.index t (1 : Fin 2) * 1024 + 1 * k.val = k.val; rw [e1]; omega
theorem gblk_apply (c : Dev nD) (t : Fin cfg0.N) (hh : Fin 256) (k : Fin 1024) :
    gblk m c t (ix3 (0 : Fin 1) hh k) = garr m c (ix3 (expAt t) (hidAt t hh) k) := by
  obtain ⟨e0, e1, e2⟩ := idx1 t
  unfold gblk garr iblk
  rw [View.read_apply]
  show V m c main_arg3 _ = V m c main_arg3 _
  congr 1
  funext a
  apply Fin.ext
  match a with
  | ⟨0, _⟩ => show win0_1.index t (0 : Fin 3) * 1 + 1 * (0 : Fin 1).val = t.val % 88 / 11; rw [e0]; simp only [Fin.val_zero]; omega
  | ⟨1, _⟩ => show win0_1.index t (1 : Fin 3) * 256 + 1 * hh.val = 256 * (t.val % 11) + hh.val; rw [e1]; omega
  | ⟨2, _⟩ => show win0_1.index t (2 : Fin 3) * 1024 + 1 * k.val = k.val; rw [e2]; omega
theorem ublk_apply (c : Dev nD) (t : Fin cfg0.N) (hh : Fin 256) (k : Fin 1024) :
    ublk m c t (ix3 (0 : Fin 1) hh k) = uarr m c (ix3 (expAt t) (hidAt t hh) k) := by
  obtain ⟨e0, e1, e2⟩ := idx2 t
  unfold ublk uarr iblk
  rw [View.read_apply]
  show V m c main_arg2 _ = V m c main_arg2 _
  congr 1
  funext a
  apply Fin.ext
  match a with
  | ⟨0, _⟩ => show win0_2.index t (0 : Fin 3) * 1 + 1 * (0 : Fin 1).val = t.val % 88 / 11; rw [e0]; simp only [Fin.val_zero]; omega
  | ⟨1, _⟩ => show win0_2.index t (1 : Fin 3) * 256 + 1 * hh.val = 256 * (t.val % 11) + hh.val; rw [e1]; omega
  | ⟨2, _⟩ => show win0_2.index t (2 : Fin 3) * 1024 + 1 * k.val = k.val; rw [e2]; omega
theorem dblk_apply (c : Dev nD) (t : Fin cfg0.N) (q : Fin 1024) (hh : Fin 256) :
    dblk m c t (ix3 (0 : Fin 1) q hh) = darr m c (ix3 (expAt t) q (hidAt t hh)) := by
  obtain ⟨e0, e1, e2⟩ := idx3 t
  unfold dblk darr iblk
  rw [View.read_apply]
  show V m c main_arg4 _ = V m c main_arg4 _
  congr 1
  funext a
  apply Fin.ext
  match a with
  | ⟨0, _⟩ => show win0_3.index t (0 : Fin 3) * 1 + 1 * (0 : Fin 1).val = t.val % 88 / 11; rw [e0]; simp only [Fin.val_zero]; omega
  | ⟨1, _⟩ => show win0_3.index t (1 : Fin 3) * 1024 + 1 * q.val = q.val; rw [e1]; omega
  | ⟨2, _⟩ => show win0_3.index t (2 : Fin 3) * 256 + 1 * hh.val = 256 * (t.val % 11) + hh.val; rw [e2]; omega
theorem eblk_apply (c : Dev nD) (t : Fin cfg0.N) (p : Fin 512) :
    eblk m c t (ix1 p) = earr m c (ix1 (rowAt t p)) := by
  have e0 := idx4 t
  unfold eblk earr iblk
  rw [View.read_apply]
  show V m c main_v2 _ = V m c main_v2 _
  congr 1
  funext a
  apply Fin.ext
  match a with
  | ⟨0, _⟩ => show win0_4.index t (0 : Fin 1) * 512 + 1 * p.val = 512 * (t.val / 88) + p.val; rw [e0]; omega

end Cert.KernelIdeal.Hand

end
-- ==== Proof.KI.Invariant.lean ====
/- What the two carried buffers hold after each point, in closed form.

   After point t (row tile t/88, expert e = t%88/11, hidden tile h = t%11), at row p and column q of the tile:
   the accumulator is the sum of the first h+1 tiles of expert e's output for that row (`Spec.acc … (h+1)`), and the
   output block is the masked sum over the experts completed so far — e of them, or e+1 once h = 10 (`Spec.out`).
   By induction on the point, one kind of point at a time. -/
import proofs.«412612_j8624294331062_1_alg».proof.Proof.KI.Payload
import proofs.«412612_j8624294331062_1_alg».proof.Proof.KI.Blocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Row `n` of the flattened token array. -/
def rowOf (c : Dev nD) (n : Fin 8192) : Fin 1024 → EReal := fun k => xarr m c (ix2 n k)

/-- The number of experts whose contribution the output block holds after point `t`. -/
def doneAt (t : Fin cfg0.N) : ℕ := if t.val % 11 = 10 then t.val % 88 / 11 + 1 else t.val % 88 / 11

/-- The running sum of tiles gains one tile at a time, and starts at zero. -/
private theorem acc_succ (xr : Fin 1024 → EReal) (g u : Cert.Spec.W3) (d : Cert.Spec.D3) (e : Fin 8) (k : ℕ) (q : Fin 1024) :
    Cert.Spec.acc xr g u d e (k + 1) q = Cert.Spec.acc xr g u d e k q + Cert.Spec.tile xr g u d e k q :=
  Finset.sum_range_succ _ _

private theorem acc_zero (xr : Fin 1024 → EReal) (g u : Cert.Spec.W3) (d : Cert.Spec.D3) (e : Fin 8) (q : Fin 1024) :
    Cert.Spec.acc xr g u d e 0 q = 0 :=
  Finset.sum_range_zero _

/-- The masked sum over experts gains one expert at a time, and starts at zero. -/
private theorem out_succ (xr : Fin 1024 → EReal) (g u : Cert.Spec.W3) (d : Cert.Spec.D3) (w : BitVec 32) (k : ℕ) (q : Fin 1024) :
    Cert.Spec.out xr g u d w (k + 1) q
      = Cert.Spec.out xr g u d w k q
        + Cert.Spec.mask w k * (if he : k < 8 then Cert.Spec.acc xr g u d ⟨k, he⟩ 11 q else 0) :=
  Finset.sum_range_succ _ _

private theorem out_zero (xr : Fin 1024 → EReal) (g u : Cert.Spec.W3) (d : Cert.Spec.D3) (w : BitVec 32) (q : Fin 1024) :
    Cert.Spec.out xr g u d w 0 q = 0 :=
  Finset.sum_range_zero _

private theorem doneAt_last (n : ℕ) (hn : n < cfg0.N) (h : n % 11 = 10) : doneAt ⟨n, hn⟩ = n % 88 / 11 + 1 := if_pos h
private theorem doneAt_notLast (n : ℕ) (hn : n < cfg0.N) (h : ¬n % 11 = 10) : doneAt ⟨n, hn⟩ = n % 88 / 11 := if_neg h

/-- The inner products of a point's token tile with its gate and up tiles are the specification's inner products
    of the token row with the expert's hidden unit. -/
private theorem dotRow_gate (c : Dev nD) (t : Fin cfg0.N) (p : Fin 512) (hh : Fin 256) :
    dotRow (xblk m c t) (gblk m c t) p hh
      = Cert.Spec.pre (rowOf m c (rowAt t p)) (garr m c) (expAt t) (hidAt t hh) := by
  unfold dotRow Cert.Spec.pre
  refine Finset.sum_congr rfl (fun k _ => ?_)
  rw [xblk_apply m c t p k, gblk_apply m c t hh k]
  rfl

private theorem dotRow_up (c : Dev nD) (t : Fin cfg0.N) (p : Fin 512) (hh : Fin 256) :
    dotRow (xblk m c t) (ublk m c t) p hh
      = Cert.Spec.pre (rowOf m c (rowAt t p)) (uarr m c) (expAt t) (hidAt t hh) := by
  unfold dotRow Cert.Spec.pre
  refine Finset.sum_congr rfl (fun k _ => ?_)
  rw [xblk_apply m c t p k, ublk_apply m c t hh k]
  rfl

/-- One hidden unit's term of a point's partial product is the specification's term for that hidden unit. -/
private theorem tile_term (c : Dev nD) (t : Fin cfg0.N) (p : Fin 512) (q : Fin 1024) (hh : Fin 256) :
    ((dotRow (xblk m c t) (gblk m c t) p hh * Ideal.logistic (dotRow (xblk m c t) (gblk m c t) p hh))
        * dotRow (xblk m c t) (ublk m c t) p hh) * dblk m c t (ix3 (0 : Fin 1) q hh)
      = Cert.Spec.hid (rowOf m c (rowAt t p)) (garr m c) (uarr m c) (expAt t) (hidAt t hh)
          * darr m c (ix3 (expAt t) q (hidAt t hh)) := by
  rw [dotRow_gate m c t p hh, dotRow_up m c t p hh, dblk_apply m c t q hh]
  rfl

/-- One point adds to the accumulator the specification's tile number `t % 11` of the point's expert. -/
private theorem accStep_tile (c : Dev nD) (t : Fin cfg0.N) (a : Vec Ideal S512x1024 .f32) (p : Fin 512) (q : Fin 1024) :
    accStep (xblk m c t) (gblk m c t) (ublk m c t) (dblk m c t) a (ix2 p q)
      = a (ix2 p q)
        + Cert.Spec.tile (rowOf m c (rowAt t p)) (garr m c) (uarr m c) (darr m c) (expAt t) (t.val % 11) q := by
  refine (accStep_apply (xblk m c t) (gblk m c t) (ublk m c t) (dblk m c t) a p q).trans ?_
  refine congrArg (fun z : EReal => a (ix2 p q) + z) ?_
  unfold Cert.Spec.tile
  refine Finset.sum_congr rfl (fun hh _ => ?_)
  have hlt : 256 * (t.val % 11) + hh.val < 2816 := by have := hh.isLt; omega
  rw [dif_pos hlt]
  exact tile_term m c t p q hh

/-- If the accumulator held the first `t % 11` tiles before the point, it holds the first `t % 11 + 1` after it. -/
private theorem acc_next (c : Dev nD) (n : ℕ) (hn : n < cfg0.N) (a : Vec Ideal S512x1024 .f32) (p : Fin 512) (q : Fin 1024)
    (ha : a (ix2 p q)
      = Cert.Spec.acc (rowOf m c (rowAt ⟨n, hn⟩ p)) (garr m c) (uarr m c) (darr m c) (expAt ⟨n, hn⟩) (n % 11) q) :
    accStep (xblk m c ⟨n, hn⟩) (gblk m c ⟨n, hn⟩) (ublk m c ⟨n, hn⟩) (dblk m c ⟨n, hn⟩) a (ix2 p q)
      = Cert.Spec.acc (rowOf m c (rowAt ⟨n, hn⟩ p)) (garr m c) (uarr m c) (darr m c) (expAt ⟨n, hn⟩) (n % 11 + 1) q := by
  refine (accStep_tile m c ⟨n, hn⟩ a p q).trans ?_
  rw [acc_succ, ha]

/-- At a first hidden tile the zero accumulator is the empty sum of tiles. -/
private theorem zeroAcc_acc (c : Dev nD) (n : ℕ) (hn : n < cfg0.N) (p : Fin 512) (q : Fin 1024) (h11 : n % 11 = 0) :
    (zeroAcc (F := Ideal)) (ix2 p q)
      = Cert.Spec.acc (rowOf m c (rowAt ⟨n, hn⟩ p)) (garr m c) (uarr m c) (darr m c) (expAt ⟨n, hn⟩) (n % 11) q := by
  rw [h11, acc_zero, zeroAcc_apply]

/-- The closed form, by strong induction on the point. -/
private theorem outsAt_val_aux (c : Dev nD) (p : Fin 512) (q : Fin 1024) (n : ℕ) :
    ∀ hn : n < cfg0.N,
      (outsAt (F := Ideal) m c n hn).2 (ix2 p q)
          = Cert.Spec.acc (rowOf m c (rowAt ⟨n, hn⟩ p)) (garr m c) (uarr m c) (darr m c) (expAt ⟨n, hn⟩) (n % 11 + 1) q
      ∧ (outsAt (F := Ideal) m c n hn).1 (ix2 p q)
          = Cert.Spec.out (rowOf m c (rowAt ⟨n, hn⟩ p)) (garr m c) (uarr m c) (darr m c)
              (earr m c (ix1 (rowAt ⟨n, hn⟩ p))) (doneAt ⟨n, hn⟩) q := by
  induction n using Nat.strong_induction_on with
  | _ n ih =>
  intro hn
  have hN : n < 1408 := pt_lt ⟨n, hn⟩
  by_cases h0 : n % 88 = 0
  · -- the first point of a row tile: both buffers restart
    have h11 : n % 11 = 0 := by omega
    rw [outsAt_rowStart m c ⟨n, hn⟩ h0]
    dsimp only
    refine ⟨?_, ?_⟩
    · exact acc_next m c n hn zeroAcc p q (zeroAcc_acc m c n hn p q h11)
    · have hd : doneAt ⟨n, hn⟩ = 0 := by
        rw [doneAt_notLast n hn (by omega)]
        omega
      rw [hd, out_zero, zeroOut_apply]
  · have hpos : n - 1 < n := by omega
    have hn' : n - 1 < cfg0.N := lt_trans hpos hn
    obtain ⟨ihA, ihO⟩ := ih (n - 1) hpos hn'
    have hrow : rowAt ⟨n - 1, hn'⟩ p = rowAt ⟨n, hn⟩ p := by
      apply Fin.ext
      show 512 * ((n - 1) / 88) + p.val = 512 * (n / 88) + p.val
      omega
    rw [hrow] at ihA ihO
    by_cases h1 : n % 11 = 0
    · -- a first hidden tile: the accumulator restarts, the output block is kept
      rw [outsAt_tileStart m c ⟨n, hn⟩ h0 h1]
      dsimp only
      refine ⟨?_, ?_⟩
      · exact acc_next m c n hn zeroAcc p q (zeroAcc_acc m c n hn p q h1)
      · have hd : doneAt ⟨n - 1, hn'⟩ = doneAt ⟨n, hn⟩ := by
          rw [doneAt_last (n - 1) hn' (by omega), doneAt_notLast n hn (by omega)]
          omega
        rw [hd] at ihO
        exact ihO
    · have hexp : expAt ⟨n - 1, hn'⟩ = expAt ⟨n, hn⟩ := by
        apply Fin.ext
        show (n - 1) % 88 / 11 = n % 88 / 11
        omega
      have hk : (n - 1) % 11 + 1 = n % 11 := by omega
      rw [hexp, hk] at ihA
      by_cases h2 : n % 11 = 10
      · -- a last hidden tile: the output block gains the completed expert
        rw [outsAt_tileEnd m c ⟨n, hn⟩ h0 h1 h2]
        dsimp only
        have hA := acc_next m c n hn _ p q ihA
        refine ⟨hA, ?_⟩
        have hd : doneAt ⟨n - 1, hn'⟩ = n % 88 / 11 := by
          rw [doneAt_notLast (n - 1) hn' (by omega)]
          omega
        have he : n % 88 / 11 < 8 := by omega
        rw [hd] at ihO
        rw [doneAt_last n hn h2, out_succ, dif_pos he]
        refine (outStep_apply (grid0.coords ⟨n, hn⟩) (eblk m c ⟨n, hn⟩) _ _ p q).trans ?_
        rw [hA, ihO, eblk_apply m c ⟨n, hn⟩ p, coord1_val ⟨n, hn⟩, h2]
        rfl
      · -- any other point: the accumulator gains a tile, the output block is kept
        rw [outsAt_mid m c ⟨n, hn⟩ h0 h1 h2]
        dsimp only
        refine ⟨?_, ?_⟩
        · exact acc_next m c n hn _ p q ihA
        · have hd : doneAt ⟨n - 1, hn'⟩ = doneAt ⟨n, hn⟩ := by
            rw [doneAt_notLast (n - 1) hn' (by omega), doneAt_notLast n hn h2]
            omega
          rw [hd] at ihO
          exact ihO

theorem outsAt_val (c : Dev nD) (t : Fin cfg0.N) (p : Fin 512) (q : Fin 1024) :
    (outsAt (F := Ideal) m c t.val t.isLt).2 (ix2 p q)
        = Cert.Spec.acc (rowOf m c (rowAt t p)) (garr m c) (uarr m c) (darr m c) (expAt t) (t.val % 11 + 1) q
    ∧ (outsAt (F := Ideal) m c t.val t.isLt).1 (ix2 p q)
        = Cert.Spec.out (rowOf m c (rowAt t p)) (garr m c) (uarr m c) (darr m c) (earr m c (ix1 (rowAt t p))) (doneAt t) q :=
  outsAt_val_aux m c p q t.val t.isLt

end Cert.KernelIdeal.Hand

end
-- ==== Proof.KI.RunStart.lean ====
/- The kernel body run at the two kinds of point that restart the accumulator.
   Each statement is a triple for the whole kernel body on whole staging memrefs: the five input buffers at given
   contents come back unchanged; the output block and the accumulator come back at the contents the recursion
   `outsAt` names for that kind of point (`zeroOut`, `accStep`, `outStep`). -/
import proofs.«412612_j8624294331062_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a whole-block access are all zero, at each rank the body meets. -/
private theorem hz2 : (![0, 0] : Fin S512x1024.rank → ℕ) = fun _ => 0 := by funext a; fin_cases a <;> rfl
private theorem hz3a : (![0, 0, 0] : Fin S1x256x1024.rank → ℕ) = fun _ => 0 := by funext a; fin_cases a <;> rfl
private theorem hz3b : (![0, 0, 0] : Fin S1x1024x256.rank → ℕ) = fun _ => 0 := by funext a; fin_cases a <;> rfl

/-- A store of the whole 512×1024 block covers every index of the block, whatever was stored before it. -/
private theorem cover_whole {Val : EltTy → Type} (inb : ∀ a, (![0, 0] : Fin S512x1024.rank → ℕ) a + S512x1024.size a ≤ S512x1024.size a)
    (w : S512x1024.Idx → Val .f32) (L : List (View.Piece Val S512x1024 .f32)) (y : S512x1024.Idx) :
    ∃ p ∈ ((⟨Rect.unit (s := S512x1024) ![0, 0] S512x1024.size inb, w⟩ : View.Piece Val S512x1024 .f32) :: L), y ∈ p.1.set :=
  ⟨_, List.Mem.head _, View.mem_set_unit_zero (S := S512x1024) hz2 inb y⟩

/-- So a buffer whose last store was of the whole block reads as that store's value: earlier stores and the
    contents before them are overwritten. -/
private theorem read_after_whole {Val : EltTy → Type} [∀ e, Nonempty (Val e)] {sig : RefSig} {κ : Kind} {sp : Space}
    (v : View sig κ sp S512x1024 .f32) (f : v.ty.Contents Val)
    (inb : ∀ a, (![0, 0] : Fin S512x1024.rank → ℕ) a + S512x1024.size a ≤ S512x1024.size a)
    (w : S512x1024.Idx → Val .f32) (L : List (View.Piece Val S512x1024 .f32)) :
    v.read Val (v.writes Val f ((⟨Rect.unit (s := S512x1024) ![0, 0] S512x1024.size inb, w⟩ : View.Piece Val S512x1024 .f32) :: L)) = w := by
  rw [View.read_writes_eq_canon v f _ (cover_whole inb w L), View.canon_cons_unit_zero (S := S512x1024) hz2 inb w L]

/-- At the first point of a row tile: the output block is zeroed, the accumulator restarts from zero and gains the point's partial product. Neither buffer's previous contents matter. -/
theorem run_rowStart (c : Dev nD) (i : grid0.Coords) (arg3 : Memref sig .tc .vmem S512x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1024x256 .f32) (harg6 : arg6.IsWhole) (arg7 : Memref sig .tc .vmem S512 .i32) (harg7 : arg7.IsWhole) (arg8 : Memref sig .tc .vmem S512x1024 .f32) (harg8 : arg8.IsWhole) (arg9 : Memref sig .tc .vmem S512x1024 .f32) (harg9 : arg9.IsWhole) (hc0 : rowStart i) (hc1 : tileStart i) (hc2 : ¬tileEnd i)
    (x0 : Vec F S512x1024 .f32) (x1 : Vec F S1x256x1024 .f32) (x2 : Vec F S1x256x1024 .f32) (x3 : Vec F S1x1024x256 .f32) (x4 : Vec F S512 .i32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare zeroOut ∗ owns (c : Thread nD τ) arg9 fullShare (accStep x0 x1 x2 x3 zeroAcc)) -∗ K ⟨⟩))
      ⊢ wp frame (wpE (defs₀ (F := F)) Variants.none c none) E (cc0__moe_kernel i arg3 harg3 arg4 harg4 arg5 harg5 arg6 harg6 arg7 harg7 arg8 harg8 arg9 harg9) K := by
  simp only [cc0__moe_kernel_eq_skeleton]; unfold cc0__moe_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    exact (read_after_whole _ _ _ _ _).trans rfl
  iexists _; isplitr; swap; · iexact H6
  ipureintro
  refine (read_after_whole _ _ _ _ _).trans ?_
  sl_unfold_words
  simp only [View.readAt_eq_ld, harg3.read_unread, harg4.read_unread, harg5.read_unread, harg6.read_unread,
    View.ld_unit_zero (S := S512x1024) hz2, View.ld_unit_zero (S := S1x256x1024) hz3a,
    View.ld_unit_zero (S := S1x1024x256) hz3b, View.readCov_unit_zero (S := S512x1024) _ hz2]
  rfl

/-- At a first hidden tile that is not the first point of a row tile: the output block is left as found, the accumulator restarts from zero and gains the point's partial product. -/
theorem run_tileStart (c : Dev nD) (i : grid0.Coords) (arg3 : Memref sig .tc .vmem S512x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1024x256 .f32) (harg6 : arg6.IsWhole) (arg7 : Memref sig .tc .vmem S512 .i32) (harg7 : arg7.IsWhole) (arg8 : Memref sig .tc .vmem S512x1024 .f32) (harg8 : arg8.IsWhole) (arg9 : Memref sig .tc .vmem S512x1024 .f32) (harg9 : arg9.IsWhole) (hc0 : ¬rowStart i) (hc1 : tileStart i) (hc2 : ¬tileEnd i)
    (x0 : Vec F S512x1024 .f32) (x1 : Vec F S1x256x1024 .f32) (x2 : Vec F S1x256x1024 .f32) (x3 : Vec F S1x1024x256 .f32) (x4 : Vec F S512 .i32) (xo : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare (accStep x0 x1 x2 x3 zeroAcc)) -∗ K ⟨⟩))
      ⊢ wp frame (wpE (defs₀ (F := F)) Variants.none c none) E (cc0__moe_kernel i arg3 harg3 arg4 harg4 arg5 harg5 arg6 harg6 arg7 harg7 arg8 harg8 arg9 harg9) K := by
  simp only [cc0__moe_kernel_eq_skeleton]; unfold cc0__moe_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr; swap; · iexact H6
  ipureintro
  refine (read_after_whole _ _ _ _ _).trans ?_
  sl_unfold_words
  simp only [View.readAt_eq_ld, harg3.read_unread, harg4.read_unread, harg5.read_unread, harg6.read_unread,
    View.ld_unit_zero (S := S512x1024) hz2, View.ld_unit_zero (S := S1x256x1024) hz3a,
    View.ld_unit_zero (S := S1x1024x256) hz3b, View.readCov_unit_zero (S := S512x1024) _ hz2]
  rfl

end Cert.KernelIdeal.Hand

end
-- ==== Proof.KI.RunEnd.lean ====
/- The kernel body run at the two kinds of point that continue the accumulator.
   Each statement is a triple for the whole kernel body on whole staging memrefs: the five input buffers at given
   contents come back unchanged; the output block and the accumulator come back at the contents the recursion
   `outsAt` names for that kind of point (`zeroOut`, `accStep`, `outStep`). -/
import proofs.«412612_j8624294331062_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-two block, as the constant function. -/
private theorem zeros2 : (![0, 0] : Fin S512x1024.rank → ℕ) = fun _ => 0 := by funext a; fin_cases a <;> rfl

/-- The zero offsets of a rank-three block and of a rank-one block, as constant functions. -/
private theorem zeros3a : (![0, 0, 0] : Fin S1x256x1024.rank → ℕ) = fun _ => 0 := by funext a; fin_cases a <;> rfl
private theorem zeros3b : (![0, 0, 0] : Fin S1x1024x256.rank → ℕ) = fun _ => 0 := by funext a; fin_cases a <;> rfl
private theorem zeros1 : (![0] : Fin S512.rank → ℕ) = fun _ => 0 := by funext a; fin_cases a; rfl

/-- One store of the whole 512×1024 block, over any contents, reads back as its payload. -/
private theorem read_one_store (arg : Memref sig .tc .vmem S512x1024 .f32) (f : arg.view.ty.Contents (Elt F)) (w : Vec F S512x1024 .f32) :
    arg.view.read (Elt F) (arg.view.writes (Elt F) f
      [(⟨Rect.unit (s := S512x1024) ![0, 0] S512x1024.size inb_S512x1024_S512x1024_0_0, w⟩ : View.Piece (Elt F) S512x1024 .f32)]) = w := by
  have hcov : ∀ y : S512x1024.Idx, ∃ p ∈ [(⟨Rect.unit (s := S512x1024) ![0, 0] S512x1024.size inb_S512x1024_S512x1024_0_0, w⟩ : View.Piece (Elt F) S512x1024 .f32)], y ∈ p.1.set :=
    fun y => ⟨_, List.mem_singleton_self _, View.mem_set_unit_zero (S := S512x1024) zeros2 inb_S512x1024_S512x1024_0_0 y⟩
  rw [View.read_writes_eq_canon arg.view f _ hcov, View.canon_unit_zero (S := S512x1024) zeros2 inb_S512x1024_S512x1024_0_0 w]

/-- A load of a whole block from a whole buffer at known contents reads those contents. -/
private theorem load_whole2 (arg : Memref sig .tc .vmem S512x1024 .f32) (harg : arg.IsWhole) (x : Vec F S512x1024 .f32) :
    View.readAt (Elt F) arg.view (Rect.unit (s := S512x1024) ![0, 0] S512x1024.size inb_S512x1024_S512x1024_0_0).toLoadRect (harg.unread x) = x := by
  rw [View.readAt_eq_ld, harg.read_unread, View.ld_unit_zero (S := S512x1024) zeros2]

private theorem load_whole3a (arg : Memref sig .tc .vmem S1x256x1024 .f32) (harg : arg.IsWhole) (x : Vec F S1x256x1024 .f32) :
    View.readAt (Elt F) arg.view (Rect.unit (s := S1x256x1024) ![0, 0, 0] S1x256x1024.size inb_S1x256x1024_S1x256x1024_0_0_0).toLoadRect (harg.unread x) = x := by
  rw [View.readAt_eq_ld, harg.read_unread, View.ld_unit_zero (S := S1x256x1024) zeros3a]

private theorem load_whole3b (arg : Memref sig .tc .vmem S1x1024x256 .f32) (harg : arg.IsWhole) (x : Vec F S1x1024x256 .f32) :
    View.readAt (Elt F) arg.view (Rect.unit (s := S1x1024x256) ![0, 0, 0] S1x1024x256.size inb_S1x1024x256_S1x1024x256_0_0_0).toLoadRect (harg.unread x) = x := by
  rw [View.readAt_eq_ld, harg.read_unread, View.ld_unit_zero (S := S1x1024x256) zeros3b]

private theorem load_whole1 (arg : Memref sig .tc .vmem S512 .i32) (harg : arg.IsWhole) (x : Vec F S512 .i32) :
    View.readAt (Elt F) arg.view (Rect.unit (s := S512) ![0] S512.size inb_S512_S512_0).toLoadRect (harg.unread x) = x := by
  rw [View.readAt_eq_ld, harg.read_unread, View.ld_unit_zero (S := S512) zeros1]

/-- A load of the whole block right after one store of the whole block reads the stored payload. -/
private theorem readback2 (arg : Memref sig .tc .vmem S512x1024 .f32) (w : Vec F S512x1024 .f32) :
    arg.view.readCov [(⟨Rect.unit (s := S512x1024) ![0, 0] S512x1024.size inb_S512x1024_S512x1024_0_0, w⟩ : View.Piece (Elt F) S512x1024 .f32)]
      (Rect.unit (s := S512x1024) ![0, 0] S512x1024.size inb_S512x1024_S512x1024_0_0).toLoadRect = w :=
  View.readCov_unit_zero (S := S512x1024) arg.view zeros2 inb_S512x1024_S512x1024_0_0 w

/-- The accumulator's new contents, computed from the five loads of whole buffers at known contents, is the point's step. -/
private theorem acc_val (arg3 : Memref sig .tc .vmem S512x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1024x256 .f32) (harg6 : arg6.IsWhole) (arg9 : Memref sig .tc .vmem S512x1024 .f32) (harg9 : arg9.IsWhole)
    (x0 : Vec F S512x1024 .f32) (x1 : Vec F S1x256x1024 .f32) (x2 : Vec F S1x256x1024 .f32) (x3 : Vec F S1x1024x256 .f32) (xs : Vec F S512x1024 .f32) :
    k0_pay1 (k0_pay5
        (View.readAt (Elt F) arg3.view (Rect.unit (s := S512x1024) ![0, 0] S512x1024.size inb_S512x1024_S512x1024_0_0).toLoadRect (harg3.unread x0))
        (View.readAt (Elt F) arg4.view (Rect.unit (s := S1x256x1024) ![0, 0, 0] S1x256x1024.size inb_S1x256x1024_S1x256x1024_0_0_0).toLoadRect (harg4.unread x1))
        (View.readAt (Elt F) arg5.view (Rect.unit (s := S1x256x1024) ![0, 0, 0] S1x256x1024.size inb_S1x256x1024_S1x256x1024_0_0_0).toLoadRect (harg5.unread x2))
        (View.readAt (Elt F) arg6.view (Rect.unit (s := S1x1024x256) ![0, 0, 0] S1x1024x256.size inb_S1x1024x256_S1x1024x256_0_0_0).toLoadRect (harg6.unread x3))
        (View.readAt (Elt F) arg9.view (Rect.unit (s := S512x1024) ![0, 0] S512x1024.size inb_S512x1024_S512x1024_0_0).toLoadRect (harg9.unread xs)))
      = accStep x0 x1 x2 x3 xs := by
  rw [load_whole2 arg3 harg3 x0, load_whole3a arg4 harg4 x1, load_whole3a arg5 harg5 x2, load_whole3b arg6 harg6 x3, load_whole2 arg9 harg9 xs]
  rfl

/-- At a point that is neither a first nor a last hidden tile: the output block is left as found, the accumulator gains the point's partial product. -/
theorem run_mid (c : Dev nD) (i : grid0.Coords) (arg3 : Memref sig .tc .vmem S512x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1024x256 .f32) (harg6 : arg6.IsWhole) (arg7 : Memref sig .tc .vmem S512 .i32) (harg7 : arg7.IsWhole) (arg8 : Memref sig .tc .vmem S512x1024 .f32) (harg8 : arg8.IsWhole) (arg9 : Memref sig .tc .vmem S512x1024 .f32) (harg9 : arg9.IsWhole) (hc0 : ¬rowStart i) (hc1 : ¬tileStart i) (hc2 : ¬tileEnd i)
    (x0 : Vec F S512x1024 .f32) (x1 : Vec F S1x256x1024 .f32) (x2 : Vec F S1x256x1024 .f32) (x3 : Vec F S1x1024x256 .f32) (x4 : Vec F S512 .i32) (xo xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare (accStep x0 x1 x2 x3 xs)) -∗ K ⟨⟩))
      ⊢ wp frame (wpE (defs₀ (F := F)) Variants.none c none) E (cc0__moe_kernel i arg3 harg3 arg4 harg4 arg5 harg5 arg6 harg6 arg7 harg7 arg8 harg8 arg9 harg9) K := by
  simp only [cc0__moe_kernel_eq_skeleton]; unfold cc0__moe_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr; swap; · iexact H6
  ipureintro
  refine (read_one_store _ _ _).trans ?_
  sl_unfold_words
  exact acc_val arg3 harg3 arg4 harg4 arg5 harg5 arg6 harg6 arg9 harg9 x0 x1 x2 x3 xs

/-- At a last hidden tile: the accumulator gains the point's partial product, and the output block gains the routing mask times the completed accumulator. -/
theorem run_tileEnd (c : Dev nD) (i : grid0.Coords) (arg3 : Memref sig .tc .vmem S512x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1024x256 .f32) (harg6 : arg6.IsWhole) (arg7 : Memref sig .tc .vmem S512 .i32) (harg7 : arg7.IsWhole) (arg8 : Memref sig .tc .vmem S512x1024 .f32) (harg8 : arg8.IsWhole) (arg9 : Memref sig .tc .vmem S512x1024 .f32) (harg9 : arg9.IsWhole) (hc0 : ¬rowStart i) (hc1 : ¬tileStart i) (hc2 : tileEnd i)
    (x0 : Vec F S512x1024 .f32) (x1 : Vec F S1x256x1024 .f32) (x2 : Vec F S1x256x1024 .f32) (x3 : Vec F S1x1024x256 .f32) (x4 : Vec F S512 .i32) (xo xs : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outStep i x4 xo (accStep x0 x1 x2 x3 xs)) ∗ owns (c : Thread nD τ) arg9 fullShare (accStep x0 x1 x2 x3 xs)) -∗ K ⟨⟩))
      ⊢ wp frame (wpE (defs₀ (F := F)) Variants.none c none) E (cc0__moe_kernel i arg3 harg3 arg4 harg4 arg5 harg5 arg6 harg6 arg7 harg7 arg8 harg8 arg9 harg9) K := by
  simp only [cc0__moe_kernel_eq_skeleton]; unfold cc0__moe_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (read_one_store _ _ _).trans ?_
    sl_unfold_words
    unfold outStep
    exact congr (congr (congrArg (k0_pay2 _) (load_whole1 arg7 harg7 x4)) (load_whole2 arg8 harg8 xo))
      ((readback2 arg9 _).trans (acc_val arg3 harg3 arg4 harg4 arg5 harg5 arg6 harg6 arg9 harg9 x0 x1 x2 x3 xs))
  iexists _; isplitr; swap; · iexact H6
  ipureintro
  refine (read_one_store _ _ _).trans ?_
  sl_unfold_words
  exact acc_val arg3 harg3 arg4 harg4 arg5 harg5 arg6 harg6 arg9 harg9 x0 x1 x2 x3 xs

end Cert.KernelIdeal.Hand

end
-- ==== Proof.KI.Body.lean ====
/- The body obligation of the pipeline, the frame run and the frame.

   The output window is handed to the body at what its staging buffer holds: at the first point of a row tile
   anything (nothing has been stored, or the block has just been written back); otherwise what the point before
   left — looking back through the points idle for the window, this is `outsAt`'s first component at the point
   before (`before_5`, by induction on the point).  With that, each of the four kinds of point is its run
   (RunStart, RunEnd), and the launch is the library's frame run for a region followed by host lines. -/
import proofs.«412612_j8624294331062_1_alg».proof.Proof.KI.RunStart
import proofs.«412612_j8624294331062_1_alg».proof.Proof.KI.RunEnd

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The output window is uncut, so what a live point leaves in its staging buffer is all of what the body left. -/
private theorem kept_5 (c : Dev nD) (t : Fin cfg0.N) (d) :
    (dats m 0 c).kept 5 t d = (outsAt m c t.val t.isLt).1 := by
  unfold Dat.kept
  rw [Pipeline.fill_of_clip_none 5 _ (fun _ => rfl) d ((dats m 0 c).after 5 t), Window.fill_cut, after_5]

/-- By induction on the point: past the first point of a row tile the previous point does not write the block back;
    if it is idle for the window it hands on what it found, which by induction is what the point before it left,
    and an idle point leaves the first component unchanged; if it is live it leaves its own first component. -/
private theorem before_5_aux (c : Dev nD) (d) : ∀ (n : ℕ) (t : Fin cfg0.N), t.val = n → ¬t.val % 88 = 0 →
    (dats m 0 c).before 5 t d = (prevAt m c t).1 := by
  intro n
  induction n with
  | zero => intro t ht h0; exact absurd (by rw [ht]) h0
  | succ n ih =>
    intro t ht h0
    have htpos : t.val ≠ 0 := by omega
    rw [Dat.before_of_pos _ 5 t htpos ((cfg0.win 5).fetch_out rfl t) d]
    generalize hp : (⟨t.val - 1, Nat.lt_of_le_of_lt (Nat.sub_le _ _) t.isLt⟩ : Fin cfg0.N) = p
    have hpv : p.val = n := by rw [← hp]; dsimp only; omega
    have hfl : (cfg0.win 5).flush p = false :=
      Bool.eq_false_iff.mpr fun h => by have := (flush0_5 p).mp h; omega
    rw [hfl, if_neg Bool.false_ne_true]
    have hprev : (prevAt m c t).1 = (outsAt m c p.val p.isLt).1 := by rw [← hp]
    rw [hprev]
    unfold Dat.left
    by_cases hi : cfg0.idle 5 (grid0.coords p) = true
    · obtain ⟨hp0, hp2⟩ := (idle5_iff p).mp hi
      rw [hi]
      show (dats m 0 c).before 5 p d = _
      rw [ih p hpv hp0]
      by_cases hp1 : p.val % 11 = 0
      · rw [outsAt_tileStart m c p hp0 hp1]
      · rw [outsAt_mid m c p hp0 hp1 hp2]
    · rw [Bool.eq_false_iff.mpr hi]
      exact kept_5 m c p d

/-- Past the first point of a row tile the output window's staging buffer holds what the point before left in it:
    the block is not written back inside a row tile, and an idle point hands the buffer on unchanged. -/
theorem before_5 (c : Dev nD) (t : Fin cfg0.N) (h0 : ¬t.val % 88 = 0) (d) :
    (dats m 0 c).before 5 t d = (prevAt m c t).1 :=
  before_5_aux m c d t.val t rfl h0

/-- What the body is called with at point `t`: the invariant, what the core owes, and the six windows' current
    staging buffers one by one. -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input window is live everywhere: after the body its buffer holds its block. -/
private theorem leaves_0 (c : Dev nD) (t : Fin cfg0.N) :
    (dats m 0 c).leavesExact 0 t = owns (c : Thread nD τ) (mr0 t) fullShare (iblk m c 0 t) := by
  unfold Dat.leavesExact; rw [live0 t, after_0]
private theorem leaves_1 (c : Dev nD) (t : Fin cfg0.N) :
    (dats m 0 c).leavesExact 1 t = owns (c : Thread nD τ) (mr1 t) fullShare (iblk m c 1 t) := by
  unfold Dat.leavesExact; rw [live1 t, after_1]
private theorem leaves_2 (c : Dev nD) (t : Fin cfg0.N) :
    (dats m 0 c).leavesExact 2 t = owns (c : Thread nD τ) (mr2 t) fullShare (iblk m c 2 t) := by
  unfold Dat.leavesExact; rw [live2 t, after_2]
private theorem leaves_3 (c : Dev nD) (t : Fin cfg0.N) :
    (dats m 0 c).leavesExact 3 t = owns (c : Thread nD τ) (mr3 t) fullShare (iblk m c 3 t) := by
  unfold Dat.leavesExact; rw [live3 t, after_3]
private theorem leaves_4 (c : Dev nD) (t : Fin cfg0.N) :
    (dats m 0 c).leavesExact 4 t = owns (c : Thread nD τ) (mr4 t) fullShare (iblk m c 4 t) := by
  unfold Dat.leavesExact; rw [live4 t, after_4]

/-- Where the output window is live (a point that zeroes the block or adds into it) its buffer ends at the first
    component of `outsAt`. -/
private theorem leaves_5_live (c : Dev nD) (t : Fin cfg0.N) (h : t.val % 88 = 0 ∨ t.val % 11 = 10) :
    (dats m 0 c).leavesExact 5 t = owns (c : Thread nD τ) (mr5 t) fullShare (outsAt m c t.val t.isLt).1 := by
  have hl : cfg0.idle 5 (grid0.coords t) = false :=
    Bool.eq_false_iff.mpr fun hi => by have := (idle5_iff t).mp hi; omega
  unfold Dat.leavesExact; rw [hl, after_5]

/-- Where it is idle (inside a row tile, not at a last hidden tile) the block is not written back, and the buffer
    is handed on as found. -/
private theorem leaves_5_idle (c : Dev nD) (t : Fin cfg0.N) (h0 : ¬t.val % 88 = 0) (h2 : ¬t.val % 11 = 10) :
    (dats m 0 c).leavesExact 5 t
      = iprop(∃ d, owns (c : Thread nD τ) (mr5 t) fullShare ((dats m 0 c).before 5 t d)) :=
  Dat.leavesExact_idle (dats m 0 c) 5 t ((idle5_iff t).mpr ⟨h0, h2⟩)
    (Bool.eq_false_iff.mpr fun hf => by have := (flush0_5 t).mp hf; omega)

set_option maxHeartbeats 4800000 in
/-- The body at any point.  The inputs' buffers hold their blocks; the point is of one of four kinds, told apart by
    its position in the row tile and in the expert's hidden tiles, and each kind is its run.  The invariant lends the
    accumulator — at anything before the first point, afterwards at what the point before left — and takes it back
    at this point's second component; the output block is given at what it holds and taken back at this point's
    first component where the window is live, untouched where it is idle. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  have hN : t.val < 1408 := lt_of_lt_of_eq t.isLt (show cfg0.N = 1408 from N_0)
  by_cases h0 : t.val % 88 = 0
  · -- first point of a row tile: also a first hidden tile, not a last one
    have h1 : t.val % 11 = 0 := by omega
    have h2 : ¬t.val % 11 = 10 := by omega
    rw [leaves_5_live m c t (Or.inl h0), outsAt_rowStart m c t h0]
    by_cases hz : t.val = 0
    · rw [Phi_castSucc m c t, PhiS_zero m c _ _ hz, lent_eq]
      iintro ⟨⟨HS, Hg⟩, Ho, ⟨%d0, H0⟩, ⟨%d1, H1⟩, ⟨%d2, H2⟩, ⟨%d3, H3⟩, ⟨%d4, H4⟩, ⟨%d5, H5⟩⟩
      iapply (run_rowStart c (grid0.coords t) (mr0 t) (wh0 t) (mr1 t) (wh1 t) (mr2 t) (wh2 t) (mr3 t) (wh3 t) (mr4 t) (wh4 t) (mr5 t) (wh5 t) accM (Memref.isWhole_whole _) ((rowStart_iff t).mpr h0) ((tileStart_iff t).mpr h1) (fun h => h2 ((tileEnd_iff t).mp h)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_rowStart c (grid0.coords t) (mr0 t) (wh0 t) (mr1 t) (wh1 t) (mr2 t) (wh2 t) (mr3 t) (wh3 t) (mr4 t) (wh4 t) (mr5 t) (wh5 t) accM (Memref.isWhole_whole _) ((rowStart_iff t).mpr h0) ((tileStart_iff t).mpr h1) (fun h => h2 ((tileEnd_iff t).mp h)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun hz => h0 (by rw [hz])
    rw [Phi_castSucc m c t, PhiS_pos m c _ _ hz]
    by_cases h1 : t.val % 11 = 0
    · -- a first hidden tile inside a row tile: the output window is idle
      have h2 : ¬t.val % 11 = 10 := by omega
      rw [leaves_5_idle m c t h0 h2, outsAt_tileStart m c t h0 h1]
      iintro ⟨⟨HS, Hg⟩, Ho, ⟨%d0, H0⟩, ⟨%d1, H1⟩, ⟨%d2, H2⟩, ⟨%d3, H3⟩, ⟨%d4, H4⟩, ⟨%d5, H5⟩⟩
      iapply (run_tileStart c (grid0.coords t) (mr0 t) (wh0 t) (mr1 t) (wh1 t) (mr2 t) (wh2 t) (mr3 t) (wh3 t) (mr4 t) (wh4 t) (mr5 t) (wh5 t) accM (Memref.isWhole_whole _) (fun h => h0 ((rowStart_iff t).mp h)) ((tileStart_iff t).mpr h1) (fun h => h2 ((tileEnd_iff t).mp h)) (iblk m c 0 t) (iblk m c 1 t) (iblk m c 2 t) (iblk m c 3 t) (iblk m c 4 t) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · by_cases h2 : t.val % 11 = 10
      · -- a last hidden tile: the output block holds what the point before left, and gains the masked accumulator
        simp only [before_5 m c t h0]
        rw [leaves_5_live m c t (Or.inr h2), outsAt_tileEnd m c t h0 h1 h2]
        iintro ⟨⟨HS, Hg⟩, Ho, ⟨%d0, H0⟩, ⟨%d1, H1⟩, ⟨%d2, H2⟩, ⟨%d3, H3⟩, ⟨%d4, H4⟩, ⟨%d5, H5⟩⟩
        iapply (run_tileEnd c (grid0.coords t) (mr0 t) (wh0 t) (mr1 t) (wh1 t) (mr2 t) (wh2 t) (mr3 t) (wh3 t) (mr4 t) (wh4 t) (mr5 t) (wh5 t) accM (Memref.isWhole_whole _) (fun h => h0 ((rowStart_iff t).mp h)) (fun h => h1 ((tileStart_iff t).mp h)) ((tileEnd_iff t).mpr h2) (iblk m c 0 t) (iblk m c 1 t) (iblk m c 2 t) (iblk m c 3 t) (iblk m c 4 t) (prevAt m c t).1 (prevAt m c t).2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        iexact H5
      · -- any other point: the output window is idle, the accumulator goes on
        rw [leaves_5_idle m c t h0 h2, outsAt_mid m c t h0 h1 h2]
        iintro ⟨⟨HS, Hg⟩, Ho, ⟨%d0, H0⟩, ⟨%d1, H1⟩, ⟨%d2, H2⟩, ⟨%d3, H3⟩, ⟨%d4, H4⟩, ⟨%d5, H5⟩⟩
        iapply (run_mid c (grid0.coords t) (mr0 t) (wh0 t) (mr1 t) (wh1 t) (mr2 t) (wh2 t) (mr3 t) (wh3 t) (mr4 t) (wh4 t) (mr5 t) (wh5 t) accM (Memref.isWhole_whole _) (fun h => h0 ((rowStart_iff t).mp h)) (fun h => h1 ((tileStart_iff t).mp h)) (fun h => h2 ((tileEnd_iff t).mp h)) (iblk m c 0 t) (iblk m c 1 t) (iblk m c 2 t) (iblk m c 3 t) (iblk m c 4 t) ((dats m 0 c).before 5 t d5) (prevAt m c t).2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 1408 := N_0; omega
  rw [show (dats m 0 c).Φ (Fin.last cfg0.N) = PhiS m c (Fin.last cfg0.N).val (Nat.le_of_lt_succ (Fin.last cfg0.N).isLt) from rfl,
    PhiS_pos m c _ _ hne, lent_eq]
  iintro ⟨HS, Hg⟩
  isplitl [HS]
  · iexists _; iexact HS
  iexact Hg

set_option backward.isDefEq.respectTransparency.types false in
/-- Every weakly fair execution of @main terminates; every array of the pipeline ends at what the library computes
    from the proof data (`Dat.arrAt`), and every other unscoped buffer at its region-entry contents run through
    the host lines after the region. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KI.Final.lean ====
/- From the carried output block to the kernel's result array.

   The output window's block is written back once per row tile, at the tile's last point 88·i + 87, when it holds the
   masked sum over all 8 experts; the 16 blocks tile the 8192 × 1024 array, so the array after the run is that sum
   row by row.  The host lines around the region only re-lay data: before it each token row is repeated for its two
   routing slots and the slots are flattened (row n of the flattened arrays is token n / 2, slot n % 2); after it the
   flattened rows are split again into (token, slot).  So the result at (t, a, d) is the masked expert sum of token
   t's row with slot (t, a)'s routing word. -/
import proofs.«412612_j8624294331062_1_alg».proof.Proof.KI.Invariant
import proofs.«412612_j8624294331062_1_alg».proof.Proof.KI.Body
import Idealize.ShloMosaic.Lib.StableHlo.Run
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The masked sum over all 8 experts as one array over (flattened row, column). -/
private def sumArr (c : Dev nD) : S8192x1024.Idx → EReal := fun j =>
  Cert.Spec.out (rowOf m c (j 0)) (garr m c) (uarr m c) (darr m c) (earr m c (ix1 (j 0))) 8 (j 1)

/-- The output window's block index at a point is (row tile, 0). -/
private theorem out_index : ∀ t : Fin cfg0.N, win0_5.index t (0 : Fin 2) = t.val / 88 ∧ win0_5.index t (1 : Fin 2) = 0 :=
  (by decide +kernel : ∀ t : Fin grid0.N, win0_5.index t (0 : Fin 2) = t.val / 88 ∧ win0_5.index t (1 : Fin 2) = 0)

/-- At the last point of a row tile all 8 experts are done: the carried output block is the masked sum, at the
    tile's rows. -/
private theorem last_block (c : Dev nD) (t : Fin cfg0.N) (h87 : t.val % 88 = 87) (p : Fin 512) (q : Fin 1024) :
    (outsAt (F := Ideal) m c t.val t.isLt).1 (ix2 p q) = sumArr m c (ix2 (rowAt t p) q) := by
  have hd : doneAt t = 8 := by
    unfold doneAt
    rw [if_pos (by omega)]
    omega
  refine ((outsAt_val m c t p q).2).trans ?_
  rw [hd]
  rfl

/-- What a writing-back point writes back is its block of the masked sum. -/
private theorem flushed_eq (c : Dev nD) (t : Fin cfg0.N) (hf : (cfg0.win 5).flush t = true) :
    (dats (F := Ideal) m 0 c).flushed 5 t = ((cfg0.win 5).blk t).view.read (Elt Ideal) (sumArr m c) := by
  have h87 : t.val % 88 = 87 := (flush0_5 t).mp hf
  obtain ⟨e0, e1⟩ := out_index t
  show (cfg0.win 5).cut (grid0.coords t) ((dats (F := Ideal) m 0 c).after 5 t) = _
  rw [after_5]
  funext y
  obtain ⟨p, q, rfl⟩ : ∃ (p : Fin 512) (q : Fin 1024), y = ix2 p q := ⟨y 0, y 1, eq_ix2 y⟩
  show (outsAt (F := Ideal) m c t.val t.isLt).1 (ix2 p q) = sumArr m c (((cfg0.win 5).blk t).view.emb (ix2 p q))
  rw [last_block m c t h87 p q]
  congr 1
  funext a
  apply Fin.ext
  match a with
  | ⟨0, _⟩ =>
    show 512 * (t.val / 88) + p.val = win0_5.index t (0 : Fin 2) * 512 + 1 * p.val
    rw [e0]; omega
  | ⟨1, _⟩ =>
    show q.val = win0_5.index t (1 : Fin 2) * 1024 + 1 * q.val
    rw [e1]; omega

/-- Row `r` of the array lies in the block written back at the last point of row tile `r / 512`. -/
private theorem cover (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 1408 := N_0
  obtain ⟨t, ht⟩ : ∃ t : Fin cfg0.N, t.val = 88 * ((i 0).val / 512) + 87 := ⟨⟨88 * ((i 0).val / 512) + 87, by rw [hN]; omega⟩, rfl⟩
  obtain ⟨e0, e1⟩ := out_index t
  refine ⟨t, (flush0_5 t).mpr (by omega), ?_⟩
  show i ∈ ((View.whole main_v3).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [e0]; omega
  | ⟨1, _⟩ =>
    show win0_5.index t (1 : Fin 2) * 1024 ≤ (i 1).val ∧ (i 1).val < win0_5.index t (1 : Fin 2) * 1024 + 1024
    rw [e1]; omega

/-- The output array after the run, row by row: the masked sum over all 8 experts. -/
theorem out_array (c : Dev nD) (n : Fin 8192) (q : Fin 1024) :
    ((dats (F := Ideal) m 0 c).arrAt 5 cfg0.N : S8192x1024.Idx → EReal) (ix2 n q)
      = Cert.Spec.out (rowOf m c n) (garr m c) (uarr m c) (darr m c) (earr m c (ix1 n)) 8 q :=
  congrFun ((dats (F := Ideal) m 0 c).arrAt_eq_of_cover 5 (sumArr m c) (fun t ht => flushed_eq m c t ht) cover) (ix2 n q)

/-- The flattened token array as the host lines before the region leave it: the token array with each row repeated
    for its two slots, then the (token, slot) pairs flattened. -/
private theorem xarr_eq (c : Dev nD) :
    xarr m c = shapeCast S8192x1024
      (broadcastInDim S4096x2x1024 ![0, 2] bcast_S4096x1024_S4096x2x1024_0_2
        (m ((c.tc : Thread nD τ).loc main_arg0) : S4096x1024.Idx → EReal))
      shapeCasts_S4096x2x1024_S8192x1024 := by
  show StableHlo.after hostOps0 (fun b => m (c, b)) (Proc.devRef .tc main_v1) = _
  after_results
  rfl

/-- Row `n` of the flattened token array is token `n / 2`'s row. -/
theorem xarr_apply (c : Dev nD) (n : Fin 8192) (k : Fin 1024) :
    xarr m c (ix2 n k)
      = (m ((c.tc : Thread nD τ).loc main_arg0) : S4096x1024.Idx → EReal) (ix2 ⟨n.val / 2, by omega⟩ k) := by
  have hn : n.val < 8192 := n.isLt
  rw [xarr_eq]
  refine (shapeCast_apply (s := S4096x2x1024) (t := S8192x1024) _ _ _
    (ix3 (⟨n.val / 2, by omega⟩ : Fin 4096) (⟨n.val % 2, by omega⟩ : Fin 2) k) ?_).trans ?_
  · rw [Shape.rowMajor_val_two, Shape.rowMajor_val_three]
    show (n.val / 2 * 2 + n.val % 2) * 1024 + k.val = n.val * 1024 + k.val
    omega
  · exact broadcastInDim_apply _ _ _ _ _ fun a => match a with | ⟨0, _⟩ => rfl | ⟨1, _⟩ => rfl

/-- The flattened routing array as the host line before the region leaves it. -/
private theorem earr_eq (c : Dev nD) :
    earr m c = shapeCast S8192 (m ((c.tc : Thread nD τ).loc main_arg1) : S4096x2.Idx → BitVec 32) shapeCasts_S4096x2_S8192 := by
  show StableHlo.after hostOps0 (fun b => m (c, b)) (Proc.devRef .tc main_v2) = _
  after_results
  rfl

/-- Entry `n` of the flattened routing array is slot `n % 2` of token `n / 2`. -/
theorem earr_apply (c : Dev nD) (n : Fin 8192) :
    earr m c (ix1 n)
      = (m ((c.tc : Thread nD τ).loc main_arg1) : S4096x2.Idx → BitVec 32) (ix2 ⟨n.val / 2, by omega⟩ ⟨n.val % 2, by omega⟩) := by
  have hn : n.val < 8192 := n.isLt
  rw [earr_eq]
  refine shapeCast_apply (s := S4096x2) (t := S8192) _ _ _ _ ?_
  rw [Shape.rowMajor_val_two, Shape.rowMajor_val_one]
  show n.val / 2 * 2 + n.val % 2 = n.val
  omega

theorem garr_eq (c : Dev nD) : garr m c = m ((c.tc : Thread nD τ).loc main_arg3) := V_main_arg3 m c
theorem uarr_eq (c : Dev nD) : uarr m c = m ((c.tc : Thread nD τ).loc main_arg2) := V_main_arg2 m c
theorem darr_eq (c : Dev nD) : darr m c = m ((c.tc : Thread nD τ).loc main_arg4) := V_main_arg4 m c

/-- The result buffer after the host line that follows the region: the output array's rows split into (token, slot). -/
theorem result_apply (c : Dev nD) (t : Fin 4096) (a : Fin 2) (d : Fin 1024) :
    (Pipeline.afterTail₀ cfgs (dats (F := Ideal) m) 0 (V0 m) [hostOps1] c main_v4 : S4096x2x1024.Idx → EReal) (ix3 t a d)
      = ((dats (F := Ideal) m 0 c).arrAt 5 cfg0.N : S8192x1024.Idx → EReal) (ix2 ⟨2 * t.val + a.val, by omega⟩ d) := by
  have e : (Pipeline.afterTail₀ cfgs (dats (F := Ideal) m) 0 (V0 m) [hostOps1] c main_v4 : S4096x2x1024.Idx → EReal)
      = shapeCast S4096x2x1024 ((dats (F := Ideal) m 0 c).arrAt 5 cfg0.N : S8192x1024.Idx → EReal)
          shapeCasts_S8192x1024_S4096x2x1024 := by
    unfold Pipeline.afterTail₀
    show StableHlo.after hostOps1 _ (Proc.devRef .tc main_v4) = _
    after_results
    exact congrArg (fun X : S8192x1024.Idx → EReal => shapeCast S4096x2x1024 X shapeCasts_S8192x1024_S4096x2x1024)
      (Pipeline.withArrays_arr spec0 launch0.win.arr_inj c (V0 m c) (fun w => (dats (F := Ideal) m 0 c).arrAt w cfg0.N) 5)
  rw [e]
  refine shapeCast_apply (s := S8192x1024) (t := S4096x2x1024) _ _ _ _ ?_
  rw [Shape.rowMajor_val_two, Shape.rowMajor_val_three]
  show (2 * t.val + a.val) * 1024 + d.val = (t.val * 2 + a.val) * 1024 + d.val
  omega

/-- THE KERNEL'S VALUE: every weakly fair execution of the idealized kernel program terminates with the result at the
    masked expert sum of the arguments, and the arguments unchanged. -/
theorem kernel_value :
    θ_run defs (onTc (τ := τ) (main (F := Ideal))) ⟨m, fun _ => 0, ρ⟩ (fun r => ∀ c : Dev nD,
      r.2.mem ((c.tc : Thread nD τ).loc main_v4)
        = Cert.Spec.kernelResult (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 1).trans (((dats m 0 c).arrAt_in 1 rfl _).trans ((A_eq m c 1).trans (V_main_arg3 m c))),
      ((h c).1 3).trans (((dats m 0 c).arrAt_in 3 rfl _).trans ((A_eq m c 3).trans (V_main_arg4 m c)))⟩)
    (run_main (F := Ideal) m ρ)
  refine ((h c).2 main_v4 (Pipeline.mem_restRefs_of main_v4 (by decide) (by decide))).trans ?_
  funext j
  obtain ⟨t, a, d, rfl⟩ : ∃ (t : Fin 4096) (a : Fin 2) (d : Fin 1024), j = ix3 t a d := ⟨j 0, j 1, j 2, eq_ix3 j⟩
  refine (result_apply m c t a d).trans ?_
  refine (out_array m c _ d).trans ?_
  have ht : t.val < 4096 := t.isLt
  have ha : a.val < 2 := a.isLt
  have hrow : rowOf m c ⟨2 * t.val + a.val, by omega⟩
      = fun k => (m ((c.tc : Thread nD τ).loc main_arg0) : S4096x1024.Idx → EReal) (ix2 t k) := by
    funext k
    refine (xarr_apply m c _ k).trans ?_
    congr 2
    apply Fin.ext
    show (2 * t.val + a.val) / 2 = t.val
    omega
  have hword : earr m c (ix1 ⟨2 * t.val + a.val, by omega⟩)
      = (m ((c.tc : Thread nD τ).loc main_arg1) : S4096x2.Idx → BitVec 32) (ix2 t a) := by
    refine (earr_apply m c _).trans ?_
    congr 2
    · apply Fin.ext
      show (2 * t.val + a.val) / 2 = t.val
      omega
    · apply Fin.ext
      show (2 * t.val + a.val) % 2 = a.val
      omega
  rw [hrow, hword, garr_eq, uarr_eq, darr_eq]
  rfl

end Cert.KernelIdeal.Hand

end
-- ==== Proof.Ref.lean ====
/- The reference program's result, element by element.

   The reference computes, for every token, all 8 experts' gate and up parts, picks the routed expert's by a
   take-along-axis (a gather whose start index is the routing word, wrapped if negative and checked against
   0 … 7; an out-of-range word selects a not-a-number fill instead), applies silu and the product, multiplies by all 8
   down matrices and picks the routed expert's again.  With every routing word in 0 … 7 neither wrap nor fill
   happens, and element (t, a, d) is the routed expert's output for token t's row.

   The proof goes stage by stage.  A word below 8 is non-negative as a signed word, so the wrap leaves it alone,
   the range test holds at every position, its conjunction over the unit axis is true, and each select keeps the
   gathered value.  Each gather is read at an index: its batch coordinates are copied, the expert axis is addressed
   by the routing word (the clamp into 0 … 7 does nothing), the last axis is copied.  The two projections and the
   down product are the sums of the specification after the index functions are identified with the coordinates. -/
import proofs.«412612_j8624294331062_1_alg».proof.Proof.RefRead
import proofs.«412612_j8624294331062_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Reduce
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.ShloMosaic.ValueIdx

/-! ## Routing words below 8: no wrap, in range -/

/-- A word below 8 is not negative as a signed word, so the wrap (add 8 when negative) leaves it alone. -/
theorem wrap_eq (w : BitVec 32) (hw : w.toNat < 8) :
    Scalar.select (IntOp.cmpi .slt w 0#32) (IntOp.addi w 8#32) w = w := by
  unfold Scalar.select
  rw [if_neg]
  intro h
  have := (StableHlo.Predicate.slt_iff_toNat (a := w) (b := 0#32) (by omega) (by decide)).1 h
  simp at this

/-- A word below 8 passes the range test 0 ≤ w ≤ 7. -/
theorem inrange_eq (w : BitVec 32) (hw : w.toNat < 8) :
    IntOp.andi (IntOp.cmpi .sge w 0#32) (IntOp.cmpi .sle w 7#32) = 1#1 := by
  rw [(StableHlo.Predicate.sge_iff_toNat (a := w) (b := 0#32) (by omega) (by decide)).2 (by simp),
    (StableHlo.Predicate.sle_iff_toNat (a := w) (b := 7#32) (by omega) (by decide)).2 (by simp; omega)]
  rfl

/-- A word below 8 read signed and clamped into 0 … 7 is itself. -/
theorem clamp_eq (w : BitVec 32) (hw : w.toNat < 8) : min w.toInt.toNat (8 - 1) = w.toNat := by
  rw [StableHlo.Predicate.toInt_eq_toNat_of_lt (a := w) (by omega), Int.toNat_natCast]
  omega

/-- The conjunction of all-true bits over any index set, from true, is true. -/
theorem fold_and_ones {ι : Type} [DecidableEq ι] (s : Finset ι) :
    s.fold IntOp.andi (1#1 : BitVec 1) (fun _ => (1#1 : BitVec 1)) = 1#1 := by
  induction s using Finset.induction_on with
  | empty => rfl
  | insert a s ha ih => rw [Finset.fold_insert ha, ih]; rfl

/-! ## First take-along-axis (gate parts): wrapped index, range mask -/

theorem call0_v4 (idx : (⟨S4096x2, .i32⟩ : BufTy).Contents (Elt Ideal)) (hidx : ∀ j, (idx j).toNat < 8) (i : S4096x2x1.Idx) :
    val_main_call0_v4 (F := Ideal) idx i = idx (idx_main_v2 i) := by
  rw [val_main_call0_v4_apply, val_main_call0_v1_apply, val_main_call0_v3_apply, val_main_call0_v0_apply,
    val_main_call0_c_apply, val_main_call0_v2_apply, val_main_call0_c_0_apply, val_main_v2_apply]
  exact wrap_eq _ (hidx _)

theorem call0_v10 (idx : (⟨S4096x2, .i32⟩ : BufTy).Contents (Elt Ideal)) (hidx : ∀ j, (idx j).toNat < 8) (i : S4096x2x1.Idx) :
    val_main_call0_v10 (F := Ideal) idx i = 1#1 := by
  rw [val_main_call0_v10_apply, val_main_call0_v6_apply, val_main_call0_v9_apply, call0_v4 idx hidx,
    val_main_call0_v5_apply, val_main_call0_c_2_apply, val_main_call0_v8_apply, val_main_call0_v7_apply,
    val_main_call0_c_1_apply]
  exact inrange_eq _ (hidx _)

theorem call0_v11 (idx : (⟨S4096x2, .i32⟩ : BufTy).Contents (Elt Ideal)) (hidx : ∀ j, (idx j).toNat < 8) (j : S4096x2.Idx) :
    val_main_call0_v11 (F := Ideal) idx j = 1#1 := by
  unfold val_main_call0_v11
  rw [Host.reduce_eq_fold_single IntOp.andi _ _ Facts₀.reducesTo_S4096x2x1_S4096x2_d2
    (by decide : S4096x2x1.Reduces [2] S4096x2) Facts₀.h_S_ j]
  have e : (val_main_call0_v10 (F := Ideal) idx ∘ (by decide : S4096x2x1.Reduces [2] S4096x2).lift j) = fun _ => (1#1 : BitVec 1) :=
    funext fun k => call0_v10 idx hidx _
  rw [e]
  exact fold_and_ones _

theorem call0_v13 (idx : (⟨S4096x2, .i32⟩ : BufTy).Contents (Elt Ideal)) (hidx : ∀ j, (idx j).toNat < 8) (i : S4096x2x2816.Idx) :
    val_main_call0_v13 (F := Ideal) idx i = 1#1 := by
  rw [val_main_call0_v13_apply]
  exact call0_v11 idx hidx _

/-! ## The two take-along-axis gathers, read at an index

Both are batched gathers: the leading result coordinates are batch coordinates shared by operand and start
indices, one operand axis (the expert axis, extent 8) is collapsed and addressed by the start index, and the last
axis is copied whole.  With the start index an expert number below 8 the clamp does nothing. -/

/-- The start-indices index the first gather reads for result index `j`: `(j 0, j 1, 0)`. -/
theorem g1_siIdx (j : S4096x2x2816.Idx)
    (c : Fin gather_S4096x8x2816_S4096x2x1_S4096x2x2816_2_1_0_0_1_2_112816.startIndexMap.length) :
    gather_S4096x8x2816_S4096x2x1_S4096x2x2816_2_1_0_0_1_2_112816.siIdx j c = ix3 (j 0) (j 1) 0 := by
  funext b
  refine Fin.ext ?_
  match b with
  | ⟨0, _⟩ => rfl
  | ⟨1, _⟩ => rfl
  | ⟨2, _⟩ =>
    show c.val = 0
    have : c.val < 1 := c.isLt
    omega

/-- The first gather at `(t, a, h)`: the operand at `(t, e, h)`, `e` the start index at `(t, a, 0)`. -/
theorem gather1_apply {α : Type} (X : S4096x8x2816.Idx → α) (I : IVec S4096x2x1 32) (j : S4096x2x2816.Idx) (e : Fin 8)
    (he : (I (ix3 (j 0) (j 1) 0)).toNat = e.val) :
    Host.gather gather_S4096x8x2816_S4096x2x1_S4096x2x2816_2_1_0_0_1_2_112816 X I j = X (ix3 (j 0) e (j 2)) := by
  unfold Host.gather
  congr 1
  funext a
  refine Fin.ext ?_
  match a with
  | ⟨0, _⟩ =>
    show gather_S4096x8x2816_S4096x2x1_S4096x2x2816_2_1_0_0_1_2_112816.start j I 0
      + gather_S4096x8x2816_S4096x2x1_S4096x2x2816_2_1_0_0_1_2_112816.batchCoord j 0
      + gather_S4096x8x2816_S4096x2x1_S4096x2x2816_2_1_0_0_1_2_112816.offCoord j 0 = (j 0).val
    rw [GatherDims.start_batching _ _ _ _ (by decide), GatherDims.offCoord_eq_zero _ _ _ (by decide), Nat.zero_add,
      Nat.add_zero]
    rfl
  | ⟨1, _⟩ =>
    show gather_S4096x8x2816_S4096x2x1_S4096x2x2816_2_1_0_0_1_2_112816.start j I 1
      + gather_S4096x8x2816_S4096x2x1_S4096x2x2816_2_1_0_0_1_2_112816.batchCoord j 1
      + gather_S4096x8x2816_S4096x2x1_S4096x2x2816_2_1_0_0_1_2_112816.offCoord j 1 = e.val
    rw [GatherDims.batchCoord_eq_zero _ _ _ (by decide), GatherDims.offCoord_eq_zero _ _ _ (by decide)]
    unfold GatherDims.start
    rw [dif_pos (by decide), g1_siIdx]
    show min (I (ix3 (j 0) (j 1) 0)).toInt.toNat (8 - 1) + 0 + 0 = e.val
    rw [clamp_eq _ (by rw [he]; exact e.isLt), he]
    rfl
  | ⟨2, _⟩ =>
    show gather_S4096x8x2816_S4096x2x1_S4096x2x2816_2_1_0_0_1_2_112816.start j I 2
      + gather_S4096x8x2816_S4096x2x1_S4096x2x2816_2_1_0_0_1_2_112816.batchCoord j 2
      + gather_S4096x8x2816_S4096x2x1_S4096x2x2816_2_1_0_0_1_2_112816.offCoord j 2 = (j 2).val
    rw [GatherDims.batchCoord_eq_zero _ _ _ (by decide)]
    unfold GatherDims.start
    rw [dif_neg (by decide), Nat.zero_add]
    rfl

/-- The start-indices index the second gather reads for result index `j`: `(j 0, j 1, j 2, 0)`. -/
theorem g2_siIdx (j : S4096x2x1x1024.Idx)
    (c : Fin gather_S4096x2x8x1024_S4096x2x1x1_S4096x2x1x1024_3_2_01_01_2_3_1111024.startIndexMap.length) :
    gather_S4096x2x8x1024_S4096x2x1x1_S4096x2x1x1024_3_2_01_01_2_3_1111024.siIdx j c = ix4 (j 0) (j 1) (j 2) 0 := by
  funext b
  refine Fin.ext ?_
  match b with
  | ⟨0, _⟩ => rfl
  | ⟨1, _⟩ => rfl
  | ⟨2, _⟩ => rfl
  | ⟨3, _⟩ =>
    show c.val = 0
    have : c.val < 1 := c.isLt
    omega

/-- The second gather at `(t, a, 0, d)`: the operand at `(t, a, e, d)`, `e` the start index at `(t, a, 0, 0)`. -/
theorem gather2_apply {α : Type} (X : S4096x2x8x1024.Idx → α) (I : IVec S4096x2x1x1 32) (j : S4096x2x1x1024.Idx) (e : Fin 8)
    (he : (I (ix4 (j 0) (j 1) (j 2) 0)).toNat = e.val) :
    Host.gather gather_S4096x2x8x1024_S4096x2x1x1_S4096x2x1x1024_3_2_01_01_2_3_1111024 X I j
      = X (ix4 (j 0) (j 1) e (j 3)) := by
  unfold Host.gather
  congr 1
  funext a
  refine Fin.ext ?_
  match a with
  | ⟨0, _⟩ =>
    show gather_S4096x2x8x1024_S4096x2x1x1_S4096x2x1x1024_3_2_01_01_2_3_1111024.start j I 0
      + gather_S4096x2x8x1024_S4096x2x1x1_S4096x2x1x1024_3_2_01_01_2_3_1111024.batchCoord j 0
      + gather_S4096x2x8x1024_S4096x2x1x1_S4096x2x1x1024_3_2_01_01_2_3_1111024.offCoord j 0 = (j 0).val
    rw [GatherDims.start_batching _ _ _ _ (by decide), GatherDims.offCoord_eq_zero _ _ _ (by decide), Nat.zero_add,
      Nat.add_zero]
    rfl
  | ⟨1, _⟩ =>
    show gather_S4096x2x8x1024_S4096x2x1x1_S4096x2x1x1024_3_2_01_01_2_3_1111024.start j I 1
      + gather_S4096x2x8x1024_S4096x2x1x1_S4096x2x1x1024_3_2_01_01_2_3_1111024.batchCoord j 1
      + gather_S4096x2x8x1024_S4096x2x1x1_S4096x2x1x1024_3_2_01_01_2_3_1111024.offCoord j 1 = (j 1).val
    rw [GatherDims.start_batching _ _ _ _ (by decide), GatherDims.offCoord_eq_zero _ _ _ (by decide), Nat.zero_add,
      Nat.add_zero]
    rfl
  | ⟨2, _⟩ =>
    show gather_S4096x2x8x1024_S4096x2x1x1_S4096x2x1x1024_3_2_01_01_2_3_1111024.start j I 2
      + gather_S4096x2x8x1024_S4096x2x1x1_S4096x2x1x1024_3_2_01_01_2_3_1111024.batchCoord j 2
      + gather_S4096x2x8x1024_S4096x2x1x1_S4096x2x1x1024_3_2_01_01_2_3_1111024.offCoord j 2 = e.val
    rw [GatherDims.batchCoord_eq_zero _ _ _ (by decide), GatherDims.offCoord_eq_zero _ _ _ (by decide)]
    unfold GatherDims.start
    rw [dif_pos (by decide), g2_siIdx]
    show min (I (ix4 (j 0) (j 1) (j 2) 0)).toInt.toNat (8 - 1) + 0 + 0 = e.val
    rw [clamp_eq _ (by rw [he]; exact e.isLt), he]
    rfl
  | ⟨3, _⟩ =>
    show gather_S4096x2x8x1024_S4096x2x1x1_S4096x2x1x1024_3_2_01_01_2_3_1111024.start j I 3
      + gather_S4096x2x8x1024_S4096x2x1x1_S4096x2x1x1024_3_2_01_01_2_3_1111024.batchCoord j 3
      + gather_S4096x2x8x1024_S4096x2x1x1_S4096x2x1x1024_3_2_01_01_2_3_1111024.offCoord j 3 = (j 3).val
    rw [GatherDims.batchCoord_eq_zero _ _ _ (by decide)]
    unfold GatherDims.start
    rw [dif_neg (by decide), Nat.zero_add]
    rfl
/-! ## Second take-along-axis (up parts): the same wrapped index and range mask -/

theorem call2_v4 (idx : (⟨S4096x2, .i32⟩ : BufTy).Contents (Elt Ideal)) (hidx : ∀ j, (idx j).toNat < 8) (i : S4096x2x1.Idx) :
    val_main_call2_v4 (F := Ideal) idx i = idx (idx_main_v2 i) := by
  rw [val_main_call2_v4_apply, val_main_call2_v1_apply, val_main_call2_v3_apply, val_main_call2_v0_apply,
    val_main_call2_c_apply, val_main_call2_v2_apply, val_main_call2_c_0_apply, val_main_v2_apply]
  exact wrap_eq _ (hidx _)

theorem call2_v10 (idx : (⟨S4096x2, .i32⟩ : BufTy).Contents (Elt Ideal)) (hidx : ∀ j, (idx j).toNat < 8) (i : S4096x2x1.Idx) :
    val_main_call2_v10 (F := Ideal) idx i = 1#1 := by
  rw [val_main_call2_v10_apply, val_main_call2_v6_apply, val_main_call2_v9_apply, call2_v4 idx hidx,
    val_main_call2_v5_apply, val_main_call2_c_2_apply, val_main_call2_v8_apply, val_main_call2_v7_apply,
    val_main_call2_c_1_apply]
  exact inrange_eq _ (hidx _)

theorem call2_v11 (idx : (⟨S4096x2, .i32⟩ : BufTy).Contents (Elt Ideal)) (hidx : ∀ j, (idx j).toNat < 8) (j : S4096x2.Idx) :
    val_main_call2_v11 (F := Ideal) idx j = 1#1 := by
  unfold val_main_call2_v11
  rw [Host.reduce_eq_fold_single IntOp.andi _ _ Facts₀.reducesTo_S4096x2x1_S4096x2_d2
    (by decide : S4096x2x1.Reduces [2] S4096x2) Facts₀.h_S_ j]
  have e : (val_main_call2_v10 (F := Ideal) idx ∘ (by decide : S4096x2x1.Reduces [2] S4096x2).lift j) = fun _ => (1#1 : BitVec 1) :=
    funext fun k => call2_v10 idx hidx _
  rw [e]
  exact fold_and_ones _

theorem call2_v13 (idx : (⟨S4096x2, .i32⟩ : BufTy).Contents (Elt Ideal)) (hidx : ∀ j, (idx j).toNat < 8) (i : S4096x2x2816.Idx) :
    val_main_call2_v13 (F := Ideal) idx i = 1#1 := by
  rw [val_main_call2_v13_apply]
  exact call2_v11 idx hidx _

/-! ## Third take-along-axis (down products): the routing words with one more unit axis -/

theorem call3_v4 (idx : (⟨S4096x2, .i32⟩ : BufTy).Contents (Elt Ideal)) (hidx : ∀ j, (idx j).toNat < 8) (i : S4096x2x1x1.Idx) :
    val_main_call3_v4 (F := Ideal) idx i = idx (idx_main_v2 (idx_main_v8 i)) := by
  rw [val_main_call3_v4_apply, val_main_call3_v1_apply, val_main_call3_v3_apply, val_main_call3_v0_apply,
    val_main_call3_c_apply, val_main_call3_v2_apply, val_main_call3_c_0_apply, val_main_v8_apply, val_main_v2_apply]
  exact wrap_eq _ (hidx _)

theorem call3_v10 (idx : (⟨S4096x2, .i32⟩ : BufTy).Contents (Elt Ideal)) (hidx : ∀ j, (idx j).toNat < 8) (i : S4096x2x1x1.Idx) :
    val_main_call3_v10 (F := Ideal) idx i = 1#1 := by
  rw [val_main_call3_v10_apply, val_main_call3_v6_apply, val_main_call3_v9_apply, call3_v4 idx hidx,
    val_main_call3_v5_apply, val_main_call3_c_2_apply, val_main_call3_v8_apply, val_main_call3_v7_apply,
    val_main_call3_c_1_apply]
  exact inrange_eq _ (hidx _)

theorem call3_v11 (idx : (⟨S4096x2, .i32⟩ : BufTy).Contents (Elt Ideal)) (hidx : ∀ j, (idx j).toNat < 8) (j : S4096x2x1.Idx) :
    val_main_call3_v11 (F := Ideal) idx j = 1#1 := by
  unfold val_main_call3_v11
  rw [Host.reduce_eq_fold_single IntOp.andi _ _ Facts₀.reducesTo_S4096x2x1x1_S4096x2x1_d3
    (by decide : S4096x2x1x1.Reduces [3] S4096x2x1) Facts₀.h_S_ j]
  have e : (val_main_call3_v10 (F := Ideal) idx ∘ (by decide : S4096x2x1x1.Reduces [3] S4096x2x1).lift j) = fun _ => (1#1 : BitVec 1) :=
    funext fun k => call3_v10 idx hidx _
  rw [e]
  exact fold_and_ones _

theorem call3_v13 (idx : (⟨S4096x2, .i32⟩ : BufTy).Contents (Elt Ideal)) (hidx : ∀ j, (idx j).toNat < 8) (i : S4096x2x1x1024.Idx) :
    val_main_call3_v13 (F := Ideal) idx i = 1#1 := by
  rw [val_main_call3_v13_apply]
  exact call3_v11 idx hidx _

/-! ## Index bookkeeping: the operations' index functions at indices given by their coordinates -/

theorem v2_ix3 (t : Fin 4096) (a : Fin 2) (u : Fin 1) : idx_main_v2 (ix3 t a u) = ix2 t a := by
  funext b
  match b with
  | ⟨0, _⟩ => rfl
  | ⟨1, _⟩ => rfl

theorem v8_ix4 (t : Fin 4096) (a : Fin 2) (u v : Fin 1) : idx_main_v2 (idx_main_v8 (ix4 t a u v)) = ix2 t a := by
  funext b
  match b with
  | ⟨0, _⟩ => rfl
  | ⟨1, _⟩ => rfl

theorem lidx_v0_ix (t : Fin 4096) (e : Fin 8) (h : Fin 2816) (k : Fin 1024) : lidx_main_v0 (ix3 t e h) k = ix2 t k := by
  funext b
  match b with
  | ⟨0, _⟩ => rfl
  | ⟨1, _⟩ => rfl

theorem ridx_v0_ix (t : Fin 4096) (e : Fin 8) (h : Fin 2816) (k : Fin 1024) : ridx_main_v0 (ix3 t e h) k = ix3 e h k := by
  funext b
  match b with
  | ⟨0, _⟩ => rfl
  | ⟨1, _⟩ => rfl
  | ⟨2, _⟩ => rfl

theorem lidx_v1_ix (t : Fin 4096) (e : Fin 8) (h : Fin 2816) (k : Fin 1024) : lidx_main_v1 (ix3 t e h) k = ix2 t k := by
  funext b
  match b with
  | ⟨0, _⟩ => rfl
  | ⟨1, _⟩ => rfl

theorem ridx_v1_ix (t : Fin 4096) (e : Fin 8) (h : Fin 2816) (k : Fin 1024) : ridx_main_v1 (ix3 t e h) k = ix3 e h k := by
  funext b
  match b with
  | ⟨0, _⟩ => rfl
  | ⟨1, _⟩ => rfl
  | ⟨2, _⟩ => rfl

theorem lidx_v7_ix (t : Fin 4096) (a : Fin 2) (e : Fin 8) (d : Fin 1024) (k : Fin 2816) :
    lidx_main_v7 (ix4 t a e d) k = ix3 t a k := by
  funext b
  match b with
  | ⟨0, _⟩ => rfl
  | ⟨1, _⟩ => rfl
  | ⟨2, _⟩ => rfl

theorem ridx_v7_ix (t : Fin 4096) (a : Fin 2) (e : Fin 8) (d : Fin 1024) (k : Fin 2816) :
    ridx_main_v7 (ix4 t a e d) k = ix3 e d k := by
  funext b
  match b with
  | ⟨0, _⟩ => rfl
  | ⟨1, _⟩ => rfl
  | ⟨2, _⟩ => rfl

/-- The reshape that drops the unit axis reads `(t, a, d)` at `(t, a, 0, d)`. -/
theorem v10_ix (t : Fin 4096) (a : Fin 2) (d : Fin 1024) : idx_main_v10 (ix3 t a d) = ix4 t a 0 d := by
  have h0 : t.val < 4096 := t.isLt
  have h1 : a.val < 2 := a.isLt
  have h2 : d.val < 1024 := d.isLt
  funext b
  refine Fin.ext ?_
  match b with
  | ⟨0, _⟩ => show ((t.val * 2 + a.val) * 1024 + d.val) / 2048 = t.val; omega
  | ⟨1, _⟩ => show ((t.val * 2 + a.val) * 1024 + d.val) / 1024 % 2 = a.val; omega
  | ⟨2, _⟩ => rfl
  | ⟨3, _⟩ => show ((t.val * 2 + a.val) * 1024 + d.val) % 1024 = d.val; omega

/-- The gathers at indices given by their coordinates. -/
theorem gather1_ix {α : Type} (X : S4096x8x2816.Idx → α) (I : IVec S4096x2x1 32) (t : Fin 4096) (a : Fin 2) (h : Fin 2816)
    (e : Fin 8) (he : (I (ix3 t a 0)).toNat = e.val) :
    Host.gather gather_S4096x8x2816_S4096x2x1_S4096x2x2816_2_1_0_0_1_2_112816 X I (ix3 t a h) = X (ix3 t e h) :=
  gather1_apply X I (ix3 t a h) e he

theorem gather2_ix {α : Type} (X : S4096x2x8x1024.Idx → α) (I : IVec S4096x2x1x1 32) (t : Fin 4096) (a : Fin 2) (d : Fin 1024)
    (e : Fin 8) (he : (I (ix4 t a 0 0)).toNat = e.val) :
    Host.gather gather_S4096x2x8x1024_S4096x2x1x1_S4096x2x1x1024_3_2_01_01_2_3_1111024 X I (ix4 t a 0 d) = X (ix4 t a e d) :=
  gather2_apply X I (ix4 t a 0 d) e he

/-- A routing word below 8 names the expert with its own number. -/
theorem expertOf_val (w : BitVec 32) (hw : w.toNat < 8) : w.toNat = (Cert.Spec.expertOf w).val :=
  (Nat.mod_eq_of_lt hw).symm

/-! ## The stages -/

/-- The gate part picked for slot `(t, a)`: token `t`'s row against row `h` of the routed expert's gate matrix. -/
theorem gate_part (x : (⟨S4096x1024, .f32⟩ : BufTy).Contents (Elt Ideal)) (idx : (⟨S4096x2, .i32⟩ : BufTy).Contents (Elt Ideal))
    (gate : (⟨S8x2816x1024, .f32⟩ : BufTy).Contents (Elt Ideal)) (hidx : ∀ j, (idx j).toNat < 8)
    (t : Fin 4096) (a : Fin 2) (h : Fin 2816) :
    val_main_v3 (F := Ideal) x idx gate (ix3 t a h)
      = Cert.Spec.pre (fun k => x (ix2 t k)) gate (Cert.Spec.expertOf (idx (ix2 t a))) h := by
  rw [val_main_v3_apply, call0_v13 idx hidx, select_one]
  unfold val_main_call0_v12
  rw [gather1_ix _ _ t a h (Cert.Spec.expertOf (idx (ix2 t a)))
    (by rw [call0_v4 idx hidx, v2_ix3]; exact expertOf_val _ (hidx _)), val_main_v0_apply]
  unfold Cert.Spec.pre
  refine Finset.sum_congr rfl fun k _ => ?_
  rw [lidx_v0_ix, ridx_v0_ix]

/-- The up part picked for slot `(t, a)`. -/
theorem up_part (x : (⟨S4096x1024, .f32⟩ : BufTy).Contents (Elt Ideal)) (idx : (⟨S4096x2, .i32⟩ : BufTy).Contents (Elt Ideal))
    (up : (⟨S8x2816x1024, .f32⟩ : BufTy).Contents (Elt Ideal)) (hidx : ∀ j, (idx j).toNat < 8)
    (t : Fin 4096) (a : Fin 2) (h : Fin 2816) :
    val_main_v5 (F := Ideal) x idx up (ix3 t a h)
      = Cert.Spec.pre (fun k => x (ix2 t k)) up (Cert.Spec.expertOf (idx (ix2 t a))) h := by
  rw [val_main_v5_apply, call2_v13 idx hidx, select_one]
  unfold val_main_call2_v12
  rw [gather1_ix _ _ t a h (Cert.Spec.expertOf (idx (ix2 t a)))
    (by rw [call2_v4 idx hidx, v2_ix3]; exact expertOf_val _ (hidx _)), val_main_v1_apply]
  unfold Cert.Spec.pre
  refine Finset.sum_congr rfl fun k _ => ?_
  rw [lidx_v1_ix, ridx_v1_ix]

/-- The hidden activation for slot `(t, a)`: silu of the gate part, written out as `g · 1 / (1 + e^(−g))`, times the up part. -/
theorem hidden (x : (⟨S4096x1024, .f32⟩ : BufTy).Contents (Elt Ideal)) (idx : (⟨S4096x2, .i32⟩ : BufTy).Contents (Elt Ideal))
    (up gate : (⟨S8x2816x1024, .f32⟩ : BufTy).Contents (Elt Ideal)) (hidx : ∀ j, (idx j).toNat < 8)
    (t : Fin 4096) (a : Fin 2) (h : Fin 2816) :
    val_main_v6 (F := Ideal) x idx up gate (ix3 t a h)
      = Cert.Spec.hid (fun k => x (ix2 t k)) gate up (Cert.Spec.expertOf (idx (ix2 t a))) h := by
  have one : (FloatOps.ofBits .f32 0x3F800000#32 : Ideal .f32) = 1 := IdealRules.sign_bit.ideal_onePat .f32
  rw [val_main_v6_apply, val_main_v4_apply, val_main_call1_v5_apply, val_main_call1_v4_apply, val_main_call1_cst_0_apply,
    val_main_call1_v3_apply, val_main_call1_v2_apply, val_main_call1_cst_apply, val_main_call1_v1_apply,
    val_main_call1_v0_apply, gate_part x idx gate hidx, up_part x idx up hidx, one]
  rfl

/-- The down product for slot `(t, a)` against expert `e`'s down matrix, at the routed expert. -/
theorem down_part (x : (⟨S4096x1024, .f32⟩ : BufTy).Contents (Elt Ideal)) (idx : (⟨S4096x2, .i32⟩ : BufTy).Contents (Elt Ideal))
    (up gate : (⟨S8x2816x1024, .f32⟩ : BufTy).Contents (Elt Ideal)) (down : (⟨S8x1024x2816, .f32⟩ : BufTy).Contents (Elt Ideal))
    (hidx : ∀ j, (idx j).toNat < 8) (t : Fin 4096) (a : Fin 2) (d : Fin 1024) :
    val_main_v7 (F := Ideal) x idx up gate down (ix4 t a (Cert.Spec.expertOf (idx (ix2 t a))) d)
      = Cert.Spec.expert (fun k => x (ix2 t k)) gate up down (Cert.Spec.expertOf (idx (ix2 t a))) d := by
  rw [val_main_v7_apply]
  unfold Cert.Spec.expert
  refine Finset.sum_congr rfl fun k _ => ?_
  rw [lidx_v7_ix, ridx_v7_ix, hidden x idx up gate hidx]

/-- With every routing word below 8 the reference's last stage is the routed expert's output. Arguments in the
    program's order: tokens, routing words, up, gate, down. -/
theorem ref_value (x : (⟨S4096x1024, .f32⟩ : BufTy).Contents (Elt Ideal)) (idx : (⟨S4096x2, .i32⟩ : BufTy).Contents (Elt Ideal))
    (up gate : (⟨S8x2816x1024, .f32⟩ : BufTy).Contents (Elt Ideal)) (down : (⟨S8x1024x2816, .f32⟩ : BufTy).Contents (Elt Ideal))
    (hidx : ∀ j, (idx j).toNat < 8) :
    val_main_v10 (F := Ideal) x idx up gate down = Cert.Spec.result x idx up gate down := by
  funext j
  obtain ⟨t, a, d, rfl⟩ : ∃ (t : Fin 4096) (a : Fin 2) (d : Fin 1024), j = ix3 t a d := ⟨j 0, j 1, j 2, eq_ix3 j⟩
  rw [val_main_v10_apply, v10_ix, val_main_v9_apply, call3_v13 idx hidx, select_one]
  unfold val_main_call3_v12
  rw [gather2_ix _ _ t a d (Cert.Spec.expertOf (idx (ix2 t a)))
    (by rw [call3_v4 idx hidx, v8_ix4]; exact expertOf_val _ (hidx _)), down_part x idx up gate down hidx]
  rfl

end Cert.ReferenceIdeal.RefValue

end
-- ==== Proof.PreFacts.lean ====
/- What the precondition says of the routing words: every word is an expert number, 0 ≤ w < 8 as a signed
   integer, hence below 8 as a natural number.  The printed predicate is a conjunction of whole-array `and`-folds;
   its last two conjuncts are the folds of `w ≥ 0` and of `w < 8` over all 4096 × 2 words. -/
import proofs.«412612_j8624294331062_1_alg».proof.Pre_finite_inputs
import proofs.«412612_j8624294331062_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx

/-- Under the precondition every routing word is below 8 (as a natural number). Generic in the float family: the
    two conjuncts read only the integer input. -/
theorem idx_lt {F : FTy → Type} [FloatOps F] [hP : Cert.Pre_finite_inputs.Facts]
    (x : FVec F Cert.Pre_finite_inputs.S4096x1024 .f32) (idx : IVec Cert.Pre_finite_inputs.S4096x2 32)
    (up gate : FVec F Cert.Pre_finite_inputs.S8x2816x1024 .f32) (down : FVec F Cert.Pre_finite_inputs.S8x1024x2816 .f32)
    (h : Cert.Pre_finite_inputs.fn (F := F) x idx up gate down = fun _ => 1#1) :
    ∀ j, (idx j).toNat < 8 := by
  intro j
  haveI : Subsingleton Cert.Pre_finite_inputs.S_.Idx := ⟨fun a b => funext fun d => d.elim0⟩
  -- the predicate's one bit is a conjunction; its last two conjuncts are the two whole-array folds over the words
  have h0 := congrFun h ValueIdx.ix0
  dsimp only [Cert.Pre_finite_inputs.fn, Cert.Pre_finite_inputs.fn_part1] at h0
  obtain ⟨h22, h25⟩ := IntOp.andi_eq_one.1 h0
  obtain ⟨-, h21⟩ := IntOp.andi_eq_one.1 h22
  -- each fold being 1, the compare is 1 at every word
  have hge : IntOp.cmpi .sge (idx j) 0#32 = 1#1 := Host.reduce_andi_all _ _ _ _ _ h21 j
  have hlt : IntOp.cmpi .slt (idx j) 8#32 = 1#1 := Host.reduce_andi_all _ _ _ _ _ h25 j
  -- read signed: 0 ≤ w < 8, so the top bit is clear and the signed and unsigned readings agree
  have h1 : (0#32 : BitVec 32).toInt ≤ (idx j).toInt := IntOp.cmpi_sge.1 hge
  have h2 : (idx j).toInt < (8#32 : BitVec 32).toInt := IntOp.cmpi_slt.1 hlt
  have e0 : (0#32 : BitVec 32).toInt = 0 := by decide
  have e8 : (8#32 : BitVec 32).toInt = 8 := by decide
  rw [e0] at h1
  have hnn : 2 * (idx j).toNat < 2 ^ 32 := BitVec.toInt_pos_iff.1 h1
  have hI : (idx j).toInt = (idx j).toNat := StableHlo.Predicate.toInt_eq_toNat_of_lt (by omega)
  rw [hI, e8] at h2
  exact_mod_cast h2

end Cert.PreFacts

end
-- ==== Proof.lean ====
/- The mixture-of-experts feed-forward kernel against its dense reference, over the extended reals.

   For every (token, routing slot) the reference picks the routed expert e and returns
   down_e · (silu(gate_e · x) ⊙ (up_e · x)).  The kernel instead walks all 8 experts for every row tile, builds each
   expert's output in a scratch accumulator over 11 tiles of the hidden axis, and adds it into the output block
   multiplied by the 0/1 indicator "this row's routing word is e".  The two agree because the hidden-axis sum may be
   regrouped into 11 × 256 and the indicator sum keeps exactly the routed expert's term; both steps use only the
   commutative-monoid laws of the extended reals and 0 · a = 0, so the finiteness of the float inputs is never used.
   What is used of the precondition is that every routing word is an expert number (0 ≤ w < 8): outside that range
   the reference's take-along-axis wraps or fills, which the kernel's indicator does not mirror.

   The frames of the two kernel programs are the body's run at each of the four kinds of grid point (first point of a
   row tile, first hidden tile, last hidden tile, any other) under the library's frame run; the reference's frame is
   its run with the result dropped.  Nothing was rewritten by the idealization, so `preserves` is `True`. -/
import proofs.«412612_j8624294331062_1_alg».proof.Defs
import proofs.«412612_j8624294331062_1_alg».proof.Proof.Gen.Kernel
import proofs.«412612_j8624294331062_1_alg».proof.Proof.Gen.KernelIdeal
import proofs.«412612_j8624294331062_1_alg».proof.Proof.Gen.ReferenceIdeal
import proofs.«412612_j8624294331062_1_alg».proof.Proof.Gen.Pre_finite_inputs
import proofs.«412612_j8624294331062_1_alg».proof.Proof.K.Body
import proofs.«412612_j8624294331062_1_alg».proof.Proof.KI.Final
import proofs.«412612_j8624294331062_1_alg».proof.Proof.RefRead
import proofs.«412612_j8624294331062_1_alg».proof.Proof.Ref
import proofs.«412612_j8624294331062_1_alg».proof.Proof.PreFacts
import Idealize.ShloMosaic.Adequacy
import Idealize.ShloMosaic.Init

noncomputable section

namespace Cert.Proof

open Idealize.ShloMosaic Idealize.SL.Sem

theorem frame_k : Cert.frame_Kernel :=
  fun m ρ _ => Cert.Kernel.Hand.frame (F := Bits) m ρ

theorem frame_ki : Cert.frame_KernelIdeal :=
  fun m ρ _ => Cert.KernelIdeal.Hand.frame (F := Ideal) m ρ

theorem frame_ri : Cert.frame_ReferenceIdeal :=
  fun m ρ _ => (θ_run Cert.ReferenceIdeal.defs _ _).mono (fun _ h c => (h c).2)
    (Cert.ReferenceIdeal.ValueP.run (F := Ideal) m ρ)

/-- Both idealized programs end with the routed expert's output for every (token, slot): the kernel by its masked
    sum collapsed onto the routed expert, the reference by its gathers read in range. -/
theorem algebraic : Cert.algebraic_KernelIdeal_ReferenceIdeal := by
  intro m ρ m' ρ' hpre hagree
  refine ⟨fun c => Cert.Spec.result (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)), ?_, ?_⟩
  · refine (θ_run Cert.KernelIdeal.defs _ _).mono (fun _ h c => ⟨(h c).1.trans ?_, (h c).2⟩)
      (Cert.KernelIdeal.Hand.kernel_value m ρ)
    exact Cert.Spec.kernelResult_eq _ _ _ _ _ (Cert.PreFacts.idx_lt _ _ _ _ _ (hpre c))
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v10_eq, (hagree c).1, (hagree c).2.1, (hagree c).2.2.1, (hagree c).2.2.2.1,
      (hagree c).2.2.2.2]
    exact Cert.ReferenceIdeal.RefValue.ref_value _ _ _ _ _ (Cert.PreFacts.idx_lt _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
